-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S800000 : S_.BroadcastsInDim S800000 (![] : Fin 0 → Fin S800000.rank)
  reducesTo_S800000_S_d0 : S800000.ReducesTo [0] S_

variable [Facts]

def fn_part4 {F : FTy → Type} [FloatOps F] (main_arg1 : IVec S800000 32) (main_arg2 : IVec S800000 32) (main_v67 : IVec S_ 1) : IVec S_ 1 :=
  let main_c_26 : IVec S_ 32 := constantI S_ 32 50000#32
  let main_v68 : IVec S800000 32 := broadcastInDim S800000 ![] bcast_S_S800000 main_c_26
  let main_v69 : IVec S800000 1 := cmpi .slt main_arg1 main_v68
  let main_c_27 : IVec S_ 1 := constantI S_ 1 1#1
  let main_v70 : IVec S_ 1 := (fun x v => Host.reduce IntOp.andi x v reducesTo_S800000_S_d0 h_S_) main_v69 main_c_27
  let main_v71 : IVec S_ 1 := andi main_v67 main_v70
  let main_c_28 : IVec S_ 32 := constantI S_ 32 0#32
  let main_v72 : IVec S800000 32 := broadcastInDim S800000 ![] bcast_S_S800000 main_c_28
  let main_v73 : IVec S800000 1 := cmpi .sge main_arg2 main_v72
  let main_c_29 : IVec S_ 1 := constantI S_ 1 1#1
  let main_v74 : IVec S_ 1 := (fun x v => Host.reduce IntOp.andi x v reducesTo_S800000_S_d0 h_S_) main_v73 main_c_29
  let main_v75 : IVec S_ 1 := andi main_v71 main_v74
  let main_c_30 : IVec S_ 32 := constantI S_ 32 50000#32
  let main_v76 : IVec S800000 32 := broadcastInDim S800000 ![] bcast_S_S800000 main_c_30
  let main_v77 : IVec S800000 1 := cmpi .slt main_arg2 main_v76
  let main_c_31 : IVec S_ 1 := constantI S_ 1 1#1
  let main_v78 : IVec S_ 1 := (fun x v => Host.reduce IntOp.andi x v reducesTo_S800000_S_d0 h_S_) main_v77 main_c_31
  let main_v79 : IVec S_ 1 := andi main_v75 main_v78
  main_v79

def fn_part3 {F : FTy → Type} [FloatOps F] (main_arg1 : IVec S800000 32) (main_arg2 : IVec S800000 32) (main_arg13 : FVec F S128 .f32) (main_arg14 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_c_24 : IVec S_ 32 := constantI S_ 32 0#32
  let main_v64 : IVec S800000 32 := broadcastInDim S800000 ![] bcast_S_S800000 main_c_24
  let main_v65 : IVec S800000 1 := cmpi .sge main_arg1 main_v64
  let main_c_25 : IVec S_ 1 := constantI S_ 1 1#1
  let main_v66 : IVec S_ 1 := (fun x v => Host.reduce IntOp.andi x v reducesTo_S800000_S_d0 h_S_) main_v65 main_c_25
  let main_v67 : IVec S_ 1 := andi main_v63 main_v66
  fn_part4 (F := F) main_arg1 main_arg2 main_v67

def fn_part2 {F : FTy → Type} [FloatOps F] (main_arg1 : IVec S800000 32) (main_arg2 : IVec S800000 32) (main_arg9 : FVec F S128x128 .f32) (main_arg10 : FVec F S128 .f32) (main_arg11 : FVec F S128 .f32) (main_arg12 : FVec F S128 .f32) (main_arg13 : FVec F S128 .f32) (main_arg14 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg1 main_arg2 main_arg13 main_arg14 main_v48 main_v49 main_v50

def fn_part1 {F : FTy → Type} [FloatOps F] (main_arg1 : IVec S800000 32) (main_arg2 : IVec S800000 32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg2 main_arg9 main_arg10 main_arg11 main_arg12 main_arg13 main_arg14 main_v33

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg2 main_arg6 main_arg7 main_arg8 main_arg9 main_arg10 main_arg11 main_arg12 main_arg13 main_arg14 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x384 : Shape := ⟨2, ![128, 384]⟩
abbrev S384 : Shape := ⟨1, ![384]⟩
abbrev S1x384 : Shape := ⟨2, ![1, 384]⟩
abbrev S50000x384 : Shape := ⟨2, ![50000, 384]⟩
abbrev S5000x128 : Shape := ⟨2, ![5000, 128]⟩
abbrev S5000x384 : Shape := ⟨2, ![5000, 384]⟩
abbrev S50000x8x16 : Shape := ⟨3, ![50000, 8, 16]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x8x16 : Shape := ⟨3, ![800000, 8, 16]⟩
abbrev S1000x8x16 : Shape := ⟨3, ![1000, 8, 16]⟩
abbrev S1000x8 : Shape := ⟨2, ![1000, 8]⟩
abbrev S1000x8x1 : Shape := ⟨3, ![1000, 8, 1]⟩
abbrev S800000x128 : Shape := ⟨2, ![800000, 128]⟩
abbrev S1x128 : Shape := ⟨2, ![1, 128]⟩
abbrev S5000 : Shape := ⟨1, ![5000]⟩
abbrev S5000x1 : Shape := ⟨2, ![5000, 1]⟩

abbrev nBuf : Space → Nat
  | .hbm => 106
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128x384, .f32⟩
  | .hbm, ⟨16, _⟩ => ⟨S384, .f32⟩
  | .hbm, ⟨17, _⟩ => ⟨S1x384, .f32⟩
  | .hbm, ⟨18, _⟩ => ⟨S50000x384, .f32⟩
  | .hbm, ⟨19, _⟩ => ⟨S50000x128, .f32⟩
  | .hbm, ⟨20, _⟩ => ⟨S50000x8x16, .f32⟩
  | .hbm, ⟨21, _⟩ => ⟨S50000x128, .f32⟩
  | .hbm, ⟨22, _⟩ => ⟨S50000x8x16, .f32⟩
  | .hbm, ⟨23, _⟩ => ⟨S50000x128, .f32⟩
  | .hbm, ⟨24, _⟩ => ⟨S50000x8x16, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S1, .i32⟩
  | .hbm, ⟨34, _⟩ => ⟨S_, .i32⟩
  | .hbm, ⟨35, _⟩ => ⟨S800000x1, .i32⟩
  | .hbm, ⟨36, _⟩ => ⟨S800000x1, .i1⟩
  | .hbm, ⟨37, _⟩ => ⟨S1x1, .i32⟩
  | .hbm, ⟨38, _⟩ => ⟨S800000x1, .i32⟩
  | .hbm, ⟨39, _⟩ => ⟨S800000x1, .i1⟩
  | .hbm, ⟨40, _⟩ => ⟨S800000x1, .i1⟩
  | .hbm, ⟨41, _⟩ => ⟨S_, .i1⟩
  | .hbm, ⟨42, _⟩ => ⟨S800000, .i1⟩
  | .hbm, ⟨43, _⟩ => ⟨S800000x8x16, .f32⟩
  | .hbm, ⟨44, _⟩ => ⟨S800000x8x16, .i1⟩
  | .hbm, ⟨45, _⟩ => ⟨S_, .f32⟩
  | .hbm, ⟨46, _⟩ => ⟨S800000x8x16, .f32⟩
  | .hbm, ⟨47, _⟩ => ⟨S800000x8x16, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S1, .i32⟩
  | .hbm, ⟨57, _⟩ => ⟨S_, .i32⟩
  | .hbm, ⟨58, _⟩ => ⟨S800000x1, .i32⟩
  | .hbm, ⟨59, _⟩ => ⟨S800000x1, .i1⟩
  | .hbm, ⟨60, _⟩ => ⟨S1x1, .i32⟩
  | .hbm, ⟨61, _⟩ => ⟨S800000x1, .i32⟩
  | .hbm, ⟨62, _⟩ => ⟨S800000x1, .i1⟩
  | .hbm, ⟨63, _⟩ => ⟨S800000x1, .i1⟩
  | .hbm, ⟨64, _⟩ => ⟨S_, .i1⟩
  | .hbm, ⟨65, _⟩ => ⟨S800000, .i1⟩
  | .hbm, ⟨66, _⟩ => ⟨S800000x8x16, .f32⟩
  | .hbm, ⟨67, _⟩ => ⟨S800000x8x16, .i1⟩
  | .hbm, ⟨68, _⟩ => ⟨S_, .f32⟩
  | .hbm, ⟨69, _⟩ => ⟨S800000x8x16, .f32⟩
  | .hbm, ⟨70, _⟩ => ⟨S800000x8x16, .f32⟩
  | .hbm, ⟨71, _⟩ => ⟨S_, .i32⟩
  | .hbm, ⟨72, _⟩ => ⟨S800000, .i32⟩
  | .hbm, ⟨73, _⟩ => ⟨S800000, .i1⟩
  | .hbm, ⟨74, _⟩ => ⟨S_, .i32⟩
  | .hbm, ⟨75, _⟩ => ⟨S800000, .i32⟩
  | .hbm, ⟨76, _⟩ => ⟨S800000, .i32⟩
  | .hbm, ⟨77, _⟩ => ⟨S800000, .i32⟩
  | .hbm, ⟨78, _⟩ => ⟨S800000x1, .i32⟩
  | .hbm, ⟨79, _⟩ => ⟨S1, .i32⟩
  | .hbm, ⟨80, _⟩ => ⟨S_, .i32⟩
  | .hbm, ⟨81, _⟩ => ⟨S800000x1, .i32⟩
  | .hbm, ⟨82, _⟩ => ⟨S800000x1, .i1⟩
  | .hbm, ⟨83, _⟩ => ⟨S1x1, .i32⟩
  | .hbm, ⟨84, _⟩ => ⟨S800000x1, .i32⟩
  | .hbm, ⟨85, _⟩ => ⟨S800000x1, .i1⟩
  | .hbm, ⟨86, _⟩ => ⟨S800000x1, .i1⟩
  | .hbm, ⟨87, _⟩ => ⟨S_, .i1⟩
  | .hbm, ⟨88, _⟩ => ⟨S800000, .i1⟩
  | .hbm, ⟨89, _⟩ => ⟨S800000x8x16, .f32⟩
  | .hbm, ⟨90, _⟩ => ⟨S800000x8x16, .i1⟩
  | .hbm, ⟨91, _⟩ => ⟨S_, .f32⟩
  | .hbm, ⟨92, _⟩ => ⟨S800000x8x16, .f32⟩
  | .hbm, ⟨93, _⟩ => ⟨S800000x8x16, .f32⟩
  | .hbm, ⟨94, _⟩ => ⟨S800000x8x16, .f32⟩
  | .hbm, ⟨95, _⟩ => ⟨S800000x128, .f32⟩
  | .hbm, ⟨96, _⟩ => ⟨S_, .f32⟩
  | .hbm, ⟨97, _⟩ => ⟨S50000x128, .f32⟩
  | .hbm, ⟨98, _⟩ => ⟨S800000x1, .i32⟩
  | .hbm, ⟨99, _⟩ => ⟨S50000x128, .f32⟩
  | .hbm, ⟨100, _⟩ => ⟨S1x128, .f32⟩
  | .hbm, ⟨101, _⟩ => ⟨S1x128, .f32⟩
  | .hbm, ⟨102, _⟩ => ⟨S1x128, .f32⟩
  | .hbm, ⟨103, _⟩ => ⟨S1x128, .f32⟩
  | .hbm, ⟨104, _⟩ => ⟨S1x128, .f32⟩
  | .hbm, ⟨105, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x384, .f32⟩
  | .local _ .vmem, ⟨3, _⟩ => ⟨S1x384, .f32⟩
  | .local _ .vmem, ⟨4, _⟩ => ⟨S5000x384, .f32⟩
  | .local _ .vmem, ⟨5, _⟩ => ⟨S5000x384, .f32⟩
  | .local _ .vmem, ⟨6, _⟩ => ⟨S1000x8x16, .f32⟩
  | .local _ .vmem, ⟨7, _⟩ => ⟨S1000x8x16, .f32⟩
  | .local _ .vmem, ⟨8, _⟩ => ⟨S1000x8x16, .f32⟩
  | .local _ .vmem, ⟨9, _⟩ => ⟨S1000x8x16, .f32⟩
  | .local _ .vmem, ⟨10, _⟩ => ⟨S1000x8x16, .f32⟩
  | .local _ .vmem, ⟨11, _⟩ => ⟨S1000x8x16, .f32⟩
  | .local _ .vmem, ⟨12, _⟩ => ⟨S1000x8x16, .f32⟩
  | .local _ .vmem, ⟨13, _⟩ => ⟨S1000x8x16, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v10 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v11 : Ref sig .tc := ⟨.hbm, 70, rfl⟩
abbrev main_call2_c : Ref sig .tc := ⟨.hbm, 71, rfl⟩
abbrev main_call2_v0 : Ref sig .tc := ⟨.hbm, 72, rfl⟩
abbrev main_call2_v1 : Ref sig .tc := ⟨.hbm, 73, rfl⟩
abbrev main_call2_c_0 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_c_1 : Ref sig .tc := ⟨.hbm, 79, rfl⟩
abbrev main_call2_c_2 : Ref sig .tc := ⟨.hbm, 80, rfl⟩
abbrev main_call2_v6 : Ref sig .tc := ⟨.hbm, 81, rfl⟩
abbrev main_call2_v7 : Ref sig .tc := ⟨.hbm, 82, rfl⟩
abbrev main_call2_v8 : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_call2_c_3 : Ref sig .tc := ⟨.hbm, 87, rfl⟩
abbrev main_call2_v12 : Ref sig .tc := ⟨.hbm, 88, rfl⟩
abbrev main_call2_v13 : Ref sig .tc := ⟨.hbm, 89, rfl⟩
abbrev main_call2_v14 : Ref sig .tc := ⟨.hbm, 90, rfl⟩
abbrev main_call2_cst : Ref sig .tc := ⟨.hbm, 91, rfl⟩
abbrev main_call2_v15 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_cst : Ref sig .tc := ⟨.hbm, 96, rfl⟩
abbrev main_v15 : Ref sig .tc := ⟨.hbm, 97, rfl⟩
abbrev main_v16 : Ref sig .tc := ⟨.hbm, 98, rfl⟩
abbrev main_v17 : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_v21 : Ref sig .tc := ⟨.hbm, 103, rfl⟩
abbrev main_v22 : Ref sig .tc := ⟨.hbm, 104, rfl⟩
abbrev main_v23 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg8_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem8_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![800], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1000x8x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x8x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x8x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1000x8x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  concatenates_S128x128_S128x128_S128x128_S128x384_d1 : Shape.Concatenates [S128x128, S128x128, S128x128] S128x384 1
  concatenates_S128_S128_S128_S384_d0 : Shape.Concatenates [S128, S128, S128] S384 0
  shapeCasts_S384_S1x384 : S384.ShapeCasts S1x384
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S5000x384 : S1x384.Broadcasts S5000x384
  inb_S5000x384_S5000x384_0_0 : ∀ a, (![0, 0] : Fin 2 → Nat) a + S5000x384.size a ≤ S5000x384.size a
  h_S5000x384 : 0 < S5000x384.numel
  slices_S50000x384_S50000x128_0_0 : S50000x384.Slices ![0, 0] S50000x128
  shapeCasts_S50000x128_S50000x8x16 : S50000x128.ShapeCasts S50000x8x16
  slices_S50000x384_S50000x128_0_128 : S50000x384.Slices ![0, 128] S50000x128
  slices_S50000x384_S50000x128_0_256 : S50000x384.Slices ![0, 256] S50000x128
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x8x16_0 : S800000.BroadcastsInDim S800000x8x16 (![0] : Fin 1 → Fin S800000x8x16.rank)
  bcast_S_S800000x8x16 : S_.BroadcastsInDim S800000x8x16 (![] : Fin 0 → Fin S800000x8x16.rank)
  inb_S1000x8x16_S1000x8x16_0_0_0 : ∀ a, (![0, 0, 0] : Fin 3 → Nat) a + S1000x8x16.size a ≤ S1000x8x16.size a
  h_S1000x8x16 : 0 < S1000x8x16.numel
  shapeCasts_S1000x8x16_S1000x8x16 : S1000x8x16.ShapeCasts S1000x8x16
  reduces_S1000x8x16_S1000x8 : S1000x8x16.Reduces [2] S1000x8
  shapeCasts_S1000x8_S1000x8x1 : S1000x8.ShapeCasts S1000x8x1
  broadcasts_S1000x8x1_S1000x8x16 : S1000x8x1.Broadcasts S1000x8x16
  shapeCasts_S800000x8x16_S800000x128 : S800000x8x16.ShapeCasts S800000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  reduces_S5000x128_S5000 : S5000x128.Reduces [1] S5000
  shapeCasts_S5000_S5000x1 : S5000.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  dot_S5000x128_S128x384_S5000x384_1_0_0_1_n_n_wf : DotDims.WF S5000x128 S128x384 S5000x384 [1] [0] [0] [1] [] []
  gather_S50000x8x16_S800000x1_S800000x8x16_12_0_n_n_0_1_1816_wf : GatherDims.WF S50000x8x16 S800000x1 S800000x8x16 [1, 2] [0] [] [0] [] 1 ![1, 8, 16]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x384.size a ≤ S50000x384.size a
  hwx0_3 : ∀ i : grid0.Coords, EltTy.bits .f32 = 32 ∨ (Rect.block (s := S50000x384) S5000x384.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x8x16.size a ≤ S800000x8x16.size a
  hwx1_0 : ∀ i : grid1.Coords, EltTy.bits .f32 = 32 ∨ (Rect.block (s := S800000x8x16) S1000x8x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x8x16.size a ≤ S800000x8x16.size a
  hwx1_1 : ∀ i : grid1.Coords, EltTy.bits .f32 = 32 ∨ (Rect.block (s := S800000x8x16) S1000x8x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x8x16.size a ≤ S800000x8x16.size a
  hwx1_2 : ∀ i : grid1.Coords, EltTy.bits .f32 = 32 ∨ (Rect.block (s := S800000x8x16) S1000x8x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x8x16.size a ≤ S800000x8x16.size a
  hwx1_3 : ∀ i : grid1.Coords, EltTy.bits .f32 = 32 ∨ (Rect.block (s := S800000x8x16) S1000x8x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x128.size a ≤ S50000x128.size a
  hwx2_8 : ∀ i : grid2.Coords, EltTy.bits .f32 = 32 ∨ (Rect.block (s := S50000x128) S5000x128.size (cc2_transform_8 i) (hinb2_8 i)).WholeWords (EltTy.packing .f32)

variable [Facts₀]

def dot_S5000x128_S128x384_S5000x384_1_0_0_1_n_n : DotDims S5000x128 S128x384 S5000x384 where
  lhsContracting := [1]
  rhsContracting := [0]
  lhsNonContracting := [0]
  rhsNonContracting := [1]
  lhsBatch := []
  rhsBatch := []
  wf := dot_S5000x128_S128x384_S5000x384_1_0_0_1_n_n_wf
def gather_S50000x8x16_S800000x1_S800000x8x16_12_0_n_n_0_1_1816 : GatherDims S50000x8x16 S800000x1 S800000x8x16 where
  offsetDims := [1, 2]
  collapsedSliceDims := [0]
  operandBatchingDims := []
  startIndicesBatchingDims := []
  startIndexMap := [0]
  indexVectorDim := 1
  sliceSizes := ![1, 8, 16]
  wf := gather_S50000x8x16_S800000x1_S800000x8x16_12_0_n_n_0_1_1816_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S5000x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S1000x8x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1000x8x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1000x8x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1000x8x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v21) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg9) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v22) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v23) S5000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S1x128 : Shape := ⟨2, ![1, 128]⟩
abbrev S50000x8x16 : Shape := ⟨3, ![50000, 8, 16]⟩
abbrev S_ : Shape := ⟨0, ![]⟩
abbrev S800000x1 : Shape := ⟨2, ![800000, 1]⟩
abbrev S800000x8x16 : Shape := ⟨3, ![800000, 8, 16]⟩
abbrev S800000x8 : Shape := ⟨2, ![800000, 8]⟩
abbrev S800000x8x1 : Shape := ⟨3, ![800000, 8, 1]⟩
abbrev S50000 : Shape := ⟨1, ![50000]⟩
abbrev S50000x1 : Shape := ⟨2, ![50000, 1]⟩

abbrev nBuf : Space → Nat
  | .hbm => 147
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128, .f32⟩
  | 12 => ⟨S128, .f32⟩
  | 13 => ⟨S128, .f32⟩
  | 14 => ⟨S128, .f32⟩
  | 15 => ⟨S50000x128, .f32⟩
  | 16 => ⟨S1x128, .f32⟩
  | 17 => ⟨S50000x128, .f32⟩
  | 18 => ⟨S50000x128, .f32⟩
  | 19 => ⟨S50000x8x16, .f32⟩
  | 20 => ⟨S50000x128, .f32⟩
  | 21 => ⟨S1x128, .f32⟩
  | 22 => ⟨S50000x128, .f32⟩
  | 23 => ⟨S50000x128, .f32⟩
  | 24 => ⟨S50000x8x16, .f32⟩
  | 25 => ⟨S50000x128, .f32⟩
  | 26 => ⟨S1x128, .f32⟩
  | 27 => ⟨S50000x128, .f32⟩
  | 28 => ⟨S50000x128, .f32⟩
  | 29 => ⟨S50000x8x16, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x8x16, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x8x16, .f32⟩
  | 48 => ⟨S800000x8x16, .f32⟩
  | 49 => ⟨S_, .f32⟩
  | 50 => ⟨S800000x8, .f32⟩
  | 51 => ⟨S800000x8x1, .f32⟩
  | 52 => ⟨S_, .f32⟩
  | 53 => ⟨S800000x8x1, .f32⟩
  | 54 => ⟨S800000x8x1, .f32⟩
  | 55 => ⟨S_, .f32⟩
  | 56 => ⟨S_, .f32⟩
  | 57 => ⟨S_, .f32⟩
  | 58 => ⟨S800000x8x1, .f32⟩
  | 59 => ⟨S800000x8x1, .f32⟩
  | 60 => ⟨S_, .f32⟩
  | 61 => ⟨S800000x8x1, .f32⟩
  | 62 => ⟨S800000x8x1, .f32⟩
  | 63 => ⟨S800000x8x1, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x8x16, .f32⟩
  | 73 => ⟨S800000x8x16, .f32⟩
  | 74 => ⟨S800000x8x16, .f32⟩
  | 75 => ⟨S_, .f32⟩
  | 76 => ⟨S50000x8x16, .f32⟩
  | 77 => ⟨S800000x1, .i32⟩
  | 78 => ⟨S50000x8x16, .f32⟩
  | 79 => ⟨S50000x128, .f32⟩
  | 80 => ⟨S50000x128, .f32⟩
  | 81 => ⟨S_, .f32⟩
  | 82 => ⟨S50000, .f32⟩
  | 83 => ⟨S50000x1, .f32⟩
  | 84 => ⟨S_, .f32⟩
  | 85 => ⟨S50000x1, .f32⟩
  | 86 => ⟨S50000x1, .f32⟩
  | 87 => ⟨S50000x128, .f32⟩
  | 88 => ⟨S50000x128, .f32⟩
  | 89 => ⟨S50000x128, .f32⟩
  | 90 => ⟨S_, .f32⟩
  | 91 => ⟨S50000, .f32⟩
  | 92 => ⟨S50000x1, .f32⟩
  | 93 => ⟨S_, .f32⟩
  | 94 => ⟨S50000x1, .f32⟩
  | 95 => ⟨S50000x1, .f32⟩
  | 96 => ⟨S50000x128, .f32⟩
  | 97 => ⟨S50000x128, .f32⟩
  | 98 => ⟨S_, .f32⟩
  | 99 => ⟨S50000x1, .f32⟩
  | 100 => ⟨S50000x1, .f32⟩
  | 101 => ⟨S50000x1, .f32⟩
  | 102 => ⟨S50000x128, .f32⟩
  | 103 => ⟨S50000x128, .f32⟩
  | 104 => ⟨S1x128, .f32⟩
  | 105 => ⟨S50000x128, .f32⟩
  | 106 => ⟨S50000x128, .f32⟩
  | 107 => ⟨S1x128, .f32⟩
  | 108 => ⟨S50000x128, .f32⟩
  | 109 => ⟨S50000x128, .f32⟩
  | 110 => ⟨S_, .f32⟩
  | 111 => ⟨S50000, .f32⟩
  | 112 => ⟨S50000x1, .f32⟩
  | 113 => ⟨S_, .f32⟩
  | 114 => ⟨S50000x1, .f32⟩
  | 115 => ⟨S50000x1, .f32⟩
  | 116 => ⟨S50000x128, .f32⟩
  | 117 => ⟨S50000x128, .f32⟩
  | 118 => ⟨S50000x128, .f32⟩
  | 119 => ⟨S_, .f32⟩
  | 120 => ⟨S50000, .f32⟩
  | 121 => ⟨S50000x1, .f32⟩
  | 122 => ⟨S_, .f32⟩
  | 123 => ⟨S50000x1, .f32⟩
  | 124 => ⟨S50000x1, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S50000x1, .f32⟩
  | 1 => ⟨S50000x1, .f32⟩
  | 2 => ⟨S50000x1, .f32⟩
  | 3 => ⟨S50000x128, .f32⟩
  | 4 => ⟨S50000x128, .f32⟩
  | 5 => ⟨S1x128, .f32⟩
  | 6 => ⟨S50000x128, .f32⟩
  | 7 => ⟨S50000x128, .f32⟩
  | 8 => ⟨S1x128, .f32⟩
  | 9 => ⟨S50000x128, .f32⟩
  | 10 => ⟨S50000x128, .f32⟩
  | 11 => ⟨S50000x128, .f32⟩
  | 12 => ⟨S1x128, .f32⟩
  | 13 => ⟨S50000x128, .f32⟩
  | 14 => ⟨S50000x128, .f32⟩
  | 15 => ⟨S_, .f32⟩
  | 16 => ⟨S50000x128, .f32⟩
  | 17 => ⟨S50000x128, .f32⟩
  | 18 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_1 : Ref sig .tc := ⟨.hbm, 39, rfl⟩
abbrev main_v22 : Ref sig .tc := ⟨.hbm, 40, rfl⟩
abbrev main_v23 : Ref sig .tc := ⟨.hbm, 41, rfl⟩
abbrev main_c_2 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst : Ref sig .tc := ⟨.hbm, 49, rfl⟩
abbrev main_v30 : Ref sig .tc := ⟨.hbm, 50, rfl⟩
abbrev main_v31 : Ref sig .tc := ⟨.hbm, 51, rfl⟩
abbrev main_cst_3 : Ref sig .tc := ⟨.hbm, 52, rfl⟩
abbrev main_v32 : Ref sig .tc := ⟨.hbm, 53, rfl⟩
abbrev main_v33 : Ref sig .tc := ⟨.hbm, 54, rfl⟩
abbrev main_cst_4 : Ref sig .tc := ⟨.hbm, 55, rfl⟩
abbrev main_cst_5 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_v34 : Ref sig .tc := ⟨.hbm, 62, rfl⟩
abbrev main_v35 : Ref sig .tc := ⟨.hbm, 63, rfl⟩
abbrev main_c_6 : Ref sig .tc := ⟨.hbm, 64, rfl⟩
abbrev main_v36 : Ref sig .tc := ⟨.hbm, 65, rfl⟩
abbrev main_v37 : Ref sig .tc := ⟨.hbm, 66, rfl⟩
abbrev main_c_7 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_8 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_9 : Ref sig .tc := ⟨.hbm, 81, rfl⟩
abbrev main_v50 : Ref sig .tc := ⟨.hbm, 82, rfl⟩
abbrev main_v51 : Ref sig .tc := ⟨.hbm, 83, rfl⟩
abbrev main_cst_10 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_11 : Ref sig .tc := ⟨.hbm, 90, rfl⟩
abbrev main_v57 : Ref sig .tc := ⟨.hbm, 91, rfl⟩
abbrev main_v58 : Ref sig .tc := ⟨.hbm, 92, rfl⟩
abbrev main_cst_12 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_13 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_14 : Ref sig .tc := ⟨.hbm, 110, rfl⟩
abbrev main_v74 : Ref sig .tc := ⟨.hbm, 111, rfl⟩
abbrev main_v75 : Ref sig .tc := ⟨.hbm, 112, rfl⟩
abbrev main_cst_15 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_16 : Ref sig .tc := ⟨.hbm, 119, rfl⟩
abbrev main_v81 : Ref sig .tc := ⟨.hbm, 120, rfl⟩
abbrev main_v82 : Ref sig .tc := ⟨.hbm, 121, rfl⟩
abbrev main_cst_17 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_18 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_call1_cst : Ref sig .tc := ⟨.hbm, 143, rfl⟩
abbrev main_call1_v0 : Ref sig .tc := ⟨.hbm, 144, rfl⟩
abbrev main_v102 : Ref sig .tc := ⟨.hbm, 145, rfl⟩
abbrev main_v103 : Ref sig .tc := ⟨.hbm, 146, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S50000x128_S50000x8x16 : S50000x128.ShapeCasts S50000x8x16
  bcast_S_S800000 : S_.BroadcastsInDim S800000 (![] : Fin 0 → Fin S800000.rank)
  bcast_S800000_S800000x1_0 : S800000.BroadcastsInDim S800000x1 (![0] : Fin 1 → Fin S800000x1.rank)
  reducesTo_S800000x8x16_S800000x8_d2 : S800000x8x16.ReducesTo [2] S800000x8
  h_S_ : 0 < S_.numel
  bcast_S800000x8_S800000x8x1_0_1 : S800000x8.BroadcastsInDim S800000x8x1 (![0, 1] : Fin 2 → Fin S800000x8x1.rank)
  bcast_S_S800000x8x1 : S_.BroadcastsInDim S800000x8x1 (![] : Fin 0 → Fin S800000x8x1.rank)
  bcast_S800000x8x1_S800000x8x16_0_1_2 : S800000x8x1.BroadcastsInDim S800000x8x16 (![0, 1, 2] : Fin 3 → Fin S800000x8x16.rank)
  bcast_S_S50000x8x16 : S_.BroadcastsInDim S50000x8x16 (![] : Fin 0 → Fin S50000x8x16.rank)
  shapeCasts_S50000x8x16_S50000x128 : S50000x8x16.ShapeCasts S50000x128
  reducesTo_S50000x128_S50000_d1 : S50000x128.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  dot_S50000x128_S128x128_S50000x128_1_0_0_1_n_n_wf : DotDims.WF S50000x128 S128x128 S50000x128 [1] [0] [0] [1] [] []
  gather_S50000x8x16_S800000x1_S800000x8x16_12_0_n_n_0_1_1816_wf : GatherDims.WF S50000x8x16 S800000x1 S800000x8x16 [1, 2] [0] [] [0] [] 1 ![1, 8, 16]
  scatter_S50000x8x16_S800000x1_S800000x8x16_12_0_0_1_wf : ScatterDims.WF S50000x8x16 S800000x1 S800000x8x16 [1, 2] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x8x16_S800000x1_S800000x8x16_12_0_n_n_0_1_1816 : GatherDims S50000x8x16 S800000x1 S800000x8x16 where
  offsetDims := [1, 2]
  collapsedSliceDims := [0]
  operandBatchingDims := []
  startIndicesBatchingDims := []
  startIndexMap := [0]
  indexVectorDim := 1
  sliceSizes := ![1, 8, 16]
  wf := gather_S50000x8x16_S800000x1_S800000x8x16_12_0_n_n_0_1_1816_wf
def scatter_S50000x8x16_S800000x1_S800000x8x16_12_0_0_1 : ScatterDims S50000x8x16 S800000x1 S800000x8x16 where
  updateWindowDims := [1, 2]
  insertedWindowDims := [0]
  scatterDimsToOperandDims := [0]
  indexVectorDim := 1
  wf := scatter_S50000x8x16_S800000x1_S800000x8x16_12_0_0_1_wf

class Facts : Prop extends Facts₀ where

variable [Facts]
-- ==== Proof.K.Reg0.lean ====
import proofs.«429932_j30906584662329_2_alg».proof.Proof.Gen.Kernel.Launch
import proofs.«429932_j30906584662329_2_alg».proof.Proof.Gen.Kernel.Skeleton
import proofs.«429932_j30906584662329_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 0 of @main: custom_call 0, `cc0__qkv_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): an input left in place
    holds what a fetch would put there (unfetched, the block index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (fetched at the first point only: its block index never moves) likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 (fetched at the first point only: its block index never moves) likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S5000x128 := Rect.unit (s := S5000x128) ![0, 0] S5000x128.size inb_S5000x128_S5000x128_0_0
abbrev r0_1 : Rect S128x384 := Rect.unit (s := S128x384) ![0, 0] S128x384.size inb_S128x384_S128x384_0_0
abbrev r0_2 : Rect S1x384 := Rect.unit (s := S1x384) ![0, 0] S1x384.size inb_S1x384_S1x384_0_0
abbrev r0_3 : Rect S5000x384 := Rect.unit (s := S5000x384) ![0, 0] S5000x384.size inb_S5000x384_S5000x384_0_0

/-! ## What the body leaves in the output window's buffer -/

/-- Window 3's staging buffer after the body, from the input windows' blocks: its 1 store as pieces, LAST
    FIRST (the payload is the skeleton's). -/
def out0_3 (x0 : Vec F S5000x128 .f32) (x1 : Vec F S128x384 .f32) (x2 : Vec F S1x384 .f32) : Vec F S5000x384 .f32 :=
  View.canon [⟨r0_3, k0_pay1 (View.ld x0 r0_0) (View.ld x1 r0_1) (View.ld x2 r0_2)⟩]

/-- Its store tiles the buffer (checked by evaluation), so it covers it. -/
theorem cover0_3 (p0 : Vec F S5000x384 .f32) (y : S5000x384.Idx) :
    ∃ pc ∈ ([⟨r0_3, p0⟩] : List (View.Piece (Elt F) S5000x384 .f32)), y ∈ pc.1.set :=
  View.cover_of_tiled [⟨r0_3, p0⟩] S5000x384.size (by rfl) y

/-! ## The body's triple -/

set_option maxHeartbeats 1000000 in
/-- The kernel body on whole staging memrefs, the inputs' at read contents `xW` and the output's at anything, runs to
    the continuation holding the inputs' as they were and the output's at `out0_3` of the inputs': the printed function
    is its skeleton, which is run statement by statement; the body's load of the output buffer reads a value it never uses. -/
theorem sound_kernel0 (c : Dev nD) (E : Set ℕ) (i : grid0.Coords) (arg1 : Memref sig .tc .vmem S5000x128 .f32) (harg1 : arg1.IsWhole) (arg2 : Memref sig .tc .vmem S128x384 .f32) (harg2 : arg2.IsWhole) (arg3 : Memref sig .tc .vmem S1x384 .f32) (harg3 : arg3.IsWhole) (arg4 : Memref sig .tc .vmem S5000x384 .f32) (harg4 : arg4.IsWhole)
    (x0 : Vec F S5000x128 .f32) (x1 : Vec F S128x384 .f32) (x2 : Vec F S1x384 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__qkv_kernel i arg1 harg1 arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at
    point `t` each input's buffer at its block and the output's at `out0_3` of the input blocks; the invariant the
    class's (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents (the proof data's definition projected). -/
theorem A_eq0 (c : Dev nD) (w : Fin cfg0.W) : (dat0 V c).A w = V c (Pipeline.arrRef spec0 w) := by
  dsimp only [dat0]

/-- What the body leaves, window by window (the proof data's match reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's owed counters pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
import proofs.«429932_j30906584662329_2_alg».proof.Proof.Gen.Kernel.Launch
import proofs.«429932_j30906584662329_2_alg».proof.Proof.Gen.Kernel.Skeleton
import proofs.«429932_j30906584662329_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 1 of @main: custom_call 1, `cc1__edge_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): an input left in place
    holds what a fetch would put there (unfetched, the block index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1000x8x16 := Rect.unit (s := S1000x8x16) ![0, 0, 0] S1000x8x16.size inb_S1000x8x16_S1000x8x16_0_0_0

/-! ## What the body leaves in the output window's buffer -/

/-- Window 3's staging buffer after the body, from the input windows' blocks: its 1 store as pieces, LAST
    FIRST (the payload is the skeleton's). -/
def out1_3 (x0 : Vec F S1000x8x16 .f32) (x1 : Vec F S1000x8x16 .f32) (x2 : Vec F S1000x8x16 .f32) : Vec F S1000x8x16 .f32 :=
  View.canon [⟨r1_0, k1_pay1 (View.ld x0 r1_0) (View.ld x1 r1_0) (View.ld x2 r1_0)⟩]

/-- Its store tiles the buffer (checked by evaluation), so it covers it. -/
theorem cover1_3 (p0 : Vec F S1000x8x16 .f32) (y : S1000x8x16.Idx) :
    ∃ pc ∈ ([⟨r1_0, p0⟩] : List (View.Piece (Elt F) S1000x8x16 .f32)), y ∈ pc.1.set :=
  View.cover_of_tiled [⟨r1_0, p0⟩] S1000x8x16.size (by rfl) y

/-! ## The body's triple -/

set_option maxHeartbeats 1000000 in
/-- The kernel body on whole staging memrefs, the inputs' at read contents `xW` and the output's at anything, runs to
    the continuation holding the inputs' as they were and the output's at `out1_3` of the inputs': the printed function
    is its skeleton, which is run statement by statement; the body's load of the output buffer reads a value it never uses. -/
theorem sound_kernel1 (c : Dev nD) (E : Set ℕ) (i : grid1.Coords) (arg1 : Memref sig .tc .vmem S1000x8x16 .f32) (harg1 : arg1.IsWhole) (arg2 : Memref sig .tc .vmem S1000x8x16 .f32) (harg2 : arg2.IsWhole) (arg3 : Memref sig .tc .vmem S1000x8x16 .f32) (harg3 : arg3.IsWhole) (arg4 : Memref sig .tc .vmem S1000x8x16 .f32) (harg4 : arg4.IsWhole)
    (x0 : Vec F S1000x8x16 .f32) (x1 : Vec F S1000x8x16 .f32) (x2 : Vec F S1000x8x16 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__edge_kernel i arg1 harg1 arg2 harg2 arg3 harg3 arg4 harg4) K := by
  simp only [cc1__edge_kernel_eq_skeleton]; unfold cc1__edge_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at
    point `t` each input's buffer at its block and the output's at `out1_3` of the input blocks; the invariant the
    class's (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents (the proof data's definition projected). -/
theorem A_eq1 (c : Dev nD) (w : Fin cfg1.W) : (dat1 V c).A w = V c (Pipeline.arrRef spec1 w) := by
  dsimp only [dat1]

/-- What the body leaves, window by window (the proof data's match reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's owed counters pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
import proofs.«429932_j30906584662329_2_alg».proof.Proof.Gen.Kernel.Launch
import proofs.«429932_j30906584662329_2_alg».proof.Proof.Gen.Kernel.Skeleton
import proofs.«429932_j30906584662329_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 2: the third kernel (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): where the window is not
    fetched its block index has not moved, so the block kept from the point before is this point's; the window is
    uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): where the window is not
    fetched its block index has not moved, so the block kept from the point before is this point's; the window is
    uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): where the window is not
    fetched its block index has not moved, so the block kept from the point before is this point's; the window is
    uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): where the window is not
    fetched its block index has not moved, so the block kept from the point before is this point's; the window is
    uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): where the window is not
    fetched its block index has not moved, so the block kept from the point before is this point's; the window is
    uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for ANY proof
    data whose array is `V`'s (`hA`) and whose body leaves the block in place (`hafter`): where the window is not
    fetched its block index has not moved, so the block kept from the point before is this point's; the window is
    uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not, for ANY proof
    data whose array is `V`'s (`hA`) and whose body leaves the block in place (`hafter`): where the window is not
    fetched its block index has not moved, so the block kept from the point before is this point's; the window is
    uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's current staging buffer holds its block at every point, fetched there or not, for ANY proof
    data whose array is `V`'s (`hA`) and whose body leaves the block in place (`hafter`): where the window is not
    fetched its block index has not moved, so the block kept from the point before is this point's; the window is
    uncut and never idle. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store is of a whole buffer -/

abbrev r2_0 : Rect S5000x128 := Rect.unit (s := S5000x128) ![0, 0] S5000x128.size inb_S5000x128_S5000x128_0_0
abbrev r2_1 : Rect S1x128 := Rect.unit (s := S1x128) ![0, 0] S1x128.size inb_S1x128_S1x128_0_0
abbrev r2_2 : Rect S128x128 := Rect.unit (s := S128x128) ![0, 0] S128x128.size inb_S128x128_S128x128_0_0

/-! ## What the body leaves in the output window's buffer -/

/-- Window 8's staging buffer after the body, from the input windows' blocks: its 1 store as pieces, LAST FIRST.
    The stored value is the residual sum of the second normalisation's input and the rectified linear layer: the
    first three arguments are the first 60 statements' results (the first normalisation's output, the variance and
    the broadcast mean of the second), functions of the first four blocks. -/
def out2_8 (x0 : Vec F S5000x128 .f32) (x1 : Vec F S5000x128 .f32) (x2 : Vec F S1x128 .f32) (x3 : Vec F S1x128 .f32) (x4 : Vec F S1x128 .f32) (x5 : Vec F S1x128 .f32) (x6 : Vec F S128x128 .f32) (x7 : Vec F S1x128 .f32) : Vec F S5000x128 .f32 :=
  View.canon [⟨r2_0, k2_pay1 (k2_pay2 (View.ld x0 r2_0) (View.ld x1 r2_0) (View.ld x2 r2_1) (View.ld x3 r2_1)) (k2_pay4 (View.ld x0 r2_0) (View.ld x1 r2_0) (View.ld x2 r2_1) (View.ld x3 r2_1)) (k2_pay5 (View.ld x0 r2_0) (View.ld x1 r2_0) (View.ld x2 r2_1) (View.ld x3 r2_1)) (View.ld x4 r2_1) (View.ld x5 r2_1) (View.ld x6 r2_2) (View.ld x7 r2_1)⟩]

/-- Its store tiles the buffer (checked by evaluation), so it covers it. -/
theorem cover2_8 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-! ## The body's triple -/

set_option maxHeartbeats 1000000 in
/-- The kernel body on whole staging memrefs, the inputs' at read contents `xW` and the output's at anything, runs to
    the continuation holding the inputs' as they were and the output's at `out2_8` of the inputs': the printed functions
    are their skeletons, which are run statement by statement, through the call of the first 60 statements. The
    output's buffer is loaded once before the store; the loaded value is never used. -/
theorem sound_kernel2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S5000x128 .f32) (harg9 : arg9.IsWhole)
    (x0 : Vec F S5000x128 .f32) (x1 : Vec F S5000x128 .f32) (x2 : Vec F S1x128 .f32) (x3 : Vec F S1x128 .f32) (x4 : Vec F S1x128 .f32) (x5 : Vec F S1x128 .f32) (x6 : Vec F S128x128 .f32) (x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out2_8 x0 x1 x2 x3 x4 x5 x6 x7)) -∗ K ⟨⟩))
      ⊢ wp frame (wpE (defs₀ (F := F)) Variants.none c none) E (cc2__ffn_kernel i arg1 harg1 arg2 harg2 arg3 harg3 arg4 harg4 arg5 harg5 arg6 harg6 arg7 harg7 arg8 harg8 arg9 harg9) K := by
  simp only [cc2__ffn_kernel_eq_skeleton]; unfold cc2__ffn_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover2_8 _)

/-! ## The pipeline's proof data -/

/-- The proof data of pipeline 2 on core `c`: the arrays as the region finds them (`V`); after the body at
    point `t` each input's buffer at its block and the output's at `out2_8` of the input blocks; the invariant the
    class's (the scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

/-- The proof data's arrays are the region-entry contents (the proof data's definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]

/-- Each input's current staging buffer holds its block at every point, fetched there or not (`before2_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-! ## The body obligation, at a generic point -/

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
import proofs.«429932_j30906584662329_2_alg».proof.Proof.K.Reg0
import proofs.«429932_j30906584662329_2_alg».proof.Proof.K.Reg1
import proofs.«429932_j30906584662329_2_alg».proof.Proof.K.Reg2
import proofs.«429932_j30906584662329_2_alg».proof.Proof.Gen.Kernel.Launch
import proofs.«429932_j30906584662329_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of the program: three kernel regions among six host stretches

The buffer contents at every boundary between two items of the program are folded from the launch memory: a host
stretch rewrites the buffers its operations write, a kernel region leaves its windows' arrays at what the pipeline's
write-backs leave and every other buffer as it found it. Each region is entered from "every unscoped buffer at the
boundary's contents, the generator register at some state, nothing owed" and left at the same shape at the next
boundary's contents. The run then says: every execution terminates and every unscoped buffer ends at the last
boundary's contents; the argument arrays, which no item writes, end as launched. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- The same read at the TensorCore's references: the contents region 0 is entered from. -/
abbrev Ve0 : (c : Dev nD) → (b : Ref sig .tc) → Buf (Elt F) ((c : Thread nD τ).loc b) := fun c b => W1 m ρ c b
/-- At region 0's exit: its windows' arrays at what the pipeline leaves (an input's as entered, an output's with every
    write-back folded in), every other buffer as entered. -/
def W2 (c : Dev nD) : Valuation τ sig (Elt F) :=
  Pipeline.withArrays spec0 c (W1 m ρ c) fun w => (dat0 (Ve0 m ρ) c).arrAt w cfg0.N
theorem W2_arr (c : Dev nD) (w : Fin cfg0.W) :
    W2 m ρ c (Proc.devRef .tc (Pipeline.arrRef spec0 w)) = (dat0 (Ve0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references: region 0's exit contents. -/
abbrev Vx0 : (c : Dev nD) → (b : Ref sig .tc) → Buf (Elt F) ((c : Thread nD τ).loc b) := fun c b => W2 m ρ c b
/-- At region 0's exit each of its arrays holds what the pipeline leaves (`hF0`) and every other buffer what it held
    at entry (`hrest0`). -/
theorem hF0 (c : Dev nD) (w : Fin cfg0.W) : (dat0 (Ve0 m ρ) c).arrAt w cfg0.N = Vx0 m ρ c (Pipeline.arrRef spec0 w) :=
  (W2_arr m ρ c w).symm
theorem hrest0 (c : Dev nD) : ∀ b, b ∉ Finset.univ.image (Pipeline.arrRef spec0) → Vx0 m ρ c b = Ve0 m ρ c b :=
  fun b hb => W2_of_ne m ρ c b fun w e => hb (Finset.mem_image.mpr ⟨w, Finset.mem_univ _, e⟩)
/-- After the host stretch `hostOps1`. -/
abbrev W3 : Dev nD → Valuation τ sig (Elt F) := fun c => StableHlo.after hostOps1 (W2 m ρ c)
/-- After the host stretch `hostOps1_1`. -/
abbrev W4 : Dev nD → Valuation τ sig (Elt F) := fun c => StableHlo.after hostOps1_1 (W3 m ρ c)
/-- After the host stretch `hostOps1_2`. -/
abbrev W5 : Dev nD → Valuation τ sig (Elt F) := fun c => StableHlo.after hostOps1_2 (W4 m ρ c)
/-- After the host stretch `hostOps1_3`. -/
abbrev W6 : Dev nD → Valuation τ sig (Elt F) := fun c => StableHlo.after hostOps1_3 (W5 m ρ c)
/-- The same read at the TensorCore's references: the contents region 1 is entered from. -/
abbrev Ve1 : (c : Dev nD) → (b : Ref sig .tc) → Buf (Elt F) ((c : Thread nD τ).loc b) := fun c b => W6 m ρ c b
/-- At region 1's exit: its windows' arrays at what the pipeline leaves (an input's as entered, an output's with every
    write-back folded in), every other buffer as entered. -/
def W7 (c : Dev nD) : Valuation τ sig (Elt F) :=
  Pipeline.withArrays spec1 c (W6 m ρ c) fun w => (dat1 (Ve1 m ρ) c).arrAt w cfg1.N
theorem W7_arr (c : Dev nD) (w : Fin cfg1.W) :
    W7 m ρ c (Proc.devRef .tc (Pipeline.arrRef spec1 w)) = (dat1 (Ve1 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
/-- The same read at the TensorCore's references: region 1's exit contents. -/
abbrev Vx1 : (c : Dev nD) → (b : Ref sig .tc) → Buf (Elt F) ((c : Thread nD τ).loc b) := fun c b => W7 m ρ c b
/-- At region 1's exit each of its arrays holds what the pipeline leaves (`hF1`) and every other buffer what it held
    at entry (`hrest1`). -/
theorem hF1 (c : Dev nD) (w : Fin cfg1.W) : (dat1 (Ve1 m ρ) c).arrAt w cfg1.N = Vx1 m ρ c (Pipeline.arrRef spec1 w) :=
  (W7_arr m ρ c w).symm
theorem hrest1 (c : Dev nD) : ∀ b, b ∉ Finset.univ.image (Pipeline.arrRef spec1) → Vx1 m ρ c b = Ve1 m ρ c b :=
  fun b hb => W7_of_ne m ρ c b fun w e => hb (Finset.mem_image.mpr ⟨w, Finset.mem_univ _, e⟩)
/-- After the host stretch `hostOps2`. -/
abbrev W8 : Dev nD → Valuation τ sig (Elt F) := fun c => StableHlo.after hostOps2 (W7 m ρ c)
/-- The same read at the TensorCore's references: the contents region 2 is entered from. -/
abbrev Ve2 : (c : Dev nD) → (b : Ref sig .tc) → Buf (Elt F) ((c : Thread nD τ).loc b) := fun c b => W8 m ρ c b
/-- At region 2's exit: its windows' arrays at what the pipeline leaves (an input's as entered, an output's with every
    write-back folded in), every other buffer as entered. -/
def W9 (c : Dev nD) : Valuation τ sig (Elt F) :=
  Pipeline.withArrays spec2 c (W8 m ρ c) fun w => (dat2 (Ve2 m ρ) c).arrAt w cfg2.N
theorem W9_arr (c : Dev nD) (w : Fin cfg2.W) :
    W9 m ρ c (Proc.devRef .tc (Pipeline.arrRef spec2 w)) = (dat2 (Ve2 m ρ) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb
/-- The same read at the TensorCore's references: region 2's exit contents. -/
abbrev Vx2 : (c : Dev nD) → (b : Ref sig .tc) → Buf (Elt F) ((c : Thread nD τ).loc b) := fun c b => W9 m ρ c b
/-- At region 2's exit each of its arrays holds what the pipeline leaves (`hF2`) and every other buffer what it held
    at entry (`hrest2`). -/
theorem hF2 (c : Dev nD) (w : Fin cfg2.W) : (dat2 (Ve2 m ρ) c).arrAt w cfg2.N = Vx2 m ρ c (Pipeline.arrRef spec2 w) :=
  (W9_arr m ρ c w).symm
theorem hrest2 (c : Dev nD) : ∀ b, b ∉ Finset.univ.image (Pipeline.arrRef spec2) → Vx2 m ρ c b = Ve2 m ρ c b :=
  fun b hb => W9_of_ne m ρ c b fun w e => hb (Finset.mem_image.mpr ⟨w, Finset.mem_univ _, e⟩)

/-! ## What each item leaves unchanged -/

/-- A reference `hostOps0` does not write keeps its contents across it. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- A reference `hostOps1` does not write keeps its contents across it. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
/-- A reference `hostOps1_1` does not write keeps its contents across it. -/
theorem W4_of (c : Dev nD) (r : Ref sig .tc) (h : r ∉ hostOps1_1_W) :
    W4 m ρ c (Proc.devRef .tc r) = W3 m ρ c (Proc.devRef .tc r) :=
  StableHlo.after_of_writes_sub hostOps1_1 _ hostOps1_1_writes h
/-- A reference `hostOps1_2` does not write keeps its contents across it. -/
theorem W5_of (c : Dev nD) (r : Ref sig .tc) (h : r ∉ hostOps1_2_W) :
    W5 m ρ c (Proc.devRef .tc r) = W4 m ρ c (Proc.devRef .tc r) :=
  StableHlo.after_of_writes_sub hostOps1_2 _ hostOps1_2_writes h
/-- A reference `hostOps1_3` does not write keeps its contents across it. -/
theorem W6_of (c : Dev nD) (r : Ref sig .tc) (h : r ∉ hostOps1_3_W) :
    W6 m ρ c (Proc.devRef .tc r) = W5 m ρ c (Proc.devRef .tc r) :=
  StableHlo.after_of_writes_sub hostOps1_3 _ hostOps1_3_writes h
/-- A reference `hostOps2` does not write keeps its contents across it. -/
theorem W8_of (c : Dev nD) (r : Ref sig .tc) (h : r ∉ hostOps2_W) :
    W8 m ρ c (Proc.devRef .tc r) = W7 m ρ c (Proc.devRef .tc r) :=
  StableHlo.after_of_writes_sub hostOps2 _ hostOps2_writes h
/-- An input window's array is as region 0 found it: no write-back touches it. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (Ve0 m ρ) c).arrAt_in w hin _).trans (A_eq0 (Ve0 m ρ) c w))
/-- An input window's array is as region 1 found it: no write-back touches it. -/
theorem W7_in (c : Dev nD) (w : Fin cfg1.W) (hin : (cfg1.win w).isOut = false) :
    W7 m ρ c (Proc.devRef .tc (Pipeline.arrRef spec1 w)) = W6 m ρ c (Proc.devRef .tc (Pipeline.arrRef spec1 w)) :=
  (W7_arr m ρ c w).trans (((dat1 (Ve1 m ρ) c).arrAt_in w hin _).trans (A_eq1 (Ve1 m ρ) c w))
/-- An input window's array is as region 2 found it: no write-back touches it. -/
theorem W9_in (c : Dev nD) (w : Fin cfg2.W) (hin : (cfg2.win w).isOut = false) :
    W9 m ρ c (Proc.devRef .tc (Pipeline.arrRef spec2 w)) = W8 m ρ c (Proc.devRef .tc (Pipeline.arrRef spec2 w)) :=
  (W9_arr m ρ c w).trans (((dat2 (Ve2 m ρ) c).arrAt_in w hin _).trans (A_eq2 (Ve2 m ρ) c w))

/-! ## The arguments end as launched

No host operation writes an argument's buffer and no region's output window lies on one: a region reads an argument
through an input window, whose array no write-back touches, or bypasses it. So the fold at an argument's buffer walks
back to the launch memory. -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := W9_in m ρ c 0 rfl
    _ = W7 m ρ c (Proc.devRef .tc main_arg0) := W8_of m ρ c main_arg0 (by decide)
    _ = W6 m ρ c (Proc.devRef .tc main_arg0) := W7_of_ne m ρ c main_arg0 (by decide)
    _ = W5 m ρ c (Proc.devRef .tc main_arg0) := W6_of m ρ c main_arg0 (by decide)
    _ = W4 m ρ c (Proc.devRef .tc main_arg0) := W5_of m ρ c main_arg0 (by decide)
    _ = W3 m ρ c (Proc.devRef .tc main_arg0) := W4_of m ρ c main_arg0 (by decide)
    _ = W2 m ρ c (Proc.devRef .tc main_arg0) := W3_of m ρ c main_arg0 (by decide)
    _ = W1 m ρ c (Proc.devRef .tc main_arg0) := W2_in m ρ c 0 rfl
    _ = W0 m ρ c (Proc.devRef .tc main_arg0) := W1_of m ρ c main_arg0 (by decide)
    _ = m ((c : Thread nD τ).loc main_arg0) := rfl
theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := W9_of_ne m ρ c main_arg1 (by decide)
    _ = W7 m ρ c (Proc.devRef .tc main_arg1) := W8_of m ρ c main_arg1 (by decide)
    _ = W6 m ρ c (Proc.devRef .tc main_arg1) := W7_of_ne m ρ c main_arg1 (by decide)
    _ = W5 m ρ c (Proc.devRef .tc main_arg1) := W6_of m ρ c main_arg1 (by decide)
    _ = W4 m ρ c (Proc.devRef .tc main_arg1) := W5_of m ρ c main_arg1 (by decide)
    _ = W3 m ρ c (Proc.devRef .tc main_arg1) := W4_of m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := W9_of_ne m ρ c main_arg2 (by decide)
    _ = W7 m ρ c (Proc.devRef .tc main_arg2) := W8_of m ρ c main_arg2 (by decide)
    _ = W6 m ρ c (Proc.devRef .tc main_arg2) := W7_of_ne m ρ c main_arg2 (by decide)
    _ = W5 m ρ c (Proc.devRef .tc main_arg2) := W6_of m ρ c main_arg2 (by decide)
    _ = W4 m ρ c (Proc.devRef .tc main_arg2) := W5_of m ρ c main_arg2 (by decide)
    _ = W3 m ρ c (Proc.devRef .tc main_arg2) := W4_of m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl
theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := W9_of_ne m ρ c main_arg3 (by decide)
    _ = W7 m ρ c (Proc.devRef .tc main_arg3) := W8_of m ρ c main_arg3 (by decide)
    _ = W6 m ρ c (Proc.devRef .tc main_arg3) := W7_of_ne m ρ c main_arg3 (by decide)
    _ = W5 m ρ c (Proc.devRef .tc main_arg3) := W6_of m ρ c main_arg3 (by decide)
    _ = W4 m ρ c (Proc.devRef .tc main_arg3) := W5_of m ρ c main_arg3 (by decide)
    _ = W3 m ρ c (Proc.devRef .tc main_arg3) := W4_of m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl
theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := W9_of_ne m ρ c main_arg4 (by decide)
    _ = W7 m ρ c (Proc.devRef .tc main_arg4) := W8_of m ρ c main_arg4 (by decide)
    _ = W6 m ρ c (Proc.devRef .tc main_arg4) := W7_of_ne m ρ c main_arg4 (by decide)
    _ = W5 m ρ c (Proc.devRef .tc main_arg4) := W6_of m ρ c main_arg4 (by decide)
    _ = W4 m ρ c (Proc.devRef .tc main_arg4) := W5_of m ρ c main_arg4 (by decide)
    _ = W3 m ρ c (Proc.devRef .tc main_arg4) := W4_of m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl
theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := W9_of_ne m ρ c main_arg5 (by decide)
    _ = W7 m ρ c (Proc.devRef .tc main_arg5) := W8_of m ρ c main_arg5 (by decide)
    _ = W6 m ρ c (Proc.devRef .tc main_arg5) := W7_of_ne m ρ c main_arg5 (by decide)
    _ = W5 m ρ c (Proc.devRef .tc main_arg5) := W6_of m ρ c main_arg5 (by decide)
    _ = W4 m ρ c (Proc.devRef .tc main_arg5) := W5_of m ρ c main_arg5 (by decide)
    _ = W3 m ρ c (Proc.devRef .tc main_arg5) := W4_of m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl
theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := W9_of_ne m ρ c main_arg6 (by decide)
    _ = W7 m ρ c (Proc.devRef .tc main_arg6) := W8_of m ρ c main_arg6 (by decide)
    _ = W6 m ρ c (Proc.devRef .tc main_arg6) := W7_of_ne m ρ c main_arg6 (by decide)
    _ = W5 m ρ c (Proc.devRef .tc main_arg6) := W6_of m ρ c main_arg6 (by decide)
    _ = W4 m ρ c (Proc.devRef .tc main_arg6) := W5_of m ρ c main_arg6 (by decide)
    _ = W3 m ρ c (Proc.devRef .tc main_arg6) := W4_of m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl
theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := W9_of_ne m ρ c main_arg7 (by decide)
    _ = W7 m ρ c (Proc.devRef .tc main_arg7) := W8_of m ρ c main_arg7 (by decide)
    _ = W6 m ρ c (Proc.devRef .tc main_arg7) := W7_of_ne m ρ c main_arg7 (by decide)
    _ = W5 m ρ c (Proc.devRef .tc main_arg7) := W6_of m ρ c main_arg7 (by decide)
    _ = W4 m ρ c (Proc.devRef .tc main_arg7) := W5_of m ρ c main_arg7 (by decide)
    _ = W3 m ρ c (Proc.devRef .tc main_arg7) := W4_of m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl
theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := W9_of_ne m ρ c main_arg8 (by decide)
    _ = W7 m ρ c (Proc.devRef .tc main_arg8) := W8_of m ρ c main_arg8 (by decide)
    _ = W6 m ρ c (Proc.devRef .tc main_arg8) := W7_of_ne m ρ c main_arg8 (by decide)
    _ = W5 m ρ c (Proc.devRef .tc main_arg8) := W6_of m ρ c main_arg8 (by decide)
    _ = W4 m ρ c (Proc.devRef .tc main_arg8) := W5_of m ρ c main_arg8 (by decide)
    _ = W3 m ρ c (Proc.devRef .tc main_arg8) := W4_of m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl
theorem W9_main_arg9 (c : Dev nD) : W9 m ρ c (Proc.devRef .tc main_arg9) = m ((c : Thread nD τ).loc main_arg9) :=
  calc W9 m ρ c (Proc.devRef .tc main_arg9)
    _ = W8 m ρ c (Proc.devRef .tc main_arg9) := W9_in m ρ c 6 rfl
    _ = W7 m ρ c (Proc.devRef .tc main_arg9) := W8_of m ρ c main_arg9 (by decide)
    _ = W6 m ρ c (Proc.devRef .tc main_arg9) := W7_of_ne m ρ c main_arg9 (by decide)
    _ = W5 m ρ c (Proc.devRef .tc main_arg9) := W6_of m ρ c main_arg9 (by decide)
    _ = W4 m ρ c (Proc.devRef .tc main_arg9) := W5_of m ρ c main_arg9 (by decide)
    _ = W3 m ρ c (Proc.devRef .tc main_arg9) := W4_of m ρ c main_arg9 (by decide)
    _ = W2 m ρ c (Proc.devRef .tc main_arg9) := W3_of m ρ c main_arg9 (by decide)
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl
theorem W9_main_arg10 (c : Dev nD) : W9 m ρ c (Proc.devRef .tc main_arg10) = m ((c : Thread nD τ).loc main_arg10) :=
  calc W9 m ρ c (Proc.devRef .tc main_arg10)
    _ = W8 m ρ c (Proc.devRef .tc main_arg10) := W9_of_ne m ρ c main_arg10 (by decide)
    _ = W7 m ρ c (Proc.devRef .tc main_arg10) := W8_of m ρ c main_arg10 (by decide)
    _ = W6 m ρ c (Proc.devRef .tc main_arg10) := W7_of_ne m ρ c main_arg10 (by decide)
    _ = W5 m ρ c (Proc.devRef .tc main_arg10) := W6_of m ρ c main_arg10 (by decide)
    _ = W4 m ρ c (Proc.devRef .tc main_arg10) := W5_of m ρ c main_arg10 (by decide)
    _ = W3 m ρ c (Proc.devRef .tc main_arg10) := W4_of m ρ c main_arg10 (by decide)
    _ = W2 m ρ c (Proc.devRef .tc main_arg10) := W3_of m ρ c main_arg10 (by decide)
    _ = W1 m ρ c (Proc.devRef .tc main_arg10) := W2_of_ne m ρ c main_arg10 (by decide)
    _ = W0 m ρ c (Proc.devRef .tc main_arg10) := W1_of m ρ c main_arg10 (by decide)
    _ = m ((c : Thread nD τ).loc main_arg10) := rfl
theorem W9_main_arg11 (c : Dev nD) : W9 m ρ c (Proc.devRef .tc main_arg11) = m ((c : Thread nD τ).loc main_arg11) :=
  calc W9 m ρ c (Proc.devRef .tc main_arg11)
    _ = W8 m ρ c (Proc.devRef .tc main_arg11) := W9_of_ne m ρ c main_arg11 (by decide)
    _ = W7 m ρ c (Proc.devRef .tc main_arg11) := W8_of m ρ c main_arg11 (by decide)
    _ = W6 m ρ c (Proc.devRef .tc main_arg11) := W7_of_ne m ρ c main_arg11 (by decide)
    _ = W5 m ρ c (Proc.devRef .tc main_arg11) := W6_of m ρ c main_arg11 (by decide)
    _ = W4 m ρ c (Proc.devRef .tc main_arg11) := W5_of m ρ c main_arg11 (by decide)
    _ = W3 m ρ c (Proc.devRef .tc main_arg11) := W4_of m ρ c main_arg11 (by decide)
    _ = W2 m ρ c (Proc.devRef .tc main_arg11) := W3_of m ρ c main_arg11 (by decide)
    _ = W1 m ρ c (Proc.devRef .tc main_arg11) := W2_of_ne m ρ c main_arg11 (by decide)
    _ = W0 m ρ c (Proc.devRef .tc main_arg11) := W1_of m ρ c main_arg11 (by decide)
    _ = m ((c : Thread nD τ).loc main_arg11) := rfl
theorem W9_main_arg12 (c : Dev nD) : W9 m ρ c (Proc.devRef .tc main_arg12) = m ((c : Thread nD τ).loc main_arg12) :=
  calc W9 m ρ c (Proc.devRef .tc main_arg12)
    _ = W8 m ρ c (Proc.devRef .tc main_arg12) := W9_of_ne m ρ c main_arg12 (by decide)
    _ = W7 m ρ c (Proc.devRef .tc main_arg12) := W8_of m ρ c main_arg12 (by decide)
    _ = W6 m ρ c (Proc.devRef .tc main_arg12) := W7_of_ne m ρ c main_arg12 (by decide)
    _ = W5 m ρ c (Proc.devRef .tc main_arg12) := W6_of m ρ c main_arg12 (by decide)
    _ = W4 m ρ c (Proc.devRef .tc main_arg12) := W5_of m ρ c main_arg12 (by decide)
    _ = W3 m ρ c (Proc.devRef .tc main_arg12) := W4_of m ρ c main_arg12 (by decide)
    _ = W2 m ρ c (Proc.devRef .tc main_arg12) := W3_of m ρ c main_arg12 (by decide)
    _ = W1 m ρ c (Proc.devRef .tc main_arg12) := W2_of_ne m ρ c main_arg12 (by decide)
    _ = W0 m ρ c (Proc.devRef .tc main_arg12) := W1_of m ρ c main_arg12 (by decide)
    _ = m ((c : Thread nD τ).loc main_arg12) := rfl
theorem W9_main_arg13 (c : Dev nD) : W9 m ρ c (Proc.devRef .tc main_arg13) = m ((c : Thread nD τ).loc main_arg13) :=
  calc W9 m ρ c (Proc.devRef .tc main_arg13)
    _ = W8 m ρ c (Proc.devRef .tc main_arg13) := W9_of_ne m ρ c main_arg13 (by decide)
    _ = W7 m ρ c (Proc.devRef .tc main_arg13) := W8_of m ρ c main_arg13 (by decide)
    _ = W6 m ρ c (Proc.devRef .tc main_arg13) := W7_of_ne m ρ c main_arg13 (by decide)
    _ = W5 m ρ c (Proc.devRef .tc main_arg13) := W6_of m ρ c main_arg13 (by decide)
    _ = W4 m ρ c (Proc.devRef .tc main_arg13) := W5_of m ρ c main_arg13 (by decide)
    _ = W3 m ρ c (Proc.devRef .tc main_arg13) := W4_of m ρ c main_arg13 (by decide)
    _ = W2 m ρ c (Proc.devRef .tc main_arg13) := W3_of m ρ c main_arg13 (by decide)
    _ = W1 m ρ c (Proc.devRef .tc main_arg13) := W2_of_ne m ρ c main_arg13 (by decide)
    _ = W0 m ρ c (Proc.devRef .tc main_arg13) := W1_of m ρ c main_arg13 (by decide)
    _ = m ((c : Thread nD τ).loc main_arg13) := rfl
theorem W9_main_arg14 (c : Dev nD) : W9 m ρ c (Proc.devRef .tc main_arg14) = m ((c : Thread nD τ).loc main_arg14) :=
  calc W9 m ρ c (Proc.devRef .tc main_arg14)
    _ = W8 m ρ c (Proc.devRef .tc main_arg14) := W9_of_ne m ρ c main_arg14 (by decide)
    _ = W7 m ρ c (Proc.devRef .tc main_arg14) := W8_of m ρ c main_arg14 (by decide)
    _ = W6 m ρ c (Proc.devRef .tc main_arg14) := W7_of_ne m ρ c main_arg14 (by decide)
    _ = W5 m ρ c (Proc.devRef .tc main_arg14) := W6_of m ρ c main_arg14 (by decide)
    _ = W4 m ρ c (Proc.devRef .tc main_arg14) := W5_of m ρ c main_arg14 (by decide)
    _ = W3 m ρ c (Proc.devRef .tc main_arg14) := W4_of m ρ c main_arg14 (by decide)
    _ = W2 m ρ c (Proc.devRef .tc main_arg14) := W3_of m ρ c main_arg14 (by decide)
    _ = W1 m ρ c (Proc.devRef .tc main_arg14) := W2_of_ne m ρ c main_arg14 (by decide)
    _ = W0 m ρ c (Proc.devRef .tc main_arg14) := W1_of m ρ c main_arg14 (by decide)
    _ = m ((c : Thread nD τ).loc main_arg14) := rfl

/-! ## The proof data family and the thread state -/

/-- The prefetched tables' admissible contents: no pipeline has a table. -/
abbrev hadm : (p : Fin 3) → (pcfgs (F := F) p).Adm := fun p => (cfgs p).toPCfg_adm
/-- Every pipeline's proof data, each at its region's entry contents. -/
def hpdats : (p : Fin 3) → (c : Dev nD) → Dat τ (Elt F) Unit ℕ (UR sig nD τ) ℕ (Pipeline.pin (pcfgs (F := F)) hadm p) c
  | ⟨0, _⟩ => fun c => dat0 (Ve0 m ρ) c
  | ⟨1, _⟩ => fun c => dat1 (Ve1 m ρ) c
  | ⟨2, _⟩ => fun c => dat2 (Ve2 m ρ) c
/-- No variant of a kernel body. -/
abbrev runVar : Variants := Variants.none
/-- No core owes another anything: no level is assigned. -/
abbrev runL : GSem nD τ sig → Finset Unit := fun _ => ∅
abbrev runLv : GSem nD τ sig → Unit → ℕ := fun _ _ => 0
/-- What rides beside the buffers through every item: the core's generator register at some state and the core
    owing nothing. -/
abbrev hR (c : Dev nD) : sProp 𝕄 := iprop((∃ r, prngReg c r) ∗ ∃ W, owes (c : Thread nD τ) (0 : CellTallies nD τ sig Unit) W)
/-- A host stretch as a segment: its operations over the unscoped references from the contents `W`, `hR` riding
    along; it ends at those references at the contents after the operations. -/
abbrev hhost (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ runVar runL runLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W hR

/-- An unscoped TensorCore reference is among those the thread state holds. -/
theorem run_mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev hTn (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- REGION 0 over the thread state: entered from every unscoped buffer at `W1`, left at `W2`. Its arrays are
    split out of the unscoped buffers at entry and put back at the exit contents; the generator register goes into
    the pipeline's invariant and comes out; nothing is owed; the kernel has no semaphore of its own. -/
def hreg0 : Pipeline.RegionSeg (pcfgs (F := F)) hadm (hpdats m ρ) () defs₀ runVar runL runLv 0 where
  win := launch0.win.to₀
  block_pos := launch0.block_pos
  stage_whole := launch0.stage_whole
  K := PEmpty
  osem k := k.elim
  ho := Pipeline.OwnSemFacts.none _
  hbody c := (body_obligation0 (Ve0 m ρ) c).loose
  hwaits := Pipeline.hwaits_of_owed_zero _ _ _ _ runL runLv 0 fun _ _ => rfl
  pre c := iprop(StableHlo.held (c : Thread nD τ) (Pipeline.ucRefs τ sig) (W1 m ρ c) ∗ hR c)
  post c := iprop(StableHlo.held (c : Thread nD τ) (Pipeline.ucRefs τ sig) (W2 m ρ c) ∗ hR c)
  X c := iprop(∃ r, prngReg c r)
  Y c := iprop(∃ r, prngReg c r)
  Z c := Pipeline.unscopedRest (Ix := Unit) (Name := ℕ) (U := UR sig nD τ) (Lvl := ℕ) spec0 c (Ve0 m ρ c)
  hentry c := by
    rw [Pipeline.ownSems0_none]
    have hsplit := Pipeline.arrays_of_unscopedBufs (p := 0) (pcfgs (F := F)) hadm (hpdats m ρ) launch0.win launch0.arr_whole c
      ((hpdats m ρ 0 c).share_full fun _ => rfl) (Ve0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (hpdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (hpdats m ρ) ((hpdats m ρ 0 c).share_full fun _ => rfl)
      (Ve0 m ρ c) (Vx0 m ρ c) ((hpdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W6`, left at `W7`. Its arrays are
    split out of the unscoped buffers at entry and put back at the exit contents; the generator register goes into
    the pipeline's invariant and comes out; nothing is owed; the kernel has no semaphore of its own. -/
def hreg1 : Pipeline.RegionSeg (pcfgs (F := F)) hadm (hpdats m ρ) () defs₀ runVar runL runLv 1 where
  win := launch1.win.to₀
  block_pos := launch1.block_pos
  stage_whole := launch1.stage_whole
  K := PEmpty
  osem k := k.elim
  ho := Pipeline.OwnSemFacts.none _
  hbody c := (body_obligation1 (Ve1 m ρ) c).loose
  hwaits := Pipeline.hwaits_of_owed_zero _ _ _ _ runL runLv 1 fun _ _ => rfl
  pre c := iprop(StableHlo.held (c : Thread nD τ) (Pipeline.ucRefs τ sig) (W6 m ρ c) ∗ hR c)
  post c := iprop(StableHlo.held (c : Thread nD τ) (Pipeline.ucRefs τ sig) (W7 m ρ c) ∗ hR c)
  X c := iprop(∃ r, prngReg c r)
  Y c := iprop(∃ r, prngReg c r)
  Z c := Pipeline.unscopedRest (Ix := Unit) (Name := ℕ) (U := UR sig nD τ) (Lvl := ℕ) spec1 c (Ve1 m ρ c)
  hentry c := by
    rw [Pipeline.ownSems0_none]
    have hsplit := Pipeline.arrays_of_unscopedBufs (p := 1) (pcfgs (F := F)) hadm (hpdats m ρ) launch1.win launch1.arr_whole c
      ((hpdats m ρ 1 c).share_full fun _ => rfl) (Ve1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (hpdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) hadm (Ix := Unit) (Name := ℕ) (U := UR sig nD τ) (Lvl := ℕ)
      launch1.win launch1.arr_whole c (hpdats m ρ) ((hpdats m ρ 1 c).share_full fun _ => rfl)
      (Ve1 m ρ c) (Vx1 m ρ c) ((hpdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W8`, left at `W9`. Its arrays are
    split out of the unscoped buffers at entry and put back at the exit contents; the generator register goes into
    the pipeline's invariant and comes out; nothing is owed; the kernel has no semaphore of its own. -/
def hreg2 : Pipeline.RegionSeg (pcfgs (F := F)) hadm (hpdats m ρ) () defs₀ runVar runL runLv 2 where
  win := launch2.win.to₀
  block_pos := launch2.block_pos
  stage_whole := launch2.stage_whole
  K := PEmpty
  osem k := k.elim
  ho := Pipeline.OwnSemFacts.none _
  hbody c := (body_obligation2 (Ve2 m ρ) c).loose
  hwaits := Pipeline.hwaits_of_owed_zero _ _ _ _ runL runLv 2 fun _ _ => rfl
  pre c := iprop(StableHlo.held (c : Thread nD τ) (Pipeline.ucRefs τ sig) (W8 m ρ c) ∗ hR c)
  post c := iprop(hTn m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Ve2 m ρ c)
  hentry c := by
    rw [Pipeline.ownSems0_none]
    have hsplit := Pipeline.arrays_of_unscopedBufs (p := 2) (pcfgs (F := F)) hadm (hpdats m ρ) launch2.win launch2.arr_whole c
      ((hpdats m ρ 2 c).share_full fun _ => rfl) (Ve2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (hpdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) hadm (Ix := Unit) (Name := ℕ) (U := UR sig nD τ) (Lvl := ℕ)
      launch2.win launch2.arr_whole c (hpdats m ρ) ((hpdats m ρ 2 c).share_full fun _ => rfl)
      (Ve2 m ρ c) (Vx2 m ρ c) ((hpdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's 9 items in order: a host segment per stretch from its boundary's contents, a region per kernel. -/
abbrev hsegs : List (Pipeline.Seg (pcfgs (F := F)) hadm (hpdats m ρ) () defs₀ runVar runL runLv) :=
  [ .host (hhost hostOps0 hostOps0_sub hostOps0_fresh (W0 m ρ)),
    .region (hreg0 m ρ),
    .host (hhost hostOps1 hostOps1_sub hostOps1_fresh (W2 m ρ)),
    .host (hhost hostOps1_1 hostOps1_1_sub hostOps1_1_fresh (W3 m ρ)),
    .host (hhost hostOps1_2 hostOps1_2_sub hostOps1_2_fresh (W4 m ρ)),
    .host (hhost hostOps1_3 hostOps1_3_sub hostOps1_3_fresh (W5 m ρ)),
    .region (hreg1 m ρ),
    .host (hhost hostOps2 hostOps2_sub hostOps2_fresh (W7 m ρ)),
    .region (hreg2 m ρ) ]

/-- The program IS the run of the segments: it is the chain of its items, and so is the segments' run. -/
theorem main_run (c : Dev nD) : main (F := F) c = Pipeline.Seg.run (hsegs m ρ) := by
  rw [main_chain c, Pipeline.Seg.run_eq_chain]
  rfl

set_option backward.isDefEq.respectTransparency.types false in
/-- THE RUN: from any memory with zero counters, every weakly fair execution of the program on the TensorCores
    terminates, nothing faulting, and in every final state every unscoped buffer holds the last boundary's contents. -/
theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W9 m ρ c (Proc.devRef .tc b)) :=
  Pipeline.θ_run_regions_kit (pcfgs (F := F)) hadm (hpdats m ρ) () cellOf_inj emb₁ defs₀ runVar runL runLv m ρ main (hsegs m ρ)
    (fun c Q => by rw [main_run m ρ c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ hR c)) (Tₙ := hTn m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach runL runLv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c b hb => h c _ (run_mem_uc b hb))

/-- THE FRAME: from any memory with zero counters, every weakly fair execution of the program terminates, nothing
    faulting, and every final state has each of the 15 argument arrays as launched: an unscoped buffer ends at the last
    boundary's contents, and the fold at an argument's buffer walks back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c main_arg0 (by decide)).trans (W9_main_arg0 m ρ c),
     (h c main_arg1 (by decide)).trans (W9_main_arg1 m ρ c),
     (h c main_arg2 (by decide)).trans (W9_main_arg2 m ρ c),
     (h c main_arg3 (by decide)).trans (W9_main_arg3 m ρ c),
     (h c main_arg4 (by decide)).trans (W9_main_arg4 m ρ c),
     (h c main_arg5 (by decide)).trans (W9_main_arg5 m ρ c),
     (h c main_arg6 (by decide)).trans (W9_main_arg6 m ρ c),
     (h c main_arg7 (by decide)).trans (W9_main_arg7 m ρ c),
     (h c main_arg8 (by decide)).trans (W9_main_arg8 m ρ c),
     (h c main_arg9 (by decide)).trans (W9_main_arg9 m ρ c),
     (h c main_arg10 (by decide)).trans (W9_main_arg10 m ρ c),
     (h c main_arg11 (by decide)).trans (W9_main_arg11 m ρ c),
     (h c main_arg12 (by decide)).trans (W9_main_arg12 m ρ c),
     (h c main_arg13 (by decide)).trans (W9_main_arg13 m ρ c),
     (h c main_arg14 (by decide)).trans (W9_main_arg14 m ρ c)⟩)
    (run_all m ρ)

end Cert.Kernel.Hand

end
-- ==== Proof.KI.Reg0.lean ====
import proofs.«429932_j30906584662329_2_alg».proof.Proof.Gen.KernelIdeal.Launch
import proofs.«429932_j30906584662329_2_alg».proof.Proof.Gen.KernelIdeal.Skeleton
import proofs.«429932_j30906584662329_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 0 of @main: custom_call 0, `cc0__qkv_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): an input left in place
    holds what a fetch would put there (unfetched, the block index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (fetched at the first point only: its block index never moves) likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 (fetched at the first point only: its block index never moves) likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S5000x128 := Rect.unit (s := S5000x128) ![0, 0] S5000x128.size inb_S5000x128_S5000x128_0_0
abbrev r0_1 : Rect S128x384 := Rect.unit (s := S128x384) ![0, 0] S128x384.size inb_S128x384_S128x384_0_0
abbrev r0_2 : Rect S1x384 := Rect.unit (s := S1x384) ![0, 0] S1x384.size inb_S1x384_S1x384_0_0
abbrev r0_3 : Rect S5000x384 := Rect.unit (s := S5000x384) ![0, 0] S5000x384.size inb_S5000x384_S5000x384_0_0

/-! ## What the body leaves in the output window's buffer -/

/-- Window 3's staging buffer after the body, from the input windows' blocks: its 1 store as pieces, LAST
    FIRST (the payload is the skeleton's). -/
def out0_3 (x0 : Vec F S5000x128 .f32) (x1 : Vec F S128x384 .f32) (x2 : Vec F S1x384 .f32) : Vec F S5000x384 .f32 :=
  View.canon [⟨r0_3, k0_pay1 (View.ld x0 r0_0) (View.ld x1 r0_1) (View.ld x2 r0_2)⟩]

/-- Its store tiles the buffer (checked by evaluation), so it covers it. -/
theorem cover0_3 (p0 : Vec F S5000x384 .f32) (y : S5000x384.Idx) :
    ∃ pc ∈ ([⟨r0_3, p0⟩] : List (View.Piece (Elt F) S5000x384 .f32)), y ∈ pc.1.set :=
  View.cover_of_tiled [⟨r0_3, p0⟩] S5000x384.size (by rfl) y

/-! ## The body's triple -/

set_option maxHeartbeats 1000000 in
/-- The kernel body on whole staging memrefs, the inputs' at read contents `xW` and the output's at anything, runs to
    the continuation holding the inputs' as they were and the output's at `out0_3` of the inputs': the printed function
    is its skeleton, which is run statement by statement; the body's load of the output buffer reads a value it never uses. -/
theorem sound_kernel0 (c : Dev nD) (E : Set ℕ) (i : grid0.Coords) (arg1 : Memref sig .tc .vmem S5000x128 .f32) (harg1 : arg1.IsWhole) (arg2 : Memref sig .tc .vmem S128x384 .f32) (harg2 : arg2.IsWhole) (arg3 : Memref sig .tc .vmem S1x384 .f32) (harg3 : arg3.IsWhole) (arg4 : Memref sig .tc .vmem S5000x384 .f32) (harg4 : arg4.IsWhole)
    (x0 : Vec F S5000x128 .f32) (x1 : Vec F S128x384 .f32) (x2 : Vec F S1x384 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__qkv_kernel i arg1 harg1 arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at
    point `t` each input's buffer at its block and the output's at `out0_3` of the input blocks; the invariant the
    class's (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents (the proof data's definition projected). -/
theorem A_eq0 (c : Dev nD) (w : Fin cfg0.W) : (dat0 V c).A w = V c (Pipeline.arrRef spec0 w) := by
  dsimp only [dat0]

/-- What the body leaves, window by window (the proof data's match reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's owed counters pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
import proofs.«429932_j30906584662329_2_alg».proof.Proof.Gen.KernelIdeal.Launch
import proofs.«429932_j30906584662329_2_alg».proof.Proof.Gen.KernelIdeal.Skeleton
import proofs.«429932_j30906584662329_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 1 of @main: custom_call 1, `cc1__edge_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): an input left in place
    holds what a fetch would put there (unfetched, the block index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1000x8x16 := Rect.unit (s := S1000x8x16) ![0, 0, 0] S1000x8x16.size inb_S1000x8x16_S1000x8x16_0_0_0

/-! ## What the body leaves in the output window's buffer -/

/-- Window 3's staging buffer after the body, from the input windows' blocks: its 1 store as pieces, LAST
    FIRST (the payload is the skeleton's). -/
def out1_3 (x0 : Vec F S1000x8x16 .f32) (x1 : Vec F S1000x8x16 .f32) (x2 : Vec F S1000x8x16 .f32) : Vec F S1000x8x16 .f32 :=
  View.canon [⟨r1_0, k1_pay1 (View.ld x0 r1_0) (View.ld x1 r1_0) (View.ld x2 r1_0)⟩]

/-- Its store tiles the buffer (checked by evaluation), so it covers it. -/
theorem cover1_3 (p0 : Vec F S1000x8x16 .f32) (y : S1000x8x16.Idx) :
    ∃ pc ∈ ([⟨r1_0, p0⟩] : List (View.Piece (Elt F) S1000x8x16 .f32)), y ∈ pc.1.set :=
  View.cover_of_tiled [⟨r1_0, p0⟩] S1000x8x16.size (by rfl) y

/-! ## The body's triple -/

set_option maxHeartbeats 1000000 in
/-- The kernel body on whole staging memrefs, the inputs' at read contents `xW` and the output's at anything, runs to
    the continuation holding the inputs' as they were and the output's at `out1_3` of the inputs': the printed function
    is its skeleton, which is run statement by statement; the body's load of the output buffer reads a value it never uses. -/
theorem sound_kernel1 (c : Dev nD) (E : Set ℕ) (i : grid1.Coords) (arg1 : Memref sig .tc .vmem S1000x8x16 .f32) (harg1 : arg1.IsWhole) (arg2 : Memref sig .tc .vmem S1000x8x16 .f32) (harg2 : arg2.IsWhole) (arg3 : Memref sig .tc .vmem S1000x8x16 .f32) (harg3 : arg3.IsWhole) (arg4 : Memref sig .tc .vmem S1000x8x16 .f32) (harg4 : arg4.IsWhole)
    (x0 : Vec F S1000x8x16 .f32) (x1 : Vec F S1000x8x16 .f32) (x2 : Vec F S1000x8x16 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__edge_kernel i arg1 harg1 arg2 harg2 arg3 harg3 arg4 harg4) K := by
  simp only [cc1__edge_kernel_eq_skeleton]; unfold cc1__edge_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at
    point `t` each input's buffer at its block and the output's at `out1_3` of the input blocks; the invariant the
    class's (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents (the proof data's definition projected). -/
theorem A_eq1 (c : Dev nD) (w : Fin cfg1.W) : (dat1 V c).A w = V c (Pipeline.arrRef spec1 w) := by
  dsimp only [dat1]

/-- What the body leaves, window by window (the proof data's match reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's owed counters pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
import proofs.«429932_j30906584662329_2_alg».proof.Proof.Gen.KernelIdeal.Launch
import proofs.«429932_j30906584662329_2_alg».proof.Proof.Gen.KernelIdeal.Skeleton
import proofs.«429932_j30906584662329_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 2: the third kernel (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): where the window is not
    fetched its block index has not moved, so the block kept from the point before is this point's; the window is
    uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): where the window is not
    fetched its block index has not moved, so the block kept from the point before is this point's; the window is
    uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): where the window is not
    fetched its block index has not moved, so the block kept from the point before is this point's; the window is
    uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): where the window is not
    fetched its block index has not moved, so the block kept from the point before is this point's; the window is
    uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): where the window is not
    fetched its block index has not moved, so the block kept from the point before is this point's; the window is
    uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for ANY proof
    data whose array is `V`'s (`hA`) and whose body leaves the block in place (`hafter`): where the window is not
    fetched its block index has not moved, so the block kept from the point before is this point's; the window is
    uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not, for ANY proof
    data whose array is `V`'s (`hA`) and whose body leaves the block in place (`hafter`): where the window is not
    fetched its block index has not moved, so the block kept from the point before is this point's; the window is
    uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's current staging buffer holds its block at every point, fetched there or not, for ANY proof
    data whose array is `V`'s (`hA`) and whose body leaves the block in place (`hafter`): where the window is not
    fetched its block index has not moved, so the block kept from the point before is this point's; the window is
    uncut and never idle. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store is of a whole buffer -/

abbrev r2_0 : Rect S5000x128 := Rect.unit (s := S5000x128) ![0, 0] S5000x128.size inb_S5000x128_S5000x128_0_0
abbrev r2_1 : Rect S1x128 := Rect.unit (s := S1x128) ![0, 0] S1x128.size inb_S1x128_S1x128_0_0
abbrev r2_2 : Rect S128x128 := Rect.unit (s := S128x128) ![0, 0] S128x128.size inb_S128x128_S128x128_0_0

/-! ## What the body leaves in the output window's buffer -/

/-- Window 8's staging buffer after the body, from the input windows' blocks: its 1 store as pieces, LAST FIRST.
    The stored value is the residual sum of the second normalisation's input and the rectified linear layer: the
    first three arguments are the first 60 statements' results (the first normalisation's output, the variance and
    the broadcast mean of the second), functions of the first four blocks. -/
def out2_8 (x0 : Vec F S5000x128 .f32) (x1 : Vec F S5000x128 .f32) (x2 : Vec F S1x128 .f32) (x3 : Vec F S1x128 .f32) (x4 : Vec F S1x128 .f32) (x5 : Vec F S1x128 .f32) (x6 : Vec F S128x128 .f32) (x7 : Vec F S1x128 .f32) : Vec F S5000x128 .f32 :=
  View.canon [⟨r2_0, k2_pay1 (k2_pay2 (View.ld x0 r2_0) (View.ld x1 r2_0) (View.ld x2 r2_1) (View.ld x3 r2_1)) (k2_pay4 (View.ld x0 r2_0) (View.ld x1 r2_0) (View.ld x2 r2_1) (View.ld x3 r2_1)) (k2_pay5 (View.ld x0 r2_0) (View.ld x1 r2_0) (View.ld x2 r2_1) (View.ld x3 r2_1)) (View.ld x4 r2_1) (View.ld x5 r2_1) (View.ld x6 r2_2) (View.ld x7 r2_1)⟩]

/-- Its store tiles the buffer (checked by evaluation), so it covers it. -/
theorem cover2_8 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-! ## The body's triple -/

set_option maxHeartbeats 1000000 in
/-- The kernel body on whole staging memrefs, the inputs' at read contents `xW` and the output's at anything, runs to
    the continuation holding the inputs' as they were and the output's at `out2_8` of the inputs': the printed functions
    are their skeletons, which are run statement by statement, through the call of the first 60 statements. The
    output's buffer is loaded once before the store; the loaded value is never used. -/
theorem sound_kernel2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S5000x128 .f32) (harg9 : arg9.IsWhole)
    (x0 : Vec F S5000x128 .f32) (x1 : Vec F S5000x128 .f32) (x2 : Vec F S1x128 .f32) (x3 : Vec F S1x128 .f32) (x4 : Vec F S1x128 .f32) (x5 : Vec F S1x128 .f32) (x6 : Vec F S128x128 .f32) (x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out2_8 x0 x1 x2 x3 x4 x5 x6 x7)) -∗ K ⟨⟩))
      ⊢ wp frame (wpE (defs₀ (F := F)) Variants.none c none) E (cc2__ffn_kernel i arg1 harg1 arg2 harg2 arg3 harg3 arg4 harg4 arg5 harg5 arg6 harg6 arg7 harg7 arg8 harg8 arg9 harg9) K := by
  simp only [cc2__ffn_kernel_eq_skeleton]; unfold cc2__ffn_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover2_8 _)

/-! ## The pipeline's proof data -/

/-- The proof data of pipeline 2 on core `c`: the arrays as the region finds them (`V`); after the body at
    point `t` each input's buffer at its block and the output's at `out2_8` of the input blocks; the invariant the
    class's (the scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

/-- The proof data's arrays are the region-entry contents (the proof data's definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]

/-- Each input's current staging buffer holds its block at every point, fetched there or not (`before2_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-! ## The body obligation, at a generic point -/

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
import proofs.«429932_j30906584662329_2_alg».proof.Proof.KI.Reg0
import proofs.«429932_j30906584662329_2_alg».proof.Proof.KI.Reg1
import proofs.«429932_j30906584662329_2_alg».proof.Proof.KI.Reg2
import proofs.«429932_j30906584662329_2_alg».proof.Proof.Gen.KernelIdeal.Launch
import proofs.«429932_j30906584662329_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of the program: three kernel regions among six host stretches

The buffer contents at every boundary between two items of the program are folded from the launch memory: a host
stretch rewrites the buffers its operations write, a kernel region leaves its windows' arrays at what the pipeline's
write-backs leave and every other buffer as it found it. Each region is entered from "every unscoped buffer at the
boundary's contents, the generator register at some state, nothing owed" and left at the same shape at the next
boundary's contents. The run then says: every execution terminates and every unscoped buffer ends at the last
boundary's contents; the argument arrays, which no item writes, end as launched. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- The same read at the TensorCore's references: the contents region 0 is entered from. -/
abbrev Ve0 : (c : Dev nD) → (b : Ref sig .tc) → Buf (Elt F) ((c : Thread nD τ).loc b) := fun c b => W1 m ρ c b
/-- At region 0's exit: its windows' arrays at what the pipeline leaves (an input's as entered, an output's with every
    write-back folded in), every other buffer as entered. -/
def W2 (c : Dev nD) : Valuation τ sig (Elt F) :=
  Pipeline.withArrays spec0 c (W1 m ρ c) fun w => (dat0 (Ve0 m ρ) c).arrAt w cfg0.N
theorem W2_arr (c : Dev nD) (w : Fin cfg0.W) :
    W2 m ρ c (Proc.devRef .tc (Pipeline.arrRef spec0 w)) = (dat0 (Ve0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references: region 0's exit contents. -/
abbrev Vx0 : (c : Dev nD) → (b : Ref sig .tc) → Buf (Elt F) ((c : Thread nD τ).loc b) := fun c b => W2 m ρ c b
/-- At region 0's exit each of its arrays holds what the pipeline leaves (`hF0`) and every other buffer what it held
    at entry (`hrest0`). -/
theorem hF0 (c : Dev nD) (w : Fin cfg0.W) : (dat0 (Ve0 m ρ) c).arrAt w cfg0.N = Vx0 m ρ c (Pipeline.arrRef spec0 w) :=
  (W2_arr m ρ c w).symm
theorem hrest0 (c : Dev nD) : ∀ b, b ∉ Finset.univ.image (Pipeline.arrRef spec0) → Vx0 m ρ c b = Ve0 m ρ c b :=
  fun b hb => W2_of_ne m ρ c b fun w e => hb (Finset.mem_image.mpr ⟨w, Finset.mem_univ _, e⟩)
/-- After the host stretch `hostOps1`. -/
abbrev W3 : Dev nD → Valuation τ sig (Elt F) := fun c => StableHlo.after hostOps1 (W2 m ρ c)
/-- After the host stretch `hostOps1_1`. -/
abbrev W4 : Dev nD → Valuation τ sig (Elt F) := fun c => StableHlo.after hostOps1_1 (W3 m ρ c)
/-- After the host stretch `hostOps1_2`. -/
abbrev W5 : Dev nD → Valuation τ sig (Elt F) := fun c => StableHlo.after hostOps1_2 (W4 m ρ c)
/-- After the host stretch `hostOps1_3`. -/
abbrev W6 : Dev nD → Valuation τ sig (Elt F) := fun c => StableHlo.after hostOps1_3 (W5 m ρ c)
/-- The same read at the TensorCore's references: the contents region 1 is entered from. -/
abbrev Ve1 : (c : Dev nD) → (b : Ref sig .tc) → Buf (Elt F) ((c : Thread nD τ).loc b) := fun c b => W6 m ρ c b
/-- At region 1's exit: its windows' arrays at what the pipeline leaves (an input's as entered, an output's with every
    write-back folded in), every other buffer as entered. -/
def W7 (c : Dev nD) : Valuation τ sig (Elt F) :=
  Pipeline.withArrays spec1 c (W6 m ρ c) fun w => (dat1 (Ve1 m ρ) c).arrAt w cfg1.N
theorem W7_arr (c : Dev nD) (w : Fin cfg1.W) :
    W7 m ρ c (Proc.devRef .tc (Pipeline.arrRef spec1 w)) = (dat1 (Ve1 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
/-- The same read at the TensorCore's references: region 1's exit contents. -/
abbrev Vx1 : (c : Dev nD) → (b : Ref sig .tc) → Buf (Elt F) ((c : Thread nD τ).loc b) := fun c b => W7 m ρ c b
/-- At region 1's exit each of its arrays holds what the pipeline leaves (`hF1`) and every other buffer what it held
    at entry (`hrest1`). -/
theorem hF1 (c : Dev nD) (w : Fin cfg1.W) : (dat1 (Ve1 m ρ) c).arrAt w cfg1.N = Vx1 m ρ c (Pipeline.arrRef spec1 w) :=
  (W7_arr m ρ c w).symm
theorem hrest1 (c : Dev nD) : ∀ b, b ∉ Finset.univ.image (Pipeline.arrRef spec1) → Vx1 m ρ c b = Ve1 m ρ c b :=
  fun b hb => W7_of_ne m ρ c b fun w e => hb (Finset.mem_image.mpr ⟨w, Finset.mem_univ _, e⟩)
/-- After the host stretch `hostOps2`. -/
abbrev W8 : Dev nD → Valuation τ sig (Elt F) := fun c => StableHlo.after hostOps2 (W7 m ρ c)
/-- The same read at the TensorCore's references: the contents region 2 is entered from. -/
abbrev Ve2 : (c : Dev nD) → (b : Ref sig .tc) → Buf (Elt F) ((c : Thread nD τ).loc b) := fun c b => W8 m ρ c b
/-- At region 2's exit: its windows' arrays at what the pipeline leaves (an input's as entered, an output's with every
    write-back folded in), every other buffer as entered. -/
def W9 (c : Dev nD) : Valuation τ sig (Elt F) :=
  Pipeline.withArrays spec2 c (W8 m ρ c) fun w => (dat2 (Ve2 m ρ) c).arrAt w cfg2.N
theorem W9_arr (c : Dev nD) (w : Fin cfg2.W) :
    W9 m ρ c (Proc.devRef .tc (Pipeline.arrRef spec2 w)) = (dat2 (Ve2 m ρ) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb
/-- The same read at the TensorCore's references: region 2's exit contents. -/
abbrev Vx2 : (c : Dev nD) → (b : Ref sig .tc) → Buf (Elt F) ((c : Thread nD τ).loc b) := fun c b => W9 m ρ c b
/-- At region 2's exit each of its arrays holds what the pipeline leaves (`hF2`) and every other buffer what it held
    at entry (`hrest2`). -/
theorem hF2 (c : Dev nD) (w : Fin cfg2.W) : (dat2 (Ve2 m ρ) c).arrAt w cfg2.N = Vx2 m ρ c (Pipeline.arrRef spec2 w) :=
  (W9_arr m ρ c w).symm
theorem hrest2 (c : Dev nD) : ∀ b, b ∉ Finset.univ.image (Pipeline.arrRef spec2) → Vx2 m ρ c b = Ve2 m ρ c b :=
  fun b hb => W9_of_ne m ρ c b fun w e => hb (Finset.mem_image.mpr ⟨w, Finset.mem_univ _, e⟩)

/-! ## What each item leaves unchanged -/

/-- A reference `hostOps0` does not write keeps its contents across it. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- A reference `hostOps1` does not write keeps its contents across it. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
/-- A reference `hostOps1_1` does not write keeps its contents across it. -/
theorem W4_of (c : Dev nD) (r : Ref sig .tc) (h : r ∉ hostOps1_1_W) :
    W4 m ρ c (Proc.devRef .tc r) = W3 m ρ c (Proc.devRef .tc r) :=
  StableHlo.after_of_writes_sub hostOps1_1 _ hostOps1_1_writes h
/-- A reference `hostOps1_2` does not write keeps its contents across it. -/
theorem W5_of (c : Dev nD) (r : Ref sig .tc) (h : r ∉ hostOps1_2_W) :
    W5 m ρ c (Proc.devRef .tc r) = W4 m ρ c (Proc.devRef .tc r) :=
  StableHlo.after_of_writes_sub hostOps1_2 _ hostOps1_2_writes h
/-- A reference `hostOps1_3` does not write keeps its contents across it. -/
theorem W6_of (c : Dev nD) (r : Ref sig .tc) (h : r ∉ hostOps1_3_W) :
    W6 m ρ c (Proc.devRef .tc r) = W5 m ρ c (Proc.devRef .tc r) :=
  StableHlo.after_of_writes_sub hostOps1_3 _ hostOps1_3_writes h
/-- A reference `hostOps2` does not write keeps its contents across it. -/
theorem W8_of (c : Dev nD) (r : Ref sig .tc) (h : r ∉ hostOps2_W) :
    W8 m ρ c (Proc.devRef .tc r) = W7 m ρ c (Proc.devRef .tc r) :=
  StableHlo.after_of_writes_sub hostOps2 _ hostOps2_writes h
/-- An input window's array is as region 0 found it: no write-back touches it. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (Ve0 m ρ) c).arrAt_in w hin _).trans (A_eq0 (Ve0 m ρ) c w))
/-- An input window's array is as region 1 found it: no write-back touches it. -/
theorem W7_in (c : Dev nD) (w : Fin cfg1.W) (hin : (cfg1.win w).isOut = false) :
    W7 m ρ c (Proc.devRef .tc (Pipeline.arrRef spec1 w)) = W6 m ρ c (Proc.devRef .tc (Pipeline.arrRef spec1 w)) :=
  (W7_arr m ρ c w).trans (((dat1 (Ve1 m ρ) c).arrAt_in w hin _).trans (A_eq1 (Ve1 m ρ) c w))
/-- An input window's array is as region 2 found it: no write-back touches it. -/
theorem W9_in (c : Dev nD) (w : Fin cfg2.W) (hin : (cfg2.win w).isOut = false) :
    W9 m ρ c (Proc.devRef .tc (Pipeline.arrRef spec2 w)) = W8 m ρ c (Proc.devRef .tc (Pipeline.arrRef spec2 w)) :=
  (W9_arr m ρ c w).trans (((dat2 (Ve2 m ρ) c).arrAt_in w hin _).trans (A_eq2 (Ve2 m ρ) c w))

/-! ## The arguments end as launched

No host operation writes an argument's buffer and no region's output window lies on one: a region reads an argument
through an input window, whose array no write-back touches, or bypasses it. So the fold at an argument's buffer walks
back to the launch memory. -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := W9_in m ρ c 0 rfl
    _ = W7 m ρ c (Proc.devRef .tc main_arg0) := W8_of m ρ c main_arg0 (by decide)
    _ = W6 m ρ c (Proc.devRef .tc main_arg0) := W7_of_ne m ρ c main_arg0 (by decide)
    _ = W5 m ρ c (Proc.devRef .tc main_arg0) := W6_of m ρ c main_arg0 (by decide)
    _ = W4 m ρ c (Proc.devRef .tc main_arg0) := W5_of m ρ c main_arg0 (by decide)
    _ = W3 m ρ c (Proc.devRef .tc main_arg0) := W4_of m ρ c main_arg0 (by decide)
    _ = W2 m ρ c (Proc.devRef .tc main_arg0) := W3_of m ρ c main_arg0 (by decide)
    _ = W1 m ρ c (Proc.devRef .tc main_arg0) := W2_in m ρ c 0 rfl
    _ = W0 m ρ c (Proc.devRef .tc main_arg0) := W1_of m ρ c main_arg0 (by decide)
    _ = m ((c : Thread nD τ).loc main_arg0) := rfl
theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := W9_of_ne m ρ c main_arg1 (by decide)
    _ = W7 m ρ c (Proc.devRef .tc main_arg1) := W8_of m ρ c main_arg1 (by decide)
    _ = W6 m ρ c (Proc.devRef .tc main_arg1) := W7_of_ne m ρ c main_arg1 (by decide)
    _ = W5 m ρ c (Proc.devRef .tc main_arg1) := W6_of m ρ c main_arg1 (by decide)
    _ = W4 m ρ c (Proc.devRef .tc main_arg1) := W5_of m ρ c main_arg1 (by decide)
    _ = W3 m ρ c (Proc.devRef .tc main_arg1) := W4_of m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := W9_of_ne m ρ c main_arg2 (by decide)
    _ = W7 m ρ c (Proc.devRef .tc main_arg2) := W8_of m ρ c main_arg2 (by decide)
    _ = W6 m ρ c (Proc.devRef .tc main_arg2) := W7_of_ne m ρ c main_arg2 (by decide)
    _ = W5 m ρ c (Proc.devRef .tc main_arg2) := W6_of m ρ c main_arg2 (by decide)
    _ = W4 m ρ c (Proc.devRef .tc main_arg2) := W5_of m ρ c main_arg2 (by decide)
    _ = W3 m ρ c (Proc.devRef .tc main_arg2) := W4_of m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl
theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := W9_of_ne m ρ c main_arg3 (by decide)
    _ = W7 m ρ c (Proc.devRef .tc main_arg3) := W8_of m ρ c main_arg3 (by decide)
    _ = W6 m ρ c (Proc.devRef .tc main_arg3) := W7_of_ne m ρ c main_arg3 (by decide)
    _ = W5 m ρ c (Proc.devRef .tc main_arg3) := W6_of m ρ c main_arg3 (by decide)
    _ = W4 m ρ c (Proc.devRef .tc main_arg3) := W5_of m ρ c main_arg3 (by decide)
    _ = W3 m ρ c (Proc.devRef .tc main_arg3) := W4_of m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl
theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := W9_of_ne m ρ c main_arg4 (by decide)
    _ = W7 m ρ c (Proc.devRef .tc main_arg4) := W8_of m ρ c main_arg4 (by decide)
    _ = W6 m ρ c (Proc.devRef .tc main_arg4) := W7_of_ne m ρ c main_arg4 (by decide)
    _ = W5 m ρ c (Proc.devRef .tc main_arg4) := W6_of m ρ c main_arg4 (by decide)
    _ = W4 m ρ c (Proc.devRef .tc main_arg4) := W5_of m ρ c main_arg4 (by decide)
    _ = W3 m ρ c (Proc.devRef .tc main_arg4) := W4_of m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl
theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := W9_of_ne m ρ c main_arg5 (by decide)
    _ = W7 m ρ c (Proc.devRef .tc main_arg5) := W8_of m ρ c main_arg5 (by decide)
    _ = W6 m ρ c (Proc.devRef .tc main_arg5) := W7_of_ne m ρ c main_arg5 (by decide)
    _ = W5 m ρ c (Proc.devRef .tc main_arg5) := W6_of m ρ c main_arg5 (by decide)
    _ = W4 m ρ c (Proc.devRef .tc main_arg5) := W5_of m ρ c main_arg5 (by decide)
    _ = W3 m ρ c (Proc.devRef .tc main_arg5) := W4_of m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl
theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := W9_of_ne m ρ c main_arg6 (by decide)
    _ = W7 m ρ c (Proc.devRef .tc main_arg6) := W8_of m ρ c main_arg6 (by decide)
    _ = W6 m ρ c (Proc.devRef .tc main_arg6) := W7_of_ne m ρ c main_arg6 (by decide)
    _ = W5 m ρ c (Proc.devRef .tc main_arg6) := W6_of m ρ c main_arg6 (by decide)
    _ = W4 m ρ c (Proc.devRef .tc main_arg6) := W5_of m ρ c main_arg6 (by decide)
    _ = W3 m ρ c (Proc.devRef .tc main_arg6) := W4_of m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl
theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := W9_of_ne m ρ c main_arg7 (by decide)
    _ = W7 m ρ c (Proc.devRef .tc main_arg7) := W8_of m ρ c main_arg7 (by decide)
    _ = W6 m ρ c (Proc.devRef .tc main_arg7) := W7_of_ne m ρ c main_arg7 (by decide)
    _ = W5 m ρ c (Proc.devRef .tc main_arg7) := W6_of m ρ c main_arg7 (by decide)
    _ = W4 m ρ c (Proc.devRef .tc main_arg7) := W5_of m ρ c main_arg7 (by decide)
    _ = W3 m ρ c (Proc.devRef .tc main_arg7) := W4_of m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl
theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := W9_of_ne m ρ c main_arg8 (by decide)
    _ = W7 m ρ c (Proc.devRef .tc main_arg8) := W8_of m ρ c main_arg8 (by decide)
    _ = W6 m ρ c (Proc.devRef .tc main_arg8) := W7_of_ne m ρ c main_arg8 (by decide)
    _ = W5 m ρ c (Proc.devRef .tc main_arg8) := W6_of m ρ c main_arg8 (by decide)
    _ = W4 m ρ c (Proc.devRef .tc main_arg8) := W5_of m ρ c main_arg8 (by decide)
    _ = W3 m ρ c (Proc.devRef .tc main_arg8) := W4_of m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl
theorem W9_main_arg9 (c : Dev nD) : W9 m ρ c (Proc.devRef .tc main_arg9) = m ((c : Thread nD τ).loc main_arg9) :=
  calc W9 m ρ c (Proc.devRef .tc main_arg9)
    _ = W8 m ρ c (Proc.devRef .tc main_arg9) := W9_in m ρ c 6 rfl
    _ = W7 m ρ c (Proc.devRef .tc main_arg9) := W8_of m ρ c main_arg9 (by decide)
    _ = W6 m ρ c (Proc.devRef .tc main_arg9) := W7_of_ne m ρ c main_arg9 (by decide)
    _ = W5 m ρ c (Proc.devRef .tc main_arg9) := W6_of m ρ c main_arg9 (by decide)
    _ = W4 m ρ c (Proc.devRef .tc main_arg9) := W5_of m ρ c main_arg9 (by decide)
    _ = W3 m ρ c (Proc.devRef .tc main_arg9) := W4_of m ρ c main_arg9 (by decide)
    _ = W2 m ρ c (Proc.devRef .tc main_arg9) := W3_of m ρ c main_arg9 (by decide)
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl
theorem W9_main_arg10 (c : Dev nD) : W9 m ρ c (Proc.devRef .tc main_arg10) = m ((c : Thread nD τ).loc main_arg10) :=
  calc W9 m ρ c (Proc.devRef .tc main_arg10)
    _ = W8 m ρ c (Proc.devRef .tc main_arg10) := W9_of_ne m ρ c main_arg10 (by decide)
    _ = W7 m ρ c (Proc.devRef .tc main_arg10) := W8_of m ρ c main_arg10 (by decide)
    _ = W6 m ρ c (Proc.devRef .tc main_arg10) := W7_of_ne m ρ c main_arg10 (by decide)
    _ = W5 m ρ c (Proc.devRef .tc main_arg10) := W6_of m ρ c main_arg10 (by decide)
    _ = W4 m ρ c (Proc.devRef .tc main_arg10) := W5_of m ρ c main_arg10 (by decide)
    _ = W3 m ρ c (Proc.devRef .tc main_arg10) := W4_of m ρ c main_arg10 (by decide)
    _ = W2 m ρ c (Proc.devRef .tc main_arg10) := W3_of m ρ c main_arg10 (by decide)
    _ = W1 m ρ c (Proc.devRef .tc main_arg10) := W2_of_ne m ρ c main_arg10 (by decide)
    _ = W0 m ρ c (Proc.devRef .tc main_arg10) := W1_of m ρ c main_arg10 (by decide)
    _ = m ((c : Thread nD τ).loc main_arg10) := rfl
theorem W9_main_arg11 (c : Dev nD) : W9 m ρ c (Proc.devRef .tc main_arg11) = m ((c : Thread nD τ).loc main_arg11) :=
  calc W9 m ρ c (Proc.devRef .tc main_arg11)
    _ = W8 m ρ c (Proc.devRef .tc main_arg11) := W9_of_ne m ρ c main_arg11 (by decide)
    _ = W7 m ρ c (Proc.devRef .tc main_arg11) := W8_of m ρ c main_arg11 (by decide)
    _ = W6 m ρ c (Proc.devRef .tc main_arg11) := W7_of_ne m ρ c main_arg11 (by decide)
    _ = W5 m ρ c (Proc.devRef .tc main_arg11) := W6_of m ρ c main_arg11 (by decide)
    _ = W4 m ρ c (Proc.devRef .tc main_arg11) := W5_of m ρ c main_arg11 (by decide)
    _ = W3 m ρ c (Proc.devRef .tc main_arg11) := W4_of m ρ c main_arg11 (by decide)
    _ = W2 m ρ c (Proc.devRef .tc main_arg11) := W3_of m ρ c main_arg11 (by decide)
    _ = W1 m ρ c (Proc.devRef .tc main_arg11) := W2_of_ne m ρ c main_arg11 (by decide)
    _ = W0 m ρ c (Proc.devRef .tc main_arg11) := W1_of m ρ c main_arg11 (by decide)
    _ = m ((c : Thread nD τ).loc main_arg11) := rfl
theorem W9_main_arg12 (c : Dev nD) : W9 m ρ c (Proc.devRef .tc main_arg12) = m ((c : Thread nD τ).loc main_arg12) :=
  calc W9 m ρ c (Proc.devRef .tc main_arg12)
    _ = W8 m ρ c (Proc.devRef .tc main_arg12) := W9_of_ne m ρ c main_arg12 (by decide)
    _ = W7 m ρ c (Proc.devRef .tc main_arg12) := W8_of m ρ c main_arg12 (by decide)
    _ = W6 m ρ c (Proc.devRef .tc main_arg12) := W7_of_ne m ρ c main_arg12 (by decide)
    _ = W5 m ρ c (Proc.devRef .tc main_arg12) := W6_of m ρ c main_arg12 (by decide)
    _ = W4 m ρ c (Proc.devRef .tc main_arg12) := W5_of m ρ c main_arg12 (by decide)
    _ = W3 m ρ c (Proc.devRef .tc main_arg12) := W4_of m ρ c main_arg12 (by decide)
    _ = W2 m ρ c (Proc.devRef .tc main_arg12) := W3_of m ρ c main_arg12 (by decide)
    _ = W1 m ρ c (Proc.devRef .tc main_arg12) := W2_of_ne m ρ c main_arg12 (by decide)
    _ = W0 m ρ c (Proc.devRef .tc main_arg12) := W1_of m ρ c main_arg12 (by decide)
    _ = m ((c : Thread nD τ).loc main_arg12) := rfl
theorem W9_main_arg13 (c : Dev nD) : W9 m ρ c (Proc.devRef .tc main_arg13) = m ((c : Thread nD τ).loc main_arg13) :=
  calc W9 m ρ c (Proc.devRef .tc main_arg13)
    _ = W8 m ρ c (Proc.devRef .tc main_arg13) := W9_of_ne m ρ c main_arg13 (by decide)
    _ = W7 m ρ c (Proc.devRef .tc main_arg13) := W8_of m ρ c main_arg13 (by decide)
    _ = W6 m ρ c (Proc.devRef .tc main_arg13) := W7_of_ne m ρ c main_arg13 (by decide)
    _ = W5 m ρ c (Proc.devRef .tc main_arg13) := W6_of m ρ c main_arg13 (by decide)
    _ = W4 m ρ c (Proc.devRef .tc main_arg13) := W5_of m ρ c main_arg13 (by decide)
    _ = W3 m ρ c (Proc.devRef .tc main_arg13) := W4_of m ρ c main_arg13 (by decide)
    _ = W2 m ρ c (Proc.devRef .tc main_arg13) := W3_of m ρ c main_arg13 (by decide)
    _ = W1 m ρ c (Proc.devRef .tc main_arg13) := W2_of_ne m ρ c main_arg13 (by decide)
    _ = W0 m ρ c (Proc.devRef .tc main_arg13) := W1_of m ρ c main_arg13 (by decide)
    _ = m ((c : Thread nD τ).loc main_arg13) := rfl
theorem W9_main_arg14 (c : Dev nD) : W9 m ρ c (Proc.devRef .tc main_arg14) = m ((c : Thread nD τ).loc main_arg14) :=
  calc W9 m ρ c (Proc.devRef .tc main_arg14)
    _ = W8 m ρ c (Proc.devRef .tc main_arg14) := W9_of_ne m ρ c main_arg14 (by decide)
    _ = W7 m ρ c (Proc.devRef .tc main_arg14) := W8_of m ρ c main_arg14 (by decide)
    _ = W6 m ρ c (Proc.devRef .tc main_arg14) := W7_of_ne m ρ c main_arg14 (by decide)
    _ = W5 m ρ c (Proc.devRef .tc main_arg14) := W6_of m ρ c main_arg14 (by decide)
    _ = W4 m ρ c (Proc.devRef .tc main_arg14) := W5_of m ρ c main_arg14 (by decide)
    _ = W3 m ρ c (Proc.devRef .tc main_arg14) := W4_of m ρ c main_arg14 (by decide)
    _ = W2 m ρ c (Proc.devRef .tc main_arg14) := W3_of m ρ c main_arg14 (by decide)
    _ = W1 m ρ c (Proc.devRef .tc main_arg14) := W2_of_ne m ρ c main_arg14 (by decide)
    _ = W0 m ρ c (Proc.devRef .tc main_arg14) := W1_of m ρ c main_arg14 (by decide)
    _ = m ((c : Thread nD τ).loc main_arg14) := rfl

/-! ## The proof data family and the thread state -/

/-- The prefetched tables' admissible contents: no pipeline has a table. -/
abbrev hadm : (p : Fin 3) → (pcfgs (F := F) p).Adm := fun p => (cfgs p).toPCfg_adm
/-- Every pipeline's proof data, each at its region's entry contents. -/
def hpdats : (p : Fin 3) → (c : Dev nD) → Dat τ (Elt F) Unit ℕ (UR sig nD τ) ℕ (Pipeline.pin (pcfgs (F := F)) hadm p) c
  | ⟨0, _⟩ => fun c => dat0 (Ve0 m ρ) c
  | ⟨1, _⟩ => fun c => dat1 (Ve1 m ρ) c
  | ⟨2, _⟩ => fun c => dat2 (Ve2 m ρ) c
/-- No variant of a kernel body. -/
abbrev runVar : Variants := Variants.none
/-- No core owes another anything: no level is assigned. -/
abbrev runL : GSem nD τ sig → Finset Unit := fun _ => ∅
abbrev runLv : GSem nD τ sig → Unit → ℕ := fun _ _ => 0
/-- What rides beside the buffers through every item: the core's generator register at some state and the core
    owing nothing. -/
abbrev hR (c : Dev nD) : sProp 𝕄 := iprop((∃ r, prngReg c r) ∗ ∃ W, owes (c : Thread nD τ) (0 : CellTallies nD τ sig Unit) W)
/-- A host stretch as a segment: its operations over the unscoped references from the contents `W`, `hR` riding
    along; it ends at those references at the contents after the operations. -/
abbrev hhost (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ runVar runL runLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W hR

/-- An unscoped TensorCore reference is among those the thread state holds. -/
theorem run_mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev hTn (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- REGION 0 over the thread state: entered from every unscoped buffer at `W1`, left at `W2`. Its arrays are
    split out of the unscoped buffers at entry and put back at the exit contents; the generator register goes into
    the pipeline's invariant and comes out; nothing is owed; the kernel has no semaphore of its own. -/
def hreg0 : Pipeline.RegionSeg (pcfgs (F := F)) hadm (hpdats m ρ) () defs₀ runVar runL runLv 0 where
  win := launch0.win.to₀
  block_pos := launch0.block_pos
  stage_whole := launch0.stage_whole
  K := PEmpty
  osem k := k.elim
  ho := Pipeline.OwnSemFacts.none _
  hbody c := (body_obligation0 (Ve0 m ρ) c).loose
  hwaits := Pipeline.hwaits_of_owed_zero _ _ _ _ runL runLv 0 fun _ _ => rfl
  pre c := iprop(StableHlo.held (c : Thread nD τ) (Pipeline.ucRefs τ sig) (W1 m ρ c) ∗ hR c)
  post c := iprop(StableHlo.held (c : Thread nD τ) (Pipeline.ucRefs τ sig) (W2 m ρ c) ∗ hR c)
  X c := iprop(∃ r, prngReg c r)
  Y c := iprop(∃ r, prngReg c r)
  Z c := Pipeline.unscopedRest (Ix := Unit) (Name := ℕ) (U := UR sig nD τ) (Lvl := ℕ) spec0 c (Ve0 m ρ c)
  hentry c := by
    rw [Pipeline.ownSems0_none]
    have hsplit := Pipeline.arrays_of_unscopedBufs (p := 0) (pcfgs (F := F)) hadm (hpdats m ρ) launch0.win launch0.arr_whole c
      ((hpdats m ρ 0 c).share_full fun _ => rfl) (Ve0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (hpdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (hpdats m ρ) ((hpdats m ρ 0 c).share_full fun _ => rfl)
      (Ve0 m ρ c) (Vx0 m ρ c) ((hpdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W6`, left at `W7`. Its arrays are
    split out of the unscoped buffers at entry and put back at the exit contents; the generator register goes into
    the pipeline's invariant and comes out; nothing is owed; the kernel has no semaphore of its own. -/
def hreg1 : Pipeline.RegionSeg (pcfgs (F := F)) hadm (hpdats m ρ) () defs₀ runVar runL runLv 1 where
  win := launch1.win.to₀
  block_pos := launch1.block_pos
  stage_whole := launch1.stage_whole
  K := PEmpty
  osem k := k.elim
  ho := Pipeline.OwnSemFacts.none _
  hbody c := (body_obligation1 (Ve1 m ρ) c).loose
  hwaits := Pipeline.hwaits_of_owed_zero _ _ _ _ runL runLv 1 fun _ _ => rfl
  pre c := iprop(StableHlo.held (c : Thread nD τ) (Pipeline.ucRefs τ sig) (W6 m ρ c) ∗ hR c)
  post c := iprop(StableHlo.held (c : Thread nD τ) (Pipeline.ucRefs τ sig) (W7 m ρ c) ∗ hR c)
  X c := iprop(∃ r, prngReg c r)
  Y c := iprop(∃ r, prngReg c r)
  Z c := Pipeline.unscopedRest (Ix := Unit) (Name := ℕ) (U := UR sig nD τ) (Lvl := ℕ) spec1 c (Ve1 m ρ c)
  hentry c := by
    rw [Pipeline.ownSems0_none]
    have hsplit := Pipeline.arrays_of_unscopedBufs (p := 1) (pcfgs (F := F)) hadm (hpdats m ρ) launch1.win launch1.arr_whole c
      ((hpdats m ρ 1 c).share_full fun _ => rfl) (Ve1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (hpdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) hadm (Ix := Unit) (Name := ℕ) (U := UR sig nD τ) (Lvl := ℕ)
      launch1.win launch1.arr_whole c (hpdats m ρ) ((hpdats m ρ 1 c).share_full fun _ => rfl)
      (Ve1 m ρ c) (Vx1 m ρ c) ((hpdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W8`, left at `W9`. Its arrays are
    split out of the unscoped buffers at entry and put back at the exit contents; the generator register goes into
    the pipeline's invariant and comes out; nothing is owed; the kernel has no semaphore of its own. -/
def hreg2 : Pipeline.RegionSeg (pcfgs (F := F)) hadm (hpdats m ρ) () defs₀ runVar runL runLv 2 where
  win := launch2.win.to₀
  block_pos := launch2.block_pos
  stage_whole := launch2.stage_whole
  K := PEmpty
  osem k := k.elim
  ho := Pipeline.OwnSemFacts.none _
  hbody c := (body_obligation2 (Ve2 m ρ) c).loose
  hwaits := Pipeline.hwaits_of_owed_zero _ _ _ _ runL runLv 2 fun _ _ => rfl
  pre c := iprop(StableHlo.held (c : Thread nD τ) (Pipeline.ucRefs τ sig) (W8 m ρ c) ∗ hR c)
  post c := iprop(hTn m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Ve2 m ρ c)
  hentry c := by
    rw [Pipeline.ownSems0_none]
    have hsplit := Pipeline.arrays_of_unscopedBufs (p := 2) (pcfgs (F := F)) hadm (hpdats m ρ) launch2.win launch2.arr_whole c
      ((hpdats m ρ 2 c).share_full fun _ => rfl) (Ve2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (hpdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) hadm (Ix := Unit) (Name := ℕ) (U := UR sig nD τ) (Lvl := ℕ)
      launch2.win launch2.arr_whole c (hpdats m ρ) ((hpdats m ρ 2 c).share_full fun _ => rfl)
      (Ve2 m ρ c) (Vx2 m ρ c) ((hpdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's 9 items in order: a host segment per stretch from its boundary's contents, a region per kernel. -/
abbrev hsegs : List (Pipeline.Seg (pcfgs (F := F)) hadm (hpdats m ρ) () defs₀ runVar runL runLv) :=
  [ .host (hhost hostOps0 hostOps0_sub hostOps0_fresh (W0 m ρ)),
    .region (hreg0 m ρ),
    .host (hhost hostOps1 hostOps1_sub hostOps1_fresh (W2 m ρ)),
    .host (hhost hostOps1_1 hostOps1_1_sub hostOps1_1_fresh (W3 m ρ)),
    .host (hhost hostOps1_2 hostOps1_2_sub hostOps1_2_fresh (W4 m ρ)),
    .host (hhost hostOps1_3 hostOps1_3_sub hostOps1_3_fresh (W5 m ρ)),
    .region (hreg1 m ρ),
    .host (hhost hostOps2 hostOps2_sub hostOps2_fresh (W7 m ρ)),
    .region (hreg2 m ρ) ]

/-- The program IS the run of the segments: it is the chain of its items, and so is the segments' run. -/
theorem main_run (c : Dev nD) : main (F := F) c = Pipeline.Seg.run (hsegs m ρ) := by
  rw [main_chain c, Pipeline.Seg.run_eq_chain]
  rfl

set_option backward.isDefEq.respectTransparency.types false in
/-- THE RUN: from any memory with zero counters, every weakly fair execution of the program on the TensorCores
    terminates, nothing faulting, and in every final state every unscoped buffer holds the last boundary's contents. -/
theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W9 m ρ c (Proc.devRef .tc b)) :=
  Pipeline.θ_run_regions_kit (pcfgs (F := F)) hadm (hpdats m ρ) () cellOf_inj emb₁ defs₀ runVar runL runLv m ρ main (hsegs m ρ)
    (fun c Q => by rw [main_run m ρ c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ hR c)) (Tₙ := hTn m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach runL runLv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c b hb => h c _ (run_mem_uc b hb))

/-- THE FRAME: from any memory with zero counters, every weakly fair execution of the program terminates, nothing
    faulting, and every final state has each of the 15 argument arrays as launched: an unscoped buffer ends at the last
    boundary's contents, and the fold at an argument's buffer walks back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c main_arg0 (by decide)).trans (W9_main_arg0 m ρ c),
     (h c main_arg1 (by decide)).trans (W9_main_arg1 m ρ c),
     (h c main_arg2 (by decide)).trans (W9_main_arg2 m ρ c),
     (h c main_arg3 (by decide)).trans (W9_main_arg3 m ρ c),
     (h c main_arg4 (by decide)).trans (W9_main_arg4 m ρ c),
     (h c main_arg5 (by decide)).trans (W9_main_arg5 m ρ c),
     (h c main_arg6 (by decide)).trans (W9_main_arg6 m ρ c),
     (h c main_arg7 (by decide)).trans (W9_main_arg7 m ρ c),
     (h c main_arg8 (by decide)).trans (W9_main_arg8 m ρ c),
     (h c main_arg9 (by decide)).trans (W9_main_arg9 m ρ c),
     (h c main_arg10 (by decide)).trans (W9_main_arg10 m ρ c),
     (h c main_arg11 (by decide)).trans (W9_main_arg11 m ρ c),
     (h c main_arg12 (by decide)).trans (W9_main_arg12 m ρ c),
     (h c main_arg13 (by decide)).trans (W9_main_arg13 m ρ c),
     (h c main_arg14 (by decide)).trans (W9_main_arg14 m ρ c)⟩)
    (run_all m ρ)

end Cert.KernelIdeal.Hand

end
-- ==== Proof.PreRange.lean ====
/-
  The printed input precondition ends in four whole-array tests of the two integer index vectors:
  every source index is at least 0 and below 50000, and likewise every destination index. Each test is a
  signed comparison against a broadcast constant, folded by "and" over the one axis, and and-ed onto the chain
  of the float tests. When the whole chain evaluates to 1, each of the four folds is 1, hence each compared
  entry is 1, which is the stated inequality between the signed values of the words.
-/
import proofs.«429932_j30906584662329_2_alg».proof.Pre_finite_inputs
import Idealize.ShloMosaic.Lib.ReduceAll
import Idealize.ShloMosaic.Lib.ValueIdx
import Idealize.ShloMosaic.Lib.StableHlo.Predicate

noncomputable section

namespace Cert.Bridge

open Idealize.ShloMosaic Idealize.ShloMosaic.ValueIdx
open Cert.Pre_finite_inputs

/-- The scalar shape has one index. -/
instance subsingleton_scalar_idx : Subsingleton Cert.Pre_finite_inputs.S_.Idx := ⟨fun a b => funext fun d => d.elim0⟩

/-- A word that compares signed-greater-or-equal to the zero word has a non-negative signed value. -/
theorem toInt_nonneg_of_sge {w : BitVec 32} (h : IntOp.cmpi .sge w 0#32 = 1#1) : 0 ≤ w.toInt := by
  unfold IntOp.cmpi at h
  rw [StableHlo.Predicate.ofBool_eq_one_iff] at h
  simp only [BitVec.sle, decide_eq_true_eq] at h
  have h0 : (0#32 : BitVec 32).toInt = 0 := by decide
  rw [h0] at h
  exact h

/-- A word that compares signed-less to the word 50000 has a signed value below 50000. -/
theorem toInt_lt_of_slt {w : BitVec 32} (h : IntOp.cmpi .slt w 50000#32 = 1#1) : w.toInt < 50000 := by
  unfold IntOp.cmpi at h
  rw [StableHlo.Predicate.ofBool_eq_one_iff] at h
  simp only [BitVec.slt, decide_eq_true_eq] at h
  have h0 : (50000#32 : BitVec 32).toInt = 50000 := by decide
  rw [h0] at h
  exact h

variable [Cert.Pre_finite_inputs.Facts]

/-- THE INDEX RANGES OUT OF THE PRECONDITION: if the printed predicate is 1, every source index and every
    destination index lies in [0, 50000) as a signed word. -/
theorem range_of_pre {F : FTy → Type} [FloatOps F]
    (a0 : FVec F S50000x128 .f32) (a1 : IVec S800000 32) (a2 : IVec S800000 32) (a3 : FVec F S128x128 .f32)
    (a4 : FVec F S128 .f32) (a5 : FVec F S128x128 .f32) (a6 : FVec F S128 .f32) (a7 : FVec F S128x128 .f32)
    (a8 : FVec F S128 .f32) (a9 : FVec F S128x128 .f32) (a10 : FVec F S128 .f32) (a11 : FVec F S128 .f32)
    (a12 : FVec F S128 .f32) (a13 : FVec F S128 .f32) (a14 : FVec F S128 .f32)
    (h : Cert.Pre_finite_inputs.fn (F := F) a0 a1 a2 a3 a4 a5 a6 a7 a8 a9 a10 a11 a12 a13 a14 = fun _ => 1#1) :
    (∀ e : Fin 800000, 0 ≤ (a1 (ix1 e)).toInt ∧ (a1 (ix1 e)).toInt < 50000)
      ∧ (∀ e : Fin 800000, 0 ≤ (a2 (ix1 e)).toInt ∧ (a2 (ix1 e)).toInt < 50000) := by
  have e0 := congrFun h ix0
  dsimp only [Cert.Pre_finite_inputs.fn, fn_part1, fn_part2, fn_part3, fn_part4] at e0
  -- the chain's last four conjuncts, newest first
  obtain ⟨e1, hd1⟩ := IntOp.andi_eq_one.1 e0
  obtain ⟨e2, hd0⟩ := IntOp.andi_eq_one.1 e1
  obtain ⟨e3, hs1⟩ := IntOp.andi_eq_one.1 e2
  obtain ⟨-, hs0⟩ := IntOp.andi_eq_one.1 e3
  refine ⟨fun e => ⟨?_, ?_⟩, fun e => ⟨?_, ?_⟩⟩
  · exact toInt_nonneg_of_sge (Host.reduce_andi_all _ _ _ _ ix0 hs0 (ix1 e))
  · exact toInt_lt_of_slt (Host.reduce_andi_all _ _ _ _ ix0 hs1 (ix1 e))
  · exact toInt_nonneg_of_sge (Host.reduce_andi_all _ _ _ _ ix0 hd0 (ix1 e))
  · exact toInt_lt_of_slt (Host.reduce_andi_all _ _ _ _ ix0 hd1 (ix1 e))

end Cert.Bridge

end
-- ==== Proof.Spec.lean ====
/-
  The three kernels' results as plain formulas over the extended reals, coordinate by coordinate.

  * `projAt`: a row of `x` times a column of a weight matrix, plus the bias entry — one entry of `x · W + b`.
  * `edgeAt`: an edge's value row scaled by its attention weight: the exponential of the head's score
    `(∑_d k·q) · ¼` clamped into `[−5, 5]`.
  * `ffnAt`: the node update: `h = x + wV`, normalised twice over its 128 entries (mean, variance, reciprocal
    square root of variance plus ε, scale and shift), the second normalisation projected by `Wo` and biased,
    clipped below at zero, and added to the first normalisation.
  Float literals stay as their words: the same word on both sides of an equation is never evaluated.
-/
import Idealize.ShloMosaic.PureOps.Ideal

noncomputable section

namespace Cert.Spec

open Idealize.ShloMosaic
open scoped BigOperators

/-- One entry of `x · W + b`: row `n` of `x` against column `j` of `w`, plus `b j`. -/
def projAt {N K J : Nat} (x : Fin N → Fin K → EReal) (w : Fin K → Fin J → EReal) (b : Fin J → EReal)
    (n : Fin N) (j : Fin J) : EReal :=
  (∑ k : Fin K, x n k * w k j) + b j

/-- The words of the literals the kernels carry: ¼, −5, 5, 128, ε, 0. -/
abbrev cQuarter : EReal := Ideal.ofBits .f32 0x3E800000#32
abbrev cNegFive : EReal := Ideal.ofBits .f32 0xC0A00000#32
abbrev cFive : EReal := Ideal.ofBits .f32 0x40A00000#32
abbrev c128 : EReal := Ideal.ofBits .f32 0x43000000#32
abbrev cEps : EReal := Ideal.ofBits .f32 0x3727C5AC#32
abbrev cZero : EReal := Ideal.ofBits .f32 0x00000000#32

/-- An edge's weighted value entry: `v · exp (min 5 (max (−5) ((∑_d k·q) · ¼)))`. -/
def edgeAt {E H D : Nat} (kg qg vg : Fin E → Fin H → Fin D → EReal) (e : Fin E) (h : Fin H) (d : Fin D) : EReal :=
  vg e h d * Ideal.exp (min cFive (max cNegFive ((∑ dd : Fin D, kg e h dd * qg e h dd) * cQuarter)))

/-- The mean of a row of `K` entries as the kernels take it: the sum divided by the literal 128. -/
def meanOf {K : Nat} (f : Fin K → EReal) : EReal := Ideal.div (∑ k : Fin K, f k) c128

/-- One normalisation of a row: centred, scaled by the reciprocal square root of the variance plus ε, then by
    `g` and shifted by `b`. -/
def normAt {K : Nat} (f : Fin K → EReal) (g b : Fin K → EReal) (k : Fin K) : EReal :=
  (f k - meanOf f) * Ideal.rsqrt (meanOf (fun k' => (f k' - meanOf f) * (f k' - meanOf f)) + cEps) * g k + b k

/-- The node update's entry `(n, j)`. -/
def ffnAt {N K : Nat} (x wv : Fin N → Fin K → EReal) (g1 b1 g2 b2 bo : Fin K → EReal) (wo : Fin K → Fin K → EReal)
    (n : Fin N) (j : Fin K) : EReal :=
  normAt (fun k => x n k + wv n k) g1 b1 j
    + max ((∑ k : Fin K, normAt (normAt (fun k' => x n k' + wv n k') g1 b1) g2 b2 k * wo k j) + bo j) cZero

end Cert.Spec

end
-- ==== Proof.KI.Val1.lean ====
import proofs.«429932_j30906584662329_2_alg».proof.Proof.KI.Reg1
import proofs.«429932_j30906584662329_2_alg».proof.Proof.Spec
import Idealize.ShloMosaic.PureOps.Ideal.Laws
import Idealize.ShloMosaic.Lib.ValueIdx
import Idealize.ShloMosaic.Lib.Pipeline.Value

noncomputable section

namespace Cert.KernelIdeal.Val

open Cert.KernelIdeal Cert.KernelIdeal.Gen Cert.KernelIdeal.Hand Idealize.ShloMosaic Idealize.ShloMosaic.ValueIdx
open Idealize.ShloMosaic.TcCoe
open Idealize.ShloMosaic.Pipeline (Dat)
open scoped BigOperators

/-! ## The payload at an index -/

/-- An `[a, b]` array cast to `[a, b, 1]` (a sum that keeps its axis) reads, at `(i, j, u)`, the operand at `(i, j)`. -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand's one entry `(i, j, 0)`. -/
theorem broadcastTo_ab1_abc_apply {α : Type} {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The sum over the last axis of a `[1000, 8, 16]` block, at `(r, h)`, is the sum of the block's entries `(r, h, dd)`. -/
theorem laneSum_apply (v : FVec Ideal S1000x8x16 .f32) (hφ : FKind.Formats .f32)
    (hacc : (0x00000000#32 : BitVec 32) = FKind.add.neutral .f32 hφ) (r : Fin 1000) (h : Fin 8) :
    multiReduction (F := Ideal) .add [2] S1000x8 v 0x00000000#32 reduces_S1000x8x16_S1000x8 hφ hacc (ix2 r h)
      = ∑ dd : Fin 16, v (ix3 r h dd) := by
  refine (Ideal.multiReduction_add_single v _ reduces_S1000x8x16_S1000x8 hφ hacc (ix2 r h)).trans ?_
  refine Finset.sum_congr rfl fun dd _ => congrArg v ?_
  funext a
  apply Fin.ext
  match a with
  | ⟨0, _⟩ => rfl
  | ⟨1, _⟩ => rfl
  | ⟨2, _⟩ => rfl

/-- THE PAYLOAD AT AN INDEX: the value entry times the exponential of the clamped, scaled lane sum of key times query. -/
theorem pay1_apply (x0 x1 x2 : Vec Ideal S1000x8x16 .f32) (r : Fin 1000) (h : Fin 8) (d : Fin 16) :
    k1_pay1 (F := Ideal) x0 x1 x2 (ix3 r h d)
      = x2 (ix3 r h d) * Ideal.exp (min Cert.Spec.cFive (max Cert.Spec.cNegFive
          ((∑ dd : Fin 16, x0 (ix3 r h dd) * x1 (ix3 r h dd)) * Cert.Spec.cQuarter))) := by
  unfold k1_pay1
  rw [mulf_apply, shapeCast_self, broadcastTo_ab1_abc_apply]
  have key : ∀ (hφ : FKind.Formats .f32) (hacc : (0x00000000#32 : BitVec 32) = FKind.add.neutral .f32 hφ),
      shapeCast S1000x8x1 (multiReduction (F := Ideal) .add [2] S1000x8
          (mulf (shapeCast S1000x8x16 x0 shapeCasts_S1000x8x16_S1000x8x16) (shapeCast S1000x8x16 x1 shapeCasts_S1000x8x16_S1000x8x16))
          0x00000000#32 reduces_S1000x8x16_S1000x8 hφ hacc) shapeCasts_S1000x8_S1000x8x1 (ix3 r h (0 : Fin 1))
        = ∑ dd : Fin 16, x0 (ix3 r h dd) * x1 (ix3 r h dd) := by
    intro hφ hacc
    rw [shapeCast_ab_ab1_apply, laneSum_apply, shapeCast_self, shapeCast_self]
    rfl
  exact congrArg (fun z => x2 (ix3 r h d) * Ideal.exp (min Cert.Spec.cFive (max Cert.Spec.cNegFive (z * Cert.Spec.cQuarter)))) (key _ _)

/-! ## The index maps over the grid -/

theorem zeros3 : (![0, 0, 0] : Fin 3 → Nat) = fun _ => 0 := funext fun a => by fin_cases a <;> rfl

/-- At point `t` every window's block index is `(t, 0, 0)`: decided over the 800 points of the grid. -/
theorem idx_facts1 : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0 :=
  (by decide +kernel : ∀ t : Fin grid1.N, _)

/-- Row `p` of point `t`'s block is row `t · 1000 + p` of the array. -/
def edgeRowOf (t : Fin cfg1.N) (p : Fin 1000) : Fin 800000 :=
  ⟨t.val * 1000 + p.val, by
    have hN : grid1.N = 800 := N_1
    have ht : t.val < grid1.N := t.isLt
    have hp := p.isLt
    omega⟩

/-- Entry `(p, q, s)` of point `t`'s block of window 0 is entry `(t · 1000 + p, q, s)` of its array. -/
theorem emb1_0 (t : Fin cfg1.N) (p : Fin 1000) (q : Fin 8) (s : Fin 16) :
    ((cfg1.win 0).blk t).view.emb (ix3 p q s) = ix3 (edgeRowOf t p) q s := by
  obtain ⟨e0, e1, e2, -⟩ := idx_facts1 t
  funext a
  apply Fin.ext
  match a with
  | ⟨0, _⟩ => show win1_0.index t (0 : Fin 3) * 1000 + 1 * p.val = t.val * 1000 + p.val; rw [e0]; omega
  | ⟨1, _⟩ => show win1_0.index t (1 : Fin 3) * 8 + 1 * q.val = q.val; rw [e1]; omega
  | ⟨2, _⟩ => show win1_0.index t (2 : Fin 3) * 16 + 1 * s.val = s.val; rw [e2]; omega

/-- Entry `(p, q, s)` of point `t`'s block of window 1 is entry `(t · 1000 + p, q, s)` of its array. -/
theorem emb1_1 (t : Fin cfg1.N) (p : Fin 1000) (q : Fin 8) (s : Fin 16) :
    ((cfg1.win 1).blk t).view.emb (ix3 p q s) = ix3 (edgeRowOf t p) q s := by
  obtain ⟨-, -, -, e0, e1, e2, -⟩ := idx_facts1 t
  funext a
  apply Fin.ext
  match a with
  | ⟨0, _⟩ => show win1_1.index t (0 : Fin 3) * 1000 + 1 * p.val = t.val * 1000 + p.val; rw [e0]; omega
  | ⟨1, _⟩ => show win1_1.index t (1 : Fin 3) * 8 + 1 * q.val = q.val; rw [e1]; omega
  | ⟨2, _⟩ => show win1_1.index t (2 : Fin 3) * 16 + 1 * s.val = s.val; rw [e2]; omega

/-- Entry `(p, q, s)` of point `t`'s block of window 2 is entry `(t · 1000 + p, q, s)` of its array. -/
theorem emb1_2 (t : Fin cfg1.N) (p : Fin 1000) (q : Fin 8) (s : Fin 16) :
    ((cfg1.win 2).blk t).view.emb (ix3 p q s) = ix3 (edgeRowOf t p) q s := by
  obtain ⟨-, -, -, -, -, -, e0, e1, e2, -⟩ := idx_facts1 t
  funext a
  apply Fin.ext
  match a with
  | ⟨0, _⟩ => show win1_2.index t (0 : Fin 3) * 1000 + 1 * p.val = t.val * 1000 + p.val; rw [e0]; omega
  | ⟨1, _⟩ => show win1_2.index t (1 : Fin 3) * 8 + 1 * q.val = q.val; rw [e1]; omega
  | ⟨2, _⟩ => show win1_2.index t (2 : Fin 3) * 16 + 1 * s.val = s.val; rw [e2]; omega

/-- Entry `(p, q, s)` of point `t`'s block of window 3 is entry `(t · 1000 + p, q, s)` of its array. -/
theorem emb1_3 (t : Fin cfg1.N) (p : Fin 1000) (q : Fin 8) (s : Fin 16) :
    ((cfg1.win 3).blk t).view.emb (ix3 p q s) = ix3 (edgeRowOf t p) q s := by
  obtain ⟨-, -, -, -, -, -, -, -, -, e0, e1, e2⟩ := idx_facts1 t
  funext a
  apply Fin.ext
  match a with
  | ⟨0, _⟩ => show win1_3.index t (0 : Fin 3) * 1000 + 1 * p.val = t.val * 1000 + p.val; rw [e0]; omega
  | ⟨1, _⟩ => show win1_3.index t (1 : Fin 3) * 8 + 1 * q.val = q.val; rw [e1]; omega
  | ⟨2, _⟩ => show win1_3.index t (2 : Fin 3) * 16 + 1 * s.val = s.val; rw [e2]; omega

/-! ## From blocks to the array -/

variable (V : (c : Dev nD) → (b : Ref sig .tc) → Buf (Elt Ideal) ((c : Thread nD τ).loc b))

/-- What the output array ends holding, as ONE function of the three entry arrays: each edge's value row scaled by
    the exponential of its head's clamped, scaled score. -/
def G1 (a0 a1 a2 : S800000x8x16.Idx → EReal) : S800000x8x16.Idx → EReal := fun i =>
  Cert.Spec.edgeAt (fun (e : Fin 800000) (h : Fin 8) (d : Fin 16) => a0 (ix3 e h d))
    (fun (e : Fin 800000) (h : Fin 8) (d : Fin 16) => a1 (ix3 e h d))
    (fun (e : Fin 800000) (h : Fin 8) (d : Fin 16) => a2 (ix3 e h d)) (i 0) (i 1) (i 2)

/-- WHAT POINT `t` WRITES BACK is block `t` of `G1` of the entry arrays. -/
theorem flushed1_eq (c : Dev nD) (t : Fin cfg1.N) :
    (dat1 (F := Ideal) V c).flushed 3 t
      = ((cfg1.win 3).blk t).view.read (Elt Ideal) (G1 (V c main_v10) (V c main_v11) (V c main_v12)) := by
  show (cfg1.win 3).cut (grid1.coords t) ((dat1 (F := Ideal) V c).after 3 t) = _
  rw [after1_3]
  unfold out1_3
  rw [View.canon_unit_zero zeros3]
  simp only [View.ld_unit_zero (S := S1000x8x16) zeros3]
  funext j
  obtain ⟨p, q, s, rfl⟩ : ∃ (p : Fin 1000) (q : Fin 8) (s : Fin 16), j = ix3 p q s := ⟨j 0, j 1, j 2, eq_ix3 j⟩
  show k1_pay1 (F := Ideal) (iblk1 V c 0 t) (iblk1 V c 1 t) (iblk1 V c 2 t) (ix3 p q s)
      = G1 (V c main_v10) (V c main_v11) (V c main_v12) (((cfg1.win 3).blk t).view.emb (ix3 p q s))
  rw [pay1_apply, emb1_3]
  have b0 : ∀ x : Fin 16, iblk1 V c 0 t (ix3 p q x) = V c main_v10 (ix3 (edgeRowOf t p) q x) := fun x => by
    show V c main_v10 (((cfg1.win 0).blk t).view.emb (ix3 p q x)) = _
    rw [emb1_0]
  have b1 : ∀ x : Fin 16, iblk1 V c 1 t (ix3 p q x) = V c main_v11 (ix3 (edgeRowOf t p) q x) := fun x => by
    show V c main_v11 (((cfg1.win 1).blk t).view.emb (ix3 p q x)) = _
    rw [emb1_1]
  have b2 : ∀ x : Fin 16, iblk1 V c 2 t (ix3 p q x) = V c main_v12 (ix3 (edgeRowOf t p) q x) := fun x => by
    show V c main_v12 (((cfg1.win 2).blk t).view.emb (ix3 p q x)) = _
    rw [emb1_2]
  rw [b2]
  simp only [b0, b1]
  rfl

/-- An index of the array is in point `t`'s block iff each coordinate is in the block's range on its axis. -/
theorem mem_blk1 (t : Fin cfg1.N) (i : S800000x8x16.Idx) :
    i ∈ ((cfg1.win 3).blk t).view.set ↔ ∀ a : Fin 3, win1_3.index t a * S1000x8x16.size a ≤ (i a).val
      ∧ (i a).val < win1_3.index t a * S1000x8x16.size a + S1000x8x16.size a := by
  show i ∈ ((View.whole main_v13).slice (win1_3.rect t)).set ↔ _
  rw [View.set_slice_whole, Rect.mem_set_unit]
  exact Iff.rfl

/-- THE COVER: row `r` of the array is in the block of point `r / 1000`, which writes back. -/
theorem cover1 (i : S800000x8x16.Idx) :
    ∃ t : Fin cfg1.N, (cfg1.win 3).flush t = true ∧ i ∈ ((cfg1.win 3).blk t).view.set := by
  have hi0 : (i 0).val < 800000 := (i 0).isLt
  have hi1 : (i 1).val < 8 := (i 1).isLt
  have hi2 : (i 2).val < 16 := (i 2).isLt
  have hN : grid1.N = 800 := N_1
  have ht : (i 0).val / 1000 < grid1.N := by omega
  obtain ⟨-, -, -, -, -, -, -, -, -, e0, e1, e2⟩ := idx_facts1 ⟨(i 0).val / 1000, ht⟩
  refine ⟨⟨(i 0).val / 1000, ht⟩, flush1_3 _, ?_⟩
  rw [mem_blk1]
  intro a
  match a with
  | ⟨0, _⟩ =>
    show win1_3.index ⟨(i 0).val / 1000, ht⟩ (0 : Fin 3) * 1000 ≤ (i 0).val
      ∧ (i 0).val < win1_3.index ⟨(i 0).val / 1000, ht⟩ (0 : Fin 3) * 1000 + 1000
    rw [e0]
    show (i 0).val / 1000 * 1000 ≤ (i 0).val ∧ (i 0).val < (i 0).val / 1000 * 1000 + 1000
    omega
  | ⟨1, _⟩ =>
    show win1_3.index ⟨(i 0).val / 1000, ht⟩ (1 : Fin 3) * 8 ≤ (i 1).val
      ∧ (i 1).val < win1_3.index ⟨(i 0).val / 1000, ht⟩ (1 : Fin 3) * 8 + 8
    rw [e1]; omega
  | ⟨2, _⟩ =>
    show win1_3.index ⟨(i 0).val / 1000, ht⟩ (2 : Fin 3) * 16 ≤ (i 2).val
      ∧ (i 2).val < win1_3.index ⟨(i 0).val / 1000, ht⟩ (2 : Fin 3) * 16 + 16
    rw [e2]; omega

/-- THE ARRAY after the region: `G1` of the entry arrays, everywhere (the blocks tile it). -/
theorem arr1_eq (c : Dev nD) :
    (dat1 (F := Ideal) V c).arrAt 3 cfg1.N = G1 (V c main_v10) (V c main_v11) (V c main_v12) :=
  (dat1 (F := Ideal) V c).arrAt_eq_of_cover 3 (G1 (V c main_v10) (V c main_v11) (V c main_v12))
    (fun t _ => flushed1_eq V c t) cover1

/-- THE VALUE OF REGION 1, coordinate by coordinate: edge `e`'s value entry `(h, d)` scaled by the exponential of head
    `h`'s clamped, scaled score, whatever the entry contents. -/
theorem arr1_apply (c : Dev nD) (e : Fin 800000) (h : Fin 8) (d : Fin 16) :
    (dat1 (F := Ideal) V c).arrAt 3 cfg1.N (ix3 e h d)
      = Cert.Spec.edgeAt (fun e h d => V c main_v10 (ix3 e h d)) (fun e h d => V c main_v11 (ix3 e h d))
          (fun e h d => V c main_v12 (ix3 e h d)) e h d :=
  congrFun (arr1_eq V c) (ix3 e h d)

end Cert.KernelIdeal.Val

end
-- ==== Proof.KI.Val0.lean ====
/-
  The value of the first kernel region at the extended reals: after the region, entry `(r, j)` of its output array
  [50000, 384] is row `r` of the first input [50000, 128] against column `j` of the second [128, 384], plus entry `j`
  of the third's one row [1, 384] — `Cert.Spec.projAt` — whatever the arrays hold when the region starts.

  * The stored block at an index: the narrowing format changes are the identity on extended reals, the product into
    the zero accumulator is the plain sum over the 128 inner entries, the one row is read on every row.
  * Each of the ten grid points writes back rows `5000 t … 5000 t + 4999` of ONE whole-array function of the three
    inputs: the first input's block holds those same rows, the two small inputs are staged whole.
  * Row `r` lies in the block of point `r / 5000`, so the ten blocks cover the array, which therefore is that function.
-/
import proofs.«429932_j30906584662329_2_alg».proof.Proof.KI.Reg0
import proofs.«429932_j30906584662329_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)
open scoped BigOperators

/-! ## The product's operand indices, axis by axis -/

theorem lhs0_0 (i : S5000x384.Idx) (q : dot_S5000x128_S128x384_S5000x384_1_0_0_1_n_n.contr.Idx) :
    (dot_S5000x128_S128x384_S5000x384_1_0_0_1_n_n.lhsIdx i q 0).val = (i 0).val := by
  unfold DotDims.lhsIdx
  rw [dif_neg (show ¬(0 : Fin S5000x128.rank) ∈ dot_S5000x128_S128x384_S5000x384_1_0_0_1_n_n.lhsBatch by decide), dif_pos (show (0 : Fin S5000x128.rank) ∈ dot_S5000x128_S128x384_S5000x384_1_0_0_1_n_n.lhsNonContracting by decide)]
  rfl
theorem lhs0_1 (i : S5000x384.Idx) (q : dot_S5000x128_S128x384_S5000x384_1_0_0_1_n_n.contr.Idx) :
    (dot_S5000x128_S128x384_S5000x384_1_0_0_1_n_n.lhsIdx i q 1).val = (q ⟨0, by decide⟩).val :=
  dot_S5000x128_S128x384_S5000x384_1_0_0_1_n_n.lhsIdx_val_of_single rfl i q
theorem rhs0_0 (i : S5000x384.Idx) (q : dot_S5000x128_S128x384_S5000x384_1_0_0_1_n_n.contr.Idx) :
    (dot_S5000x128_S128x384_S5000x384_1_0_0_1_n_n.rhsIdx i q 0).val = (q ⟨0, by decide⟩).val :=
  dot_S5000x128_S128x384_S5000x384_1_0_0_1_n_n.rhsIdx_val_of_single rfl i q
theorem rhs0_1 (i : S5000x384.Idx) (q : dot_S5000x128_S128x384_S5000x384_1_0_0_1_n_n.contr.Idx) :
    (dot_S5000x128_S128x384_S5000x384_1_0_0_1_n_n.rhsIdx i q 1).val = (i 1).val := by
  unfold DotDims.rhsIdx
  rw [dif_neg (show ¬(1 : Fin S128x384.rank) ∈ dot_S5000x128_S128x384_S5000x384_1_0_0_1_n_n.rhsBatch by decide), dif_pos (show (1 : Fin S128x384.rank) ∈ dot_S5000x128_S128x384_S5000x384_1_0_0_1_n_n.rhsNonContracting by decide)]
  rfl

/-- The product into the zero accumulator, at row `p` and column `q`: the plain sum over the 128 inner entries. -/
theorem matmul0_apply (l : FVec Ideal S5000x128 .bf16) (r : FVec Ideal S128x384 .bf16) (p : Fin 5000) (q : Fin 384) :
    FloatOps.matmul dot_S5000x128_S128x384_S5000x384_1_0_0_1_n_n none l r (constant (F := Ideal) S5000x384 .f32 0x00000000#32) (ix2 p q)
      = ∑ k : Fin 128, l (ix2 p k) * r (ix2 k q) := by
  rw [Ideal.matmul_constant_zero_apply, ← Equiv.sum_comp (contrEquiv1 dot_S5000x128_S128x384_S5000x384_1_0_0_1_n_n 128 rfl rfl).symm]
  refine Finset.sum_congr rfl fun k _ => ?_
  have hk := contrEquiv1_symm_val dot_S5000x128_S128x384_S5000x384_1_0_0_1_n_n 128 rfl rfl k
  have el : dot_S5000x128_S128x384_S5000x384_1_0_0_1_n_n.lhsIdx (ix2 p q) ((contrEquiv1 dot_S5000x128_S128x384_S5000x384_1_0_0_1_n_n 128 rfl rfl).symm k) = ix2 p k := funext fun a => Fin.ext (by
    match a with
    | ⟨0, _⟩ => exact lhs0_0 _ _
    | ⟨1, _⟩ => exact (lhs0_1 _ _).trans hk)
  have er : dot_S5000x128_S128x384_S5000x384_1_0_0_1_n_n.rhsIdx (ix2 p q) ((contrEquiv1 dot_S5000x128_S128x384_S5000x384_1_0_0_1_n_n 128 rfl rfl).symm k) = ix2 k q := funext fun a => Fin.ext (by
    match a with
    | ⟨0, _⟩ => exact (rhs0_0 _ _).trans hk
    | ⟨1, _⟩ => exact rhs0_1 _ _)
  rw [el, er]

/-- THE PAYLOAD AT AN INDEX: entry `(p, q)` of what the body stores is row `p` of the first block against column `q`
    of the second, plus entry `q` of the third's one row. -/
theorem pay0_apply (x0 : Vec Ideal S5000x128 .f32) (x1 : Vec Ideal S128x384 .f32) (x2 : Vec Ideal S1x384 .f32)
    (p : Fin 5000) (q : Fin 384) :
    k0_pay1 (F := Ideal) x0 x1 x2 (ix2 p q) = (∑ k : Fin 128, x0 (ix2 p k) * x1 (ix2 k q)) + x2 (ix2 (0 : Fin 1) q) := by
  unfold k0_pay1
  rw [addf_apply]
  simp only [shapeCast_self]
  rw [broadcastTo_1b_ab_apply]
  congr 1
  exact matmul0_apply _ _ p q

/-! ## From the blocks to the array -/

theorem hz0 : (![0, 0] : Fin 2 → Nat) = fun _ => 0 := funext fun a => match a with | ⟨0, _⟩ => rfl | ⟨1, _⟩ => rfl

/-- The whole array the region leaves: entry `(r, j)` is row `r` of `a` against column `j` of `w`, plus `b`'s entry `j`. -/
def proj0 (a : S50000x128.Idx → EReal) (w : S128x384.Idx → EReal) (b : S1x384.Idx → EReal) : S50000x384.Idx → EReal :=
  fun i => Cert.Spec.projAt (fun r k => a (ix2 r k)) (fun k j => w (ix2 k j)) (fun j => b (ix2 (0 : Fin 1) j))
    (⟨(i 0).val, idx2_lt0 i⟩ : Fin 50000) (⟨(i 1).val, idx2_lt1 i⟩ : Fin 384)

/-- The index maps over the ten grid points: the row blocks of the first input and of the output move with the
    point, the two small inputs stay at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One stored entry against the array's formula, over plain blocks. -/
theorem point0 (x0 : Vec Ideal S5000x128 .f32) (x1 : Vec Ideal S128x384 .f32) (x2 : Vec Ideal S1x384 .f32)
    (a : S50000x128.Idx → EReal) (w : S128x384.Idx → EReal) (b : S1x384.Idx → EReal) (n : Nat)
    (h0 : ∀ (p : Fin 5000) (k : Fin 128) (r : Fin 50000), r.val = n * 5000 + p.val → x0 (ix2 p k) = a (ix2 r k))
    (h1 : ∀ (k : Fin 128) (q : Fin 384), x1 (ix2 k q) = w (ix2 k q))
    (h2 : ∀ q : Fin 384, x2 (ix2 (0 : Fin 1) q) = b (ix2 (0 : Fin 1) q))
    (y : S5000x384.Idx) (i : S50000x384.Idx) (hi0 : (i 0).val = n * 5000 + (y 0).val) (hi1 : (i 1).val = (y 1).val) :
    k0_pay1 (F := Ideal) x0 x1 x2 y = proj0 a w b i := by
  obtain ⟨p, q, rfl⟩ : ∃ (p : Fin 5000) (q : Fin 384), y = ix2 p q := ⟨y 0, y 1, eq_ix2 y⟩
  rw [pay0_apply]
  unfold proj0 Cert.Spec.projAt
  have hq : (⟨(i 1).val, idx2_lt1 i⟩ : Fin 384) = q := Fin.ext hi1
  rw [hq, h2]
  congr 1
  refine Finset.sum_congr rfl fun k _ => ?_
  rw [h0 p k ⟨(i 0).val, idx2_lt0 i⟩ hi0, h1]

variable (V : (c : Dev nD) → (b : Ref sig .tc) → Buf (Elt Ideal) ((c : Thread nD τ).loc b))

theorem flushed0_eq (c : Dev nD) (t : Fin cfg0.N) :
    (dat0 (F := Ideal) V c).flushed 3 t
      = ((cfg0.win 3).blk t).view.read (Elt Ideal) (proj0 (V c main_arg0) (V c main_v0) (V c main_v2)) := by
  show (cfg0.win 3).cut (grid0.coords t) ((dat0 V c).after 3 t) = _
  rw [after0_3]
  unfold out0_3
  rw [View.canon_unit_zero hz0]
  simp only [View.ld_unit_zero (S := S5000x128) hz0, View.ld_unit_zero (S := S128x384) hz0, View.ld_unit_zero (S := S1x384) hz0]
  funext y
  obtain ⟨e00, e01, e10, e11, e20, e21, e30, e31⟩ := idx_facts0 t
  rw [View.read_apply]
  refine point0 _ _ _ _ _ _ t.val ?_ ?_ ?_ _ _ ?_ ?_
  · intro p k r hr
    unfold iblk0
    rw [View.read_apply]
    show V c main_arg0 _ = V c main_arg0 _
    congr 1
    funext a; apply Fin.ext
    match a with
    | ⟨0, _⟩ => show win0_0.index t (0 : Fin 2) * 5000 + 1 * p.val = r.val; rw [e00, hr]; omega
    | ⟨1, _⟩ => show win0_0.index t (1 : Fin 2) * 128 + 1 * k.val = k.val; rw [e01]; omega
  · intro k q
    unfold iblk0
    rw [View.read_apply]
    show V c main_v0 _ = V c main_v0 _
    congr 1
    funext a; apply Fin.ext
    match a with
    | ⟨0, _⟩ => show win0_1.index t (0 : Fin 2) * 128 + 1 * k.val = k.val; rw [e10]; omega
    | ⟨1, _⟩ => show win0_1.index t (1 : Fin 2) * 384 + 1 * q.val = q.val; rw [e11]; omega
  · intro q
    unfold iblk0
    rw [View.read_apply]
    show V c main_v2 _ = V c main_v2 _
    congr 1
    funext a; apply Fin.ext
    match a with
    | ⟨0, _⟩ => show win0_2.index t (0 : Fin 2) * 1 + 1 * (0 : Fin 1).val = (0 : Fin 1).val; rw [e20]; rfl
    | ⟨1, _⟩ => show win0_2.index t (1 : Fin 2) * 384 + 1 * q.val = q.val; rw [e21]; omega
  · show win0_3.index t (0 : Fin 2) * 5000 + 1 * (y 0).val = t.val * 5000 + (y 0).val
    rw [e30]; omega
  · show win0_3.index t (1 : Fin 2) * 384 + 1 * (y 1).val = (y 1).val
    rw [e31]; omega

/-- An index of the array is in point `t`'s block iff each coordinate is in the block's range on its axis. -/
theorem mem_blk0 (t : Fin cfg0.N) (i : S50000x384.Idx) :
    i ∈ ((cfg0.win 3).blk t).view.set ↔ ∀ a : Fin 2, win0_3.index t a * S5000x384.size a ≤ (i a).val ∧ (i a).val < win0_3.index t a * S5000x384.size a + S5000x384.size a := by
  show i ∈ ((View.whole main_v3).slice (win0_3.rect t)).set ↔ _
  rw [View.set_slice_whole, Rect.mem_set_unit]
  exact Iff.rfl

/-- Row `r` is in the block of point `r / 5000`. -/
theorem cover0 (i : S50000x384.Idx) : ∃ t : Fin cfg0.N, (cfg0.win 3).flush t = true ∧ i ∈ ((cfg0.win 3).blk t).view.set := by
  have hi0 : (i 0).val < 50000 := (i 0).isLt
  have hi1 : (i 1).val < 384 := (i 1).isLt
  have hN : cfg0.N = 10 := N_0
  refine ⟨⟨(i 0).val / 5000, by rw [hN]; omega⟩, flush0_3 _, ?_⟩
  obtain ⟨-, -, -, -, -, -, e30, e31⟩ := idx_facts0 ⟨(i 0).val / 5000, by rw [hN]; omega⟩
  rw [mem_blk0]
  intro a
  match a with
  | ⟨0, _⟩ =>
    show win0_3.index _ (0 : Fin 2) * 5000 ≤ (i 0).val ∧ (i 0).val < win0_3.index _ (0 : Fin 2) * 5000 + 5000
    rw [e30]; show (i 0).val / 5000 * 5000 ≤ (i 0).val ∧ (i 0).val < (i 0).val / 5000 * 5000 + 5000; omega
  | ⟨1, _⟩ =>
    show win0_3.index _ (1 : Fin 2) * 384 ≤ (i 1).val ∧ (i 1).val < win0_3.index _ (1 : Fin 2) * 384 + 384
    rw [e31]; omega

/-- THE ARRAY after the region: `proj0` of the three input arrays as the region finds them. -/
theorem arr0_eq (c : Dev nD) :
    (dat0 (F := Ideal) V c).arrAt 3 cfg0.N = proj0 (V c main_arg0) (V c main_v0) (V c main_v2) :=
  (dat0 (F := Ideal) V c).arrAt_eq_of_cover 3 (proj0 (V c main_arg0) (V c main_v0) (V c main_v2)) (fun t _ => flushed0_eq V c t) cover0

/-- Entry `(r, j)` of the region's output array. -/
theorem arr0_apply (c : Dev nD) (r : Fin 50000) (j : Fin 384) :
    (dat0 (F := Ideal) V c).arrAt 3 cfg0.N (ix2 r j)
      = Cert.Spec.projAt (fun r k => V c main_arg0 (ix2 r k)) (fun k j => V c main_v0 (ix2 k j)) (fun j => V c main_v2 (ix2 0 j)) r j := by
  rw [arr0_eq]
  rfl

end Cert.KernelIdeal.Val

end
-- ==== Proof.KI.HostQKV.lean ====
import proofs.«429932_j30906584662329_2_alg».proof.Proof.KI.Run
import proofs.«429932_j30906584662329_2_alg».proof.Proof.KI.Val0
import proofs.«429932_j30906584662329_2_alg».proof.Proof.Spec
import Idealize.ShloMosaic.Lib.Pipeline.Value
import Idealize.ShloMosaic.Lib.ValueIdx
import Idealize.ShloMosaic.Lib.StableHlo.Run

/-! # The three projections after region 0

Region 0 multiplies the node features by ONE 384-column weight matrix and adds ONE 384-entry bias row: the host
stretch before it lays the three weight matrices side by side and the three bias vectors end to end, and the host
stretch after it cuts the 384-column result back into three 128-column slices, each split into 8 heads of 16. Read
entry by entry: column `128 p + jj` of the product against the concatenated weights is column `jj` of the product
against weight matrix `p`, plus entry `jj` of bias vector `p`; and entry `(n, h, d)` of a projection is column
`16 h + d` of row `n` of its slice. -/

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.TcCoe
open scoped BigOperators

/-! ## The two host stretches' results, as terms over the contents they start from -/

/-- The weight operand: the three weight matrices side by side. -/
theorem after0_v0 (X : Valuation τ sig (Elt Ideal)) :
    (StableHlo.after hostOps0 X (Proc.devRef .tc main_v0) : S128x384.Idx → EReal)
      = concatenate S128x384 1 [⟨S128x128, X (Proc.devRef .tc main_arg3)⟩, ⟨S128x128, X (Proc.devRef .tc main_arg5)⟩, ⟨S128x128, X (Proc.devRef .tc main_arg7)⟩] concatenates_S128x128_S128x128_S128x128_S128x384_d1 := by
  dsimp only [hostOps0]
  after_results
  rfl

/-- The bias operand: the three bias vectors end to end, as one row. -/
theorem after0_v2 (X : Valuation τ sig (Elt Ideal)) :
    (StableHlo.after hostOps0 X (Proc.devRef .tc main_v2) : S1x384.Idx → EReal)
      = shapeCast S1x384 (concatenate S384 0 [⟨S128, X (Proc.devRef .tc main_arg4)⟩, ⟨S128, X (Proc.devRef .tc main_arg6)⟩, ⟨S128, X (Proc.devRef .tc main_arg8)⟩] concatenates_S128_S128_S128_S384_d0) shapeCasts_S384_S1x384 := by
  dsimp only [hostOps0]
  after_results
  rfl

/-- The three projections: the column slices of the region's output, each split into heads. -/
theorem after1_v5 (X : Valuation τ sig (Elt Ideal)) :
    (StableHlo.after hostOps1 X (Proc.devRef .tc main_v5) : S50000x8x16.Idx → EReal)
      = shapeCast S50000x8x16 (extractStridedSlice S50000x128 ![0, 0] (X (Proc.devRef .tc main_v3)) slices_S50000x384_S50000x128_0_0) shapeCasts_S50000x128_S50000x8x16 := by
  dsimp only [hostOps1]
  after_results
  rfl
theorem after1_v7 (X : Valuation τ sig (Elt Ideal)) :
    (StableHlo.after hostOps1 X (Proc.devRef .tc main_v7) : S50000x8x16.Idx → EReal)
      = shapeCast S50000x8x16 (extractStridedSlice S50000x128 ![0, 128] (X (Proc.devRef .tc main_v3)) slices_S50000x384_S50000x128_0_128) shapeCasts_S50000x128_S50000x8x16 := by
  dsimp only [hostOps1]
  after_results
  rfl
theorem after1_v9 (X : Valuation τ sig (Elt Ideal)) :
    (StableHlo.after hostOps1 X (Proc.devRef .tc main_v9) : S50000x8x16.Idx → EReal)
      = shapeCast S50000x8x16 (extractStridedSlice S50000x128 ![0, 256] (X (Proc.devRef .tc main_v3)) slices_S50000x384_S50000x128_0_256) shapeCasts_S50000x128_S50000x8x16 := by
  dsimp only [hostOps1]
  after_results
  rfl

/-! ## The layout operations of the two host stretches, read at an index -/

section Layout
variable {α : Type}

/-- Column `128 p + jj` of three 128-column matrices laid side by side is column `jj` of piece `p`. -/
theorem cat3_cols_0 (x0 x1 x2 : S128x128.Idx → α) (k jj : Fin 128) :
    concatenate S128x384 1 [⟨S128x128, x0⟩, ⟨S128x128, x1⟩, ⟨S128x128, x2⟩] concatenates_S128x128_S128x128_S128x128_S128x384_d1
      (ix2 k (⟨jj.val, by omega⟩ : Fin 384)) = x0 (ix2 k jj) :=
  concatenate_apply_piece (t := S128x384) (a := (1 : Fin 2)) [⟨S128x128, x0⟩, ⟨S128x128, x1⟩, ⟨S128x128, x2⟩] concatenates_S128x128_S128x128_S128x128_S128x384_d1
    (ix2 k (⟨jj.val, by omega⟩ : Fin 384)) 0 (by show (0 : ℕ) < 3; omega) S128x128 x0 rfl rfl 0 (by rfl) (ix2 k jj)
    (fun b hb => match b with | ⟨0, _⟩ => rfl | ⟨1, _⟩ => absurd (Fin.ext rfl) hb) (by show 0 + jj.val = jj.val; omega)
theorem cat3_cols_1 (x0 x1 x2 : S128x128.Idx → α) (k jj : Fin 128) :
    concatenate S128x384 1 [⟨S128x128, x0⟩, ⟨S128x128, x1⟩, ⟨S128x128, x2⟩] concatenates_S128x128_S128x128_S128x128_S128x384_d1
      (ix2 k (⟨128 + jj.val, by omega⟩ : Fin 384)) = x1 (ix2 k jj) :=
  concatenate_apply_piece (t := S128x384) (a := (1 : Fin 2)) [⟨S128x128, x0⟩, ⟨S128x128, x1⟩, ⟨S128x128, x2⟩] concatenates_S128x128_S128x128_S128x128_S128x384_d1
    (ix2 k (⟨128 + jj.val, by omega⟩ : Fin 384)) 1 (by show (1 : ℕ) < 3; omega) S128x128 x1 rfl rfl 128 (by rfl) (ix2 k jj)
    (fun b hb => match b with | ⟨0, _⟩ => rfl | ⟨1, _⟩ => absurd (Fin.ext rfl) hb) (by show 128 + jj.val = 128 + jj.val; omega)
theorem cat3_cols_2 (x0 x1 x2 : S128x128.Idx → α) (k jj : Fin 128) :
    concatenate S128x384 1 [⟨S128x128, x0⟩, ⟨S128x128, x1⟩, ⟨S128x128, x2⟩] concatenates_S128x128_S128x128_S128x128_S128x384_d1
      (ix2 k (⟨256 + jj.val, by omega⟩ : Fin 384)) = x2 (ix2 k jj) :=
  concatenate_apply_piece (t := S128x384) (a := (1 : Fin 2)) [⟨S128x128, x0⟩, ⟨S128x128, x1⟩, ⟨S128x128, x2⟩] concatenates_S128x128_S128x128_S128x128_S128x384_d1
    (ix2 k (⟨256 + jj.val, by omega⟩ : Fin 384)) 2 (by show (2 : ℕ) < 3; omega) S128x128 x2 rfl rfl 256 (by rfl) (ix2 k jj)
    (fun b hb => match b with | ⟨0, _⟩ => rfl | ⟨1, _⟩ => absurd (Fin.ext rfl) hb) (by show 256 + jj.val = 256 + jj.val; omega)

/-- Entry `128 p + jj` of three 128-vectors laid end to end is entry `jj` of piece `p`. -/
theorem cat3_vec_0 (x0 x1 x2 : S128.Idx → α) (jj : Fin 128) :
    concatenate S384 0 [⟨S128, x0⟩, ⟨S128, x1⟩, ⟨S128, x2⟩] concatenates_S128_S128_S128_S384_d0
      (ix1 (⟨jj.val, by omega⟩ : Fin 384)) = x0 (ix1 jj) :=
  concatenate_apply_piece (t := S384) (a := (0 : Fin 1)) [⟨S128, x0⟩, ⟨S128, x1⟩, ⟨S128, x2⟩] concatenates_S128_S128_S128_S384_d0
    (ix1 (⟨jj.val, by omega⟩ : Fin 384)) 0 (by show (0 : ℕ) < 3; omega) S128 x0 rfl rfl 0 (by rfl) (ix1 jj)
    (fun b hb => match b with | ⟨0, _⟩ => absurd (Fin.ext rfl) hb) (by show 0 + jj.val = jj.val; omega)
theorem cat3_vec_1 (x0 x1 x2 : S128.Idx → α) (jj : Fin 128) :
    concatenate S384 0 [⟨S128, x0⟩, ⟨S128, x1⟩, ⟨S128, x2⟩] concatenates_S128_S128_S128_S384_d0
      (ix1 (⟨128 + jj.val, by omega⟩ : Fin 384)) = x1 (ix1 jj) :=
  concatenate_apply_piece (t := S384) (a := (0 : Fin 1)) [⟨S128, x0⟩, ⟨S128, x1⟩, ⟨S128, x2⟩] concatenates_S128_S128_S128_S384_d0
    (ix1 (⟨128 + jj.val, by omega⟩ : Fin 384)) 1 (by show (1 : ℕ) < 3; omega) S128 x1 rfl rfl 128 (by rfl) (ix1 jj)
    (fun b hb => match b with | ⟨0, _⟩ => absurd (Fin.ext rfl) hb) (by show 128 + jj.val = 128 + jj.val; omega)
theorem cat3_vec_2 (x0 x1 x2 : S128.Idx → α) (jj : Fin 128) :
    concatenate S384 0 [⟨S128, x0⟩, ⟨S128, x1⟩, ⟨S128, x2⟩] concatenates_S128_S128_S128_S384_d0
      (ix1 (⟨256 + jj.val, by omega⟩ : Fin 384)) = x2 (ix1 jj) :=
  concatenate_apply_piece (t := S384) (a := (0 : Fin 1)) [⟨S128, x0⟩, ⟨S128, x1⟩, ⟨S128, x2⟩] concatenates_S128_S128_S128_S384_d0
    (ix1 (⟨256 + jj.val, by omega⟩ : Fin 384)) 2 (by show (2 : ℕ) < 3; omega) S128 x2 rfl rfl 256 (by rfl) (ix1 jj)
    (fun b hb => match b with | ⟨0, _⟩ => absurd (Fin.ext rfl) hb) (by show 256 + jj.val = 256 + jj.val; omega)

/-- A 384-vector reshaped to one row reads, in column `j`, its entry `j`. -/
theorem row_of_vec (v : S384.Idx → α) (j : Fin 384) :
    shapeCast S1x384 v shapeCasts_S384_S1x384 (ix2 (0 : Fin 1) j) = v (ix1 j) :=
  shapeCast_apply v shapeCasts_S384_S1x384 (ix2 (0 : Fin 1) j) (ix1 j)
    (by rw [Shape.rowMajor_val_one, Shape.rowMajor_val_two]
        show j.val = 0 * 384 + j.val
        omega)

/-- A 128-column row split into 8 heads of 16 reads, at `(n, h, d)`, column `16 h + d` of row `n`. -/
theorem heads_of_row (v : S50000x128.Idx → α) (n : Fin 50000) (h : Fin 8) (d : Fin 16) :
    shapeCast S50000x8x16 v shapeCasts_S50000x128_S50000x8x16 (ix3 n h d)
      = v (ix2 n (⟨16 * h.val + d.val, by omega⟩ : Fin 128)) :=
  shapeCast_apply v shapeCasts_S50000x128_S50000x8x16 (ix3 n h d) (ix2 n (⟨16 * h.val + d.val, by omega⟩ : Fin 128))
    (by rw [Shape.rowMajor_val_two, Shape.rowMajor_val_three]
        show n.val * 128 + (16 * h.val + d.val) = (n.val * 8 + h.val) * 16 + d.val
        omega)

/-- The three 128-column slices of a 384-column matrix read, at `(n, jj)`, column `off + jj`. -/
theorem slice_cols_0 (x : S50000x384.Idx → α) (n : Fin 50000) (jj : Fin 128) :
    extractStridedSlice S50000x128 ![0, 0] x slices_S50000x384_S50000x128_0_0 (ix2 n jj)
      = x (ix2 n (⟨jj.val, by omega⟩ : Fin 384)) :=
  extractStridedSlice_apply ![0, 0] x slices_S50000x384_S50000x128_0_0 (ix2 n jj) (ix2 n (⟨jj.val, by omega⟩ : Fin 384))
    (fun a => match a with
      | ⟨0, _⟩ => by show n.val = 0 + n.val; omega
      | ⟨1, _⟩ => by show jj.val = 0 + jj.val; omega)
theorem slice_cols_1 (x : S50000x384.Idx → α) (n : Fin 50000) (jj : Fin 128) :
    extractStridedSlice S50000x128 ![0, 128] x slices_S50000x384_S50000x128_0_128 (ix2 n jj)
      = x (ix2 n (⟨128 + jj.val, by omega⟩ : Fin 384)) :=
  extractStridedSlice_apply ![0, 128] x slices_S50000x384_S50000x128_0_128 (ix2 n jj) (ix2 n (⟨128 + jj.val, by omega⟩ : Fin 384))
    (fun a => match a with
      | ⟨0, _⟩ => by show n.val = 0 + n.val; omega
      | ⟨1, _⟩ => by show 128 + jj.val = 128 + jj.val; omega)
theorem slice_cols_2 (x : S50000x384.Idx → α) (n : Fin 50000) (jj : Fin 128) :
    extractStridedSlice S50000x128 ![0, 256] x slices_S50000x384_S50000x128_0_256 (ix2 n jj)
      = x (ix2 n (⟨256 + jj.val, by omega⟩ : Fin 384)) :=
  extractStridedSlice_apply ![0, 256] x slices_S50000x384_S50000x128_0_256 (ix2 n jj) (ix2 n (⟨256 + jj.val, by omega⟩ : Fin 384))
    (fun a => match a with
      | ⟨0, _⟩ => by show n.val = 0 + n.val; omega
      | ⟨1, _⟩ => by show 256 + jj.val = 256 + jj.val; omega)

end Layout

/-! ## Region 0's operands as it finds them -/

variable (m : (ℓ : Loc nD τ sig) → Buf (Elt Ideal) ℓ) (ρ : Dev nD → PrngReg)

/-- The node features: no host operation writes them. -/
theorem Ve0_arg0 (c : Dev nD) : Ve0 m ρ c main_arg0 = m ((c : Thread nD τ).loc main_arg0) :=
  W1_of m ρ c main_arg0 (by decide)

/-- Column block 0 of the weight operand is the q-weight matrix, -/
theorem Ve0_v0_q (c : Dev nD) (k jj : Fin 128) :
    Ve0 m ρ c main_v0 (ix2 k (⟨jj.val, by omega⟩ : Fin 384)) = m ((c : Thread nD τ).loc main_arg3) (ix2 k jj) :=
  (congrFun (after0_v0 (W0 m ρ c)) _).trans (cat3_cols_0 _ _ _ k jj)
/-- and block 0 of the bias row is the q-bias vector. -/
theorem Ve0_v2_q (c : Dev nD) (jj : Fin 128) :
    Ve0 m ρ c main_v2 (ix2 (0 : Fin 1) (⟨jj.val, by omega⟩ : Fin 384)) = m ((c : Thread nD τ).loc main_arg4) (ix1 jj) :=
  (congrFun (after0_v2 (W0 m ρ c)) _).trans ((row_of_vec _ _).trans (cat3_vec_0 _ _ _ jj))

/-- Column block 1 of the weight operand is the k-weight matrix, -/
theorem Ve0_v0_k (c : Dev nD) (k jj : Fin 128) :
    Ve0 m ρ c main_v0 (ix2 k (⟨128 + jj.val, by omega⟩ : Fin 384)) = m ((c : Thread nD τ).loc main_arg5) (ix2 k jj) :=
  (congrFun (after0_v0 (W0 m ρ c)) _).trans (cat3_cols_1 _ _ _ k jj)
/-- and block 1 of the bias row is the k-bias vector. -/
theorem Ve0_v2_k (c : Dev nD) (jj : Fin 128) :
    Ve0 m ρ c main_v2 (ix2 (0 : Fin 1) (⟨128 + jj.val, by omega⟩ : Fin 384)) = m ((c : Thread nD τ).loc main_arg6) (ix1 jj) :=
  (congrFun (after0_v2 (W0 m ρ c)) _).trans ((row_of_vec _ _).trans (cat3_vec_1 _ _ _ jj))

/-- Column block 2 of the weight operand is the v-weight matrix, -/
theorem Ve0_v0_v (c : Dev nD) (k jj : Fin 128) :
    Ve0 m ρ c main_v0 (ix2 k (⟨256 + jj.val, by omega⟩ : Fin 384)) = m ((c : Thread nD τ).loc main_arg7) (ix2 k jj) :=
  (congrFun (after0_v0 (W0 m ρ c)) _).trans (cat3_cols_2 _ _ _ k jj)
/-- and block 2 of the bias row is the v-bias vector. -/
theorem Ve0_v2_v (c : Dev nD) (jj : Fin 128) :
    Ve0 m ρ c main_v2 (ix2 (0 : Fin 1) (⟨256 + jj.val, by omega⟩ : Fin 384)) = m ((c : Thread nD τ).loc main_arg8) (ix1 jj) :=
  (congrFun (after0_v2 (W0 m ρ c)) _).trans ((row_of_vec _ _).trans (cat3_vec_2 _ _ _ jj))

/-! ## The three projections, entry by entry -/

/-- Column `0 + jj` of region 0's output is entry `jj` of the q-projection. -/
theorem out0_q (c : Dev nD) (n : Fin 50000) (jj : Fin 128) :
    W2 m ρ c (Proc.devRef .tc main_v3) (ix2 n (⟨jj.val, by omega⟩ : Fin 384))
      = Cert.Spec.projAt (fun n k => m ((c : Thread nD τ).loc main_arg0) (ix2 n k)) (fun k j => m ((c : Thread nD τ).loc main_arg3) (ix2 k j)) (fun j => m ((c : Thread nD τ).loc main_arg4) (ix1 j)) n jj := by
  refine (congrFun (W2_arr m ρ c 3) _).trans ?_
  refine (arr0_apply (Ve0 m ρ) c n _).trans ?_
  unfold Cert.Spec.projAt
  refine congrArg₂ (· + ·) (Finset.sum_congr rfl fun k _ => ?_) (Ve0_v2_q m ρ c jj)
  exact congrArg₂ (· * ·) (congrFun (Ve0_arg0 m ρ c) _) (Ve0_v0_q m ρ c k jj)

/-- The q-projection as the program holds it after the host stretch that follows region 0. -/
theorem kq_apply (c : Dev nD) (n : Fin 50000) (h : Fin 8) (d : Fin 16) :
    W3 m ρ c (Proc.devRef .tc main_v5) (ix3 n h d)
      = Cert.Spec.projAt (fun n k => m ((c : Thread nD τ).loc main_arg0) (ix2 n k)) (fun k j => m ((c : Thread nD τ).loc main_arg3) (ix2 k j)) (fun j => m ((c : Thread nD τ).loc main_arg4) (ix1 j)) n (⟨16 * h.val + d.val, by omega⟩ : Fin 128) := by
  refine (congrFun (after1_v5 (W2 m ρ c)) _).trans ?_
  refine (heads_of_row _ n h d).trans ?_
  refine (slice_cols_0 _ n _).trans ?_
  exact out0_q m ρ c n _

/-- Column `128 + jj` of region 0's output is entry `jj` of the k-projection. -/
theorem out0_k (c : Dev nD) (n : Fin 50000) (jj : Fin 128) :
    W2 m ρ c (Proc.devRef .tc main_v3) (ix2 n (⟨128 + jj.val, by omega⟩ : Fin 384))
      = Cert.Spec.projAt (fun n k => m ((c : Thread nD τ).loc main_arg0) (ix2 n k)) (fun k j => m ((c : Thread nD τ).loc main_arg5) (ix2 k j)) (fun j => m ((c : Thread nD τ).loc main_arg6) (ix1 j)) n jj := by
  refine (congrFun (W2_arr m ρ c 3) _).trans ?_
  refine (arr0_apply (Ve0 m ρ) c n _).trans ?_
  unfold Cert.Spec.projAt
  refine congrArg₂ (· + ·) (Finset.sum_congr rfl fun k _ => ?_) (Ve0_v2_k m ρ c jj)
  exact congrArg₂ (· * ·) (congrFun (Ve0_arg0 m ρ c) _) (Ve0_v0_k m ρ c k jj)

/-- The k-projection as the program holds it after the host stretch that follows region 0. -/
theorem kk_apply (c : Dev nD) (n : Fin 50000) (h : Fin 8) (d : Fin 16) :
    W3 m ρ c (Proc.devRef .tc main_v7) (ix3 n h d)
      = Cert.Spec.projAt (fun n k => m ((c : Thread nD τ).loc main_arg0) (ix2 n k)) (fun k j => m ((c : Thread nD τ).loc main_arg5) (ix2 k j)) (fun j => m ((c : Thread nD τ).loc main_arg6) (ix1 j)) n (⟨16 * h.val + d.val, by omega⟩ : Fin 128) := by
  refine (congrFun (after1_v7 (W2 m ρ c)) _).trans ?_
  refine (heads_of_row _ n h d).trans ?_
  refine (slice_cols_1 _ n _).trans ?_
  exact out0_k m ρ c n _

/-- Column `256 + jj` of region 0's output is entry `jj` of the v-projection. -/
theorem out0_v (c : Dev nD) (n : Fin 50000) (jj : Fin 128) :
    W2 m ρ c (Proc.devRef .tc main_v3) (ix2 n (⟨256 + jj.val, by omega⟩ : Fin 384))
      = Cert.Spec.projAt (fun n k => m ((c : Thread nD τ).loc main_arg0) (ix2 n k)) (fun k j => m ((c : Thread nD τ).loc main_arg7) (ix2 k j)) (fun j => m ((c : Thread nD τ).loc main_arg8) (ix1 j)) n jj := by
  refine (congrFun (W2_arr m ρ c 3) _).trans ?_
  refine (arr0_apply (Ve0 m ρ) c n _).trans ?_
  unfold Cert.Spec.projAt
  refine congrArg₂ (· + ·) (Finset.sum_congr rfl fun k _ => ?_) (Ve0_v2_v m ρ c jj)
  exact congrArg₂ (· * ·) (congrFun (Ve0_arg0 m ρ c) _) (Ve0_v0_v m ρ c k jj)

/-- The v-projection as the program holds it after the host stretch that follows region 0. -/
theorem kv_apply (c : Dev nD) (n : Fin 50000) (h : Fin 8) (d : Fin 16) :
    W3 m ρ c (Proc.devRef .tc main_v9) (ix3 n h d)
      = Cert.Spec.projAt (fun n k => m ((c : Thread nD τ).loc main_arg0) (ix2 n k)) (fun k j => m ((c : Thread nD τ).loc main_arg7) (ix2 k j)) (fun j => m ((c : Thread nD τ).loc main_arg8) (ix1 j)) n (⟨16 * h.val + d.val, by omega⟩ : Fin 128) := by
  refine (congrFun (after1_v9 (W2 m ρ c)) _).trans ?_
  refine (heads_of_row _ n h d).trans ?_
  refine (slice_cols_2 _ n _).trans ?_
  exact out0_v m ρ c n _

end Cert.KernelIdeal.Val

end
-- ==== Proof.KI.Val2Pay.lean ====
/-
  The third kernel's arithmetic read coordinate by coordinate on the extended reals: each named value of the body at
  row r and column k of a block is the specification's formula of the blocks' rows.

  * a row sum over the 128 columns, kept as a one-column block, divided by the literal 128, is the mean of the row;
  * the first normalisation h1 (row r, column k) is normAt of the row of x + wV with g1, b1;
  * its row mean, the second variance and the broadcast second mean are meanOf of that row and of its squared
    deviations;
  * the stored value is h1 plus the rectified projection of the second normalisation by Wo plus bo.
-/
import proofs.«429932_j30906584662329_2_alg».proof.Proof.Gen.KernelIdeal.Skeleton
import proofs.«429932_j30906584662329_2_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Val

open Cert.KernelIdeal Cert.KernelIdeal.Gen Idealize.ShloMosaic Idealize.ShloMosaic.ValueIdx
open scoped BigOperators

/-! ## The layout operations of the body at an index -/

/-- A sum over the columns of a [5000,128] block, at row r, is the sum over k of the block at (r, k). -/
theorem rowSum_apply (src : FVec Ideal S5000x128 .f32) (r : Fin 5000) :
    multiReduction (F := Ideal) .add [1] S5000 src 0x00000000#32 reduces_S5000x128_S5000 (.inl rfl) rfl (ix1 r)
      = ∑ k : Fin 128, src (ix2 r k) := by
  refine (Ideal.multiReduction_add_single src 0x00000000#32 reduces_S5000x128_S5000 (.inl rfl) rfl (ix1 r)).trans ?_
  refine Finset.sum_congr rfl fun k _ => congrArg src ?_
  funext a
  match a with
  | ⟨0, _⟩ => rfl
  | ⟨1, _⟩ => rfl

/-- A [5000] vector kept as a one-column [5000,1] block reads, at (r, u), the vector at r. -/
theorem keepCol_apply {α : Type} (v : S5000.Idx → α) (r : Fin 5000) (u : Fin 1) :
    shapeCast S5000x1 v shapeCasts_S5000_S5000x1 (ix2 r u) = v (ix1 r) :=
  shapeCast_apply v shapeCasts_S5000_S5000x1 (ix2 r u) (ix1 r) (by
    rw [Shape.rowMajor_val_one, Shape.rowMajor_val_two]
    show r.val = r.val * 1 + u.val
    omega)

/-- A one-column [5000,1] block broadcast over the 128 columns reads, at (r, k), the column at row r. -/
theorem bcastCol_apply {α : Type} (v : S5000x1.Idx → α) (r : Fin 5000) (k : Fin 128) :
    broadcastTo S5000x128 v broadcasts_S5000x1_S5000x128 (ix2 r k) = v (ix2 r (0 : Fin 1)) :=
  broadcastTo_apply v broadcasts_S5000x1_S5000x128 (ix2 r k) (ix2 r (0 : Fin 1)) fun a =>
    match a with
    | ⟨0, _⟩ => by show r.val = if (5000 : Nat) = 1 then 0 else r.val; rw [if_neg (by decide)]
    | ⟨1, _⟩ => by show 0 = if (1 : Nat) = 1 then 0 else k.val; rw [if_pos rfl]

/-- A one-row [1,128] block broadcast over the 5000 rows reads, at (r, k), the row at column k. -/
theorem bcastRow_apply {α : Type} (v : S1x128.Idx → α) (r : Fin 5000) (k : Fin 128) :
    broadcastTo S5000x128 v broadcasts_S1x128_S5000x128 (ix2 r k) = v (ix2 (0 : Fin 1) k) :=
  broadcastTo_1b_ab_apply v broadcasts_S1x128_S5000x128 r k

/-- The mean of a row as the body takes it: the row sum, kept as a column, divided by the literal 128. -/
theorem rowMean_apply (src : FVec Ideal S5000x128 .f32) (r : Fin 5000) (u : Fin 1) :
    divf (shapeCast S5000x1 (multiReduction (F := Ideal) .add [1] S5000 src 0x00000000#32 reduces_S5000x128_S5000 (.inl rfl) rfl) shapeCasts_S5000_S5000x1)
        (broadcast S5000x1 (Scalar.ofBits .f32 0x43000000#32)) (ix2 r u)
      = Spec.meanOf (fun k : Fin 128 => src (ix2 r k)) := by
  show Ideal.div (shapeCast S5000x1 (multiReduction (F := Ideal) .add [1] S5000 src 0x00000000#32 reduces_S5000x128_S5000 (.inl rfl) rfl) shapeCasts_S5000_S5000x1 (ix2 r u)) Spec.c128 = _
  rw [keepCol_apply, rowSum_apply]
  rfl

/-! ## The named values of the body at an index -/

/-- One normalisation of a block as the body spells it: centred by the broadcast row mean, scaled by the broadcast
    reciprocal square root of the row variance plus ε, scaled by the row g and shifted by the row b. -/
theorem norm_apply (h : FVec Ideal S5000x128 .f32) (mu : FVec Ideal S5000x128 .f32) (var : FVec Ideal S5000x1 .f32)
    (g b : FVec Ideal S1x128 .f32) (r : Fin 5000) (k : Fin 128) :
    addf (mulf (mulf (subf h mu)
        (broadcastTo S5000x128 (rsqrt (addf var (broadcast S5000x1 (Scalar.ofBits .f32 0x3727C5AC#32)))) broadcasts_S5000x1_S5000x128))
        (broadcastTo S5000x128 g broadcasts_S1x128_S5000x128)) (broadcastTo S5000x128 b broadcasts_S1x128_S5000x128) (ix2 r k)
      = (h (ix2 r k) - mu (ix2 r k)) * Ideal.rsqrt (var (ix2 r (0 : Fin 1)) + Spec.cEps) * g (ix2 (0 : Fin 1) k) + b (ix2 (0 : Fin 1) k) := by
  show (h (ix2 r k) - mu (ix2 r k))
      * broadcastTo S5000x128 (rsqrt (addf var (broadcast S5000x1 (Scalar.ofBits .f32 0x3727C5AC#32)))) broadcasts_S5000x1_S5000x128 (ix2 r k)
      * broadcastTo S5000x128 g broadcasts_S1x128_S5000x128 (ix2 r k) + broadcastTo S5000x128 b broadcasts_S1x128_S5000x128 (ix2 r k) = _
  rw [bcastCol_apply, bcastRow_apply, bcastRow_apply]
  rfl

/-- The mean of the squared deviations of a row from a column broadcast over it. -/
theorem rowDev_apply (h : FVec Ideal S5000x128 .f32) (mu : FVec Ideal S5000x1 .f32) (r : Fin 5000) (u : Fin 1) :
    divf (shapeCast S5000x1 (multiReduction (F := Ideal) .add [1] S5000
          (mulf (subf h (broadcastTo S5000x128 mu broadcasts_S5000x1_S5000x128)) (subf h (broadcastTo S5000x128 mu broadcasts_S5000x1_S5000x128)))
          0x00000000#32 reduces_S5000x128_S5000 (.inl rfl) rfl) shapeCasts_S5000_S5000x1)
        (broadcast S5000x1 (Scalar.ofBits .f32 0x43000000#32)) (ix2 r u)
      = Spec.meanOf (fun k : Fin 128 => (h (ix2 r k) - mu (ix2 r (0 : Fin 1))) * (h (ix2 r k) - mu (ix2 r (0 : Fin 1)))) := by
  refine (rowMean_apply _ r u).trans (congrArg Spec.meanOf (funext fun k => ?_))
  show (h (ix2 r k) - broadcastTo S5000x128 mu broadcasts_S5000x1_S5000x128 (ix2 r k))
      * (h (ix2 r k) - broadcastTo S5000x128 mu broadcasts_S5000x1_S5000x128 (ix2 r k)) = _
  rw [bcastCol_apply]

/-- Row r of x + wV, the input of the first normalisation. -/
abbrev rowIn (v0 v1 : Vec Ideal S5000x128 .f32) (r : Fin 5000) : Fin 128 → EReal := fun k' => v0 (ix2 r k') + v1 (ix2 r k')
/-- The one row of a [1,128] block. -/
abbrev rowOf (v : Vec Ideal S1x128 .f32) : Fin 128 → EReal := fun k' => v (ix2 (0 : Fin 1) k')

/-- The first normalisation h1 at row r, column k: normAt of the row of x + wV with g1, b1. -/
theorem k2_pay2_apply (v0 v1 : Vec Ideal S5000x128 .f32) (v22 v26 : Vec Ideal S1x128 .f32) (r : Fin 5000) (k : Fin 128) :
    k2_pay2 (F := Ideal) v0 v1 v22 v26 (ix2 r k) = Spec.normAt (rowIn v0 v1 r) (rowOf v22) (rowOf v26) k := by
  unfold k2_pay2
  simp only [shapeCast_self]
  refine (norm_apply _ _ _ _ _ r k).trans ?_
  rw [bcastCol_apply, rowDev_apply, rowMean_apply]
  rfl

/-- The mean of row r of h1, kept as a column. -/
theorem k2_pay3_apply (v0 v1 : Vec Ideal S5000x128 .f32) (v22 v26 : Vec Ideal S1x128 .f32) (r : Fin 5000) (u : Fin 1) :
    k2_pay3 (F := Ideal) v0 v1 v22 v26 (ix2 r u) = Spec.meanOf (Spec.normAt (rowIn v0 v1 r) (rowOf v22) (rowOf v26)) := by
  unfold k2_pay3
  refine (rowMean_apply _ r u).trans ?_
  simp only [k2_pay2_apply]

/-- That mean broadcast over the columns. -/
theorem k2_pay5_apply (v0 v1 : Vec Ideal S5000x128 .f32) (v22 v26 : Vec Ideal S1x128 .f32) (r : Fin 5000) (k : Fin 128) :
    k2_pay5 (F := Ideal) v0 v1 v22 v26 (ix2 r k) = Spec.meanOf (Spec.normAt (rowIn v0 v1 r) (rowOf v22) (rowOf v26)) := by
  unfold k2_pay5
  refine (bcastCol_apply _ r k).trans ?_
  exact k2_pay3_apply v0 v1 v22 v26 r 0

/-- The variance of row r of h1: the mean of the squared deviations from its mean. -/
theorem k2_pay4_apply (v0 v1 : Vec Ideal S5000x128 .f32) (v22 v26 : Vec Ideal S1x128 .f32) (r : Fin 5000) (u : Fin 1) :
    k2_pay4 (F := Ideal) v0 v1 v22 v26 (ix2 r u)
      = Spec.meanOf (fun k' : Fin 128 =>
          (Spec.normAt (rowIn v0 v1 r) (rowOf v22) (rowOf v26) k' - Spec.meanOf (Spec.normAt (rowIn v0 v1 r) (rowOf v22) (rowOf v26)))
            * (Spec.normAt (rowIn v0 v1 r) (rowOf v22) (rowOf v26) k' - Spec.meanOf (Spec.normAt (rowIn v0 v1 r) (rowOf v22) (rowOf v26)))) := by
  unfold k2_pay4
  refine (rowMean_apply _ r u).trans ?_
  simp only [mulf_apply, subf_apply, bcastCol_apply, k2_pay2_apply, k2_pay3_apply]

/-! ## The projection by Wo -/

theorem lhs_wo_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_wo_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_wo_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_wo_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product into the zero block, at (r, j): the sum over k of the left operand at (r, k) times the right
    at (k, j). -/
theorem matmulWo_apply (l : FVec Ideal S5000x128 .bf16) (w : FVec Ideal S128x128 .bf16) (r : Fin 5000) (j : Fin 128) :
    matmul dot_S5000x128_S128x128_S5000x128_1_0_0_1_n_n none l w (constant (F := Ideal) S5000x128 .f32 0x00000000#32) (ix2 r j)
      = ∑ k : Fin 128, l (ix2 r k) * w (ix2 k j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j) ((contrEquiv1 dot_S5000x128_S128x128_S5000x128_1_0_0_1_n_n 128 rfl rfl).symm k) = ix2 r k := funext fun a => Fin.ext (by
    match a with
    | ⟨0, _⟩ => exact lhs_wo_0 _ _
    | ⟨1, _⟩ => exact (lhs_wo_1 _ _).trans hk)
  have er : dot_S5000x128_S128x128_S5000x128_1_0_0_1_n_n.rhsIdx (ix2 r j) ((contrEquiv1 dot_S5000x128_S128x128_S5000x128_1_0_0_1_n_n 128 rfl rfl).symm k) = ix2 k j := funext fun a => Fin.ext (by
    match a with
    | ⟨0, _⟩ => exact (rhs_wo_0 _ _).trans hk
    | ⟨1, _⟩ => exact rhs_wo_1 _ _)
  rw [el, er]

/-- The residual sum of a block and a rectified, biased block, at (r, j). -/
theorem tail_apply (h mm : FVec Ideal S5000x128 .f32) (bo : FVec Ideal S1x128 .f32) (r : Fin 5000) (j : Fin 128) :
    addf h (maximumf (addf mm (broadcastTo S5000x128 bo broadcasts_S1x128_S5000x128))
        (broadcast S5000x128 (Scalar.ofBits .f32 0x00000000#32))) (ix2 r j)
      = h (ix2 r j) + max (mm (ix2 r j) + bo (ix2 (0 : Fin 1) j)) Spec.cZero := by
  show h (ix2 r j) + max (mm (ix2 r j) + broadcastTo S5000x128 bo broadcasts_S1x128_S5000x128 (ix2 r j)) Spec.cZero = _
  rw [bcastRow_apply]

/-- The stored value at (r, j), over the first 60 statements' results as variables: h1 plus the rectified
    projection of the second normalisation. -/
theorem k2_pay1_apply (v29 : FVec Ideal S5000x128 .f32) (v40 : FVec Ideal S5000x1 .f32) (v41 : FVec Ideal S5000x128 .f32)
    (v48 v52 : Vec Ideal S1x128 .f32) (v57 : Vec Ideal S128x128 .f32) (v60 : Vec Ideal S1x128 .f32) (r : Fin 5000) (j : Fin 128) :
    k2_pay1 (F := Ideal) v29 v40 v41 v48 v52 v57 v60 (ix2 r j)
      = v29 (ix2 r j) + max ((∑ k : Fin 128,
          ((v29 (ix2 r k) - v41 (ix2 r k)) * Ideal.rsqrt (v40 (ix2 r (0 : Fin 1)) + Spec.cEps) * v48 (ix2 (0 : Fin 1) k) + v52 (ix2 (0 : Fin 1) k))
            * v57 (ix2 k j)) + v60 (ix2 (0 : Fin 1) j)) Spec.cZero := by
  unfold k2_pay1
  simp only [shapeCast_self]
  refine (tail_apply _ _ _ r j).trans ?_
  rw [matmulWo_apply]
  simp only [truncf_apply, norm_apply]

/-- The stored value at (r, j) from the eight blocks — x and wV, then g1, b1, g2, b2, then Wo and bo —: the node
    update's formula at row r of the blocks. -/
theorem pay2_at (x0 x1 : Vec Ideal S5000x128 .f32) (x2 x3 x4 x5 x7 : Vec Ideal S1x128 .f32) (x6 : Vec Ideal S128x128 .f32)
    (r : Fin 5000) (j : Fin 128) :
    k2_pay1 (F := Ideal) (k2_pay2 x0 x1 x2 x3) (k2_pay4 x0 x1 x2 x3) (k2_pay5 x0 x1 x2 x3) x4 x5 x6 x7 (ix2 r j)
      = Cert.Spec.ffnAt (fun r k => x0 (ix2 r k)) (fun r k => x1 (ix2 r k)) (fun k => x2 (ix2 0 k)) (fun k => x3 (ix2 0 k))
          (fun k => x4 (ix2 0 k)) (fun k => x5 (ix2 0 k)) (fun k => x7 (ix2 0 k)) (fun k j => x6 (ix2 k j)) r j := by
  rw [k2_pay1_apply]
  simp only [k2_pay2_apply, k2_pay4_apply, k2_pay5_apply]
  rfl

end Cert.KernelIdeal.Val

end
-- ==== Proof.KI.Val2.lean ====
/-
  The value of the third kernel region at the extended reals: after the region, entry `(n, j)` of its output array
  [50000, 128] is the node update `Cert.Spec.ffnAt` of row `n` of the first two inputs [50000, 128] (their sum
  normalised twice over its 128 entries, the second normalisation projected, biased, clipped below at zero and added
  to the first), with the four scale / shift rows, the projection matrix and its bias row as the region finds them.

  * The update at row `n` depends on the two large inputs through their row `n` only.
  * Each of the ten grid points writes back rows `5000 t … 5000 t + 4999` of ONE whole-array function of the eight
    inputs: the two large inputs' blocks hold those same rows, the six small inputs are staged whole.
  * Row `n` lies in the block of point `n / 5000`, so the ten blocks cover the array, which therefore is that function.
-/
import proofs.«429932_j30906584662329_2_alg».proof.Proof.KI.Reg2
import proofs.«429932_j30906584662329_2_alg».proof.Proof.KI.Val2Pay
import proofs.«429932_j30906584662329_2_alg».proof.Proof.Spec
import Idealize.ShloMosaic.Lib.Pipeline.Value
import Idealize.ShloMosaic.Lib.ValueIdx
import Idealize.ShloMosaic.Lib.ValueLayout

noncomputable section

namespace Cert.KernelIdeal.Val

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)
open scoped BigOperators

/-! ## The node update depends on one row of its two large arguments -/

/-- The node update at row `n` of one pair of arrays and at row `n'` of another, of any heights, agree when the two rows
    agree entry by entry, the small arguments agree entry by entry, and the columns are the same. -/
theorem ffnAt_congr2 {N N' K : Nat} (x wv : Fin N → Fin K → EReal) (x' wv' : Fin N' → Fin K → EReal)
    (g1 b1 g2 b2 bo g1' b1' g2' b2' bo' : Fin K → EReal) (wo wo' : Fin K → Fin K → EReal) (n : Fin N) (n' : Fin N') (j j' : Fin K)
    (hx : ∀ k, x n k = x' n' k) (hw : ∀ k, wv n k = wv' n' k)
    (hg1 : ∀ k, g1 k = g1' k) (hb1 : ∀ k, b1 k = b1' k) (hg2 : ∀ k, g2 k = g2' k) (hb2 : ∀ k, b2 k = b2' k)
    (hbo : ∀ k, bo k = bo' k) (hwo : ∀ k q, wo k q = wo' k q) (hj : j = j') :
    Cert.Spec.ffnAt x wv g1 b1 g2 b2 bo wo n j = Cert.Spec.ffnAt x' wv' g1' b1' g2' b2' bo' wo' n' j' := by
  obtain rfl : g1 = g1' := funext hg1
  obtain rfl : b1 = b1' := funext hb1
  obtain rfl : g2 = g2' := funext hg2
  obtain rfl : b2 = b2' := funext hb2
  obtain rfl : bo = bo' := funext hbo
  obtain rfl : wo = wo' := funext fun k => funext (hwo k)
  subst hj
  have hrow : (fun k => x n k + wv n k) = (fun k => x' n' k + wv' n' k) := funext fun k => by rw [hx, hw]
  unfold Cert.Spec.ffnAt
  rw [hrow]

/-! ## From the blocks to the array -/

theorem zero_off2 : (![0, 0] : Fin 2 → Nat) = fun _ => 0 := funext fun a => match a with | ⟨0, _⟩ => rfl | ⟨1, _⟩ => rfl

/-- The whole array the region leaves: entry `(n, j)` is the node update of row `n` of `a0` and `a1` at column `j`. -/
def ffnArr2 (a0 a1 : S50000x128.Idx → EReal) (g1 b1 g2 b2 : S1x128.Idx → EReal) (wo : S128x128.Idx → EReal) (bo : S1x128.Idx → EReal) :
    S50000x128.Idx → EReal :=
  fun i => Cert.Spec.ffnAt (fun r k => a0 (ix2 r k)) (fun r k => a1 (ix2 r k)) (fun k => g1 (ix2 (0 : Fin 1) k))
    (fun k => b1 (ix2 (0 : Fin 1) k)) (fun k => g2 (ix2 (0 : Fin 1) k)) (fun k => b2 (ix2 (0 : Fin 1) k))
    (fun k => bo (ix2 (0 : Fin 1) k)) (fun k j => wo (ix2 k j))
    (⟨(i 0).val, idx2_lt0 i⟩ : Fin 50000) (⟨(i 1).val, idx2_lt1 i⟩ : Fin 128)

/-- The index maps over the ten grid points: the row blocks of the two large inputs and of the output move with the
    point, the six small inputs stay at block (0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

/-- One stored entry against the array's formula, over plain blocks. -/
theorem point2 (x0 x1 : Vec Ideal S5000x128 .f32) (x2 x3 x4 x5 : Vec Ideal S1x128 .f32) (x6 : Vec Ideal S128x128 .f32)
    (x7 : Vec Ideal S1x128 .f32)
    (a0 a1 : S50000x128.Idx → EReal) (g1 b1 g2 b2 : S1x128.Idx → EReal) (wo : S128x128.Idx → EReal) (bo : S1x128.Idx → EReal)
    (n : Nat)
    (h0 : ∀ (p : Fin 5000) (k : Fin 128) (r : Fin 50000), r.val = n * 5000 + p.val → x0 (ix2 p k) = a0 (ix2 r k))
    (h1 : ∀ (p : Fin 5000) (k : Fin 128) (r : Fin 50000), r.val = n * 5000 + p.val → x1 (ix2 p k) = a1 (ix2 r k))
    (h2 : ∀ k : Fin 128, x2 (ix2 (0 : Fin 1) k) = g1 (ix2 (0 : Fin 1) k))
    (h3 : ∀ k : Fin 128, x3 (ix2 (0 : Fin 1) k) = b1 (ix2 (0 : Fin 1) k))
    (h4 : ∀ k : Fin 128, x4 (ix2 (0 : Fin 1) k) = g2 (ix2 (0 : Fin 1) k))
    (h5 : ∀ k : Fin 128, x5 (ix2 (0 : Fin 1) k) = b2 (ix2 (0 : Fin 1) k))
    (h6 : ∀ (k q : Fin 128), x6 (ix2 k q) = wo (ix2 k q))
    (h7 : ∀ k : Fin 128, x7 (ix2 (0 : Fin 1) k) = bo (ix2 (0 : Fin 1) k))
    (y : S5000x128.Idx) (i : S50000x128.Idx) (hi0 : (i 0).val = n * 5000 + (y 0).val) (hi1 : (i 1).val = (y 1).val) :
    k2_pay1 (F := Ideal) (k2_pay2 x0 x1 x2 x3) (k2_pay4 x0 x1 x2 x3) (k2_pay5 x0 x1 x2 x3) x4 x5 x6 x7 y
      = ffnArr2 a0 a1 g1 b1 g2 b2 wo bo i := by
  obtain ⟨p, q, rfl⟩ : ∃ (p : Fin 5000) (q : Fin 128), y = ix2 p q := ⟨y 0, y 1, eq_ix2 y⟩
  refine (pay2_at x0 x1 x2 x3 x4 x5 x7 x6 p q).trans ?_
  unfold ffnArr2
  exact ffnAt_congr2 _ _ _ _ _ _ _ _ _ _ _ _ _ _ _ _ p (⟨(i 0).val, idx2_lt0 i⟩ : Fin 50000) q (⟨(i 1).val, idx2_lt1 i⟩ : Fin 128)
    (fun k => h0 p k ⟨(i 0).val, idx2_lt0 i⟩ hi0) (fun k => h1 p k ⟨(i 0).val, idx2_lt0 i⟩ hi0)
    h2 h3 h4 h5 h7 h6 (Fin.ext hi1.symm)

variable (V : (c : Dev nD) → (b : Ref sig .tc) → Buf (Elt Ideal) ((c : Thread nD τ).loc b))

/-! ### Each input window's block, read where the point puts it -/

/-- Input 0's block at point `t` holds rows `5000 t … 5000 t + 4999` of its array. -/
theorem blk2_0 (c : Dev nD) (t : Fin cfg2.N) (p : Fin 5000) (k : Fin 128) (r : Fin 50000) (hr : r.val = t.val * 5000 + p.val) :
    (iblk2 V c 0 t : Vec Ideal S5000x128 .f32) (ix2 p k) = V c main_arg0 (ix2 r k) := by
  obtain ⟨e0, e1, -, -, -, -, -, -, -, -, -, -, -, -, -, -, -, -⟩ := idx_facts2 t
  unfold iblk2
  rw [View.read_apply]
  show V c main_arg0 _ = V c main_arg0 _
  congr 1
  funext a; apply Fin.ext
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- Input 1's block at point `t` holds rows `5000 t … 5000 t + 4999` of its array. -/
theorem blk2_1 (c : Dev nD) (t : Fin cfg2.N) (p : Fin 5000) (k : Fin 128) (r : Fin 50000) (hr : r.val = t.val * 5000 + p.val) :
    (iblk2 V c 1 t : Vec Ideal S5000x128 .f32) (ix2 p k) = V c main_v17 (ix2 r k) := by
  obtain ⟨-, -, e0, e1, -, -, -, -, -, -, -, -, -, -, -, -, -, -⟩ := idx_facts2 t
  unfold iblk2
  rw [View.read_apply]
  show V c main_v17 _ = V c main_v17 _
  congr 1
  funext a; apply Fin.ext
  match a with
  | ⟨0, _⟩ => show win2_1.index t (0 : Fin 2) * 5000 + 1 * p.val = r.val; rw [e0, hr]; omega
  | ⟨1, _⟩ => show win2_1.index t (1 : Fin 2) * 128 + 1 * k.val = k.val; rw [e1]; omega

/-- Input 2's one row is staged whole at every point. -/
theorem blk2_2 (c : Dev nD) (t : Fin cfg2.N) (k : Fin 128) :
    (iblk2 V c 2 t : Vec Ideal S1x128 .f32) (ix2 (0 : Fin 1) k) = V c main_v18 (ix2 (0 : Fin 1) k) := by
  obtain ⟨-, -, -, -, e0, e1, -, -, -, -, -, -, -, -, -, -, -, -⟩ := idx_facts2 t
  unfold iblk2
  rw [View.read_apply]
  show V c main_v18 _ = V c main_v18 _
  congr 1
  funext a; apply Fin.ext
  match a with
  | ⟨0, _⟩ => show win2_2.index t (0 : Fin 2) * 1 + 1 * (0 : Fin 1).val = (0 : Fin 1).val; rw [e0]; rfl
  | ⟨1, _⟩ => show win2_2.index t (1 : Fin 2) * 128 + 1 * k.val = k.val; rw [e1]; omega

/-- Input 3's one row is staged whole at every point. -/
theorem blk2_3 (c : Dev nD) (t : Fin cfg2.N) (k : Fin 128) :
    (iblk2 V c 3 t : Vec Ideal S1x128 .f32) (ix2 (0 : Fin 1) k) = V c main_v19 (ix2 (0 : Fin 1) k) := by
  obtain ⟨-, -, -, -, -, -, e0, e1, -, -, -, -, -, -, -, -, -, -⟩ := idx_facts2 t
  unfold iblk2
  rw [View.read_apply]
  show V c main_v19 _ = V c main_v19 _
  congr 1
  funext a; apply Fin.ext
  match a with
  | ⟨0, _⟩ => show win2_3.index t (0 : Fin 2) * 1 + 1 * (0 : Fin 1).val = (0 : Fin 1).val; rw [e0]; rfl
  | ⟨1, _⟩ => show win2_3.index t (1 : Fin 2) * 128 + 1 * k.val = k.val; rw [e1]; omega

/-- Input 4's one row is staged whole at every point. -/
theorem blk2_4 (c : Dev nD) (t : Fin cfg2.N) (k : Fin 128) :
    (iblk2 V c 4 t : Vec Ideal S1x128 .f32) (ix2 (0 : Fin 1) k) = V c main_v20 (ix2 (0 : Fin 1) k) := by
  obtain ⟨-, -, -, -, -, -, -, -, e0, e1, -, -, -, -, -, -, -, -⟩ := idx_facts2 t
  unfold iblk2
  rw [View.read_apply]
  show V c main_v20 _ = V c main_v20 _
  congr 1
  funext a; apply Fin.ext
  match a with
  | ⟨0, _⟩ => show win2_4.index t (0 : Fin 2) * 1 + 1 * (0 : Fin 1).val = (0 : Fin 1).val; rw [e0]; rfl
  | ⟨1, _⟩ => show win2_4.index t (1 : Fin 2) * 128 + 1 * k.val = k.val; rw [e1]; omega

/-- Input 5's one row is staged whole at every point. -/
theorem blk2_5 (c : Dev nD) (t : Fin cfg2.N) (k : Fin 128) :
    (iblk2 V c 5 t : Vec Ideal S1x128 .f32) (ix2 (0 : Fin 1) k) = V c main_v21 (ix2 (0 : Fin 1) k) := by
  obtain ⟨-, -, -, -, -, -, -, -, -, -, e0, e1, -, -, -, -, -, -⟩ := idx_facts2 t
  unfold iblk2
  rw [View.read_apply]
  show V c main_v21 _ = V c main_v21 _
  congr 1
  funext a; apply Fin.ext
  match a with
  | ⟨0, _⟩ => show win2_5.index t (0 : Fin 2) * 1 + 1 * (0 : Fin 1).val = (0 : Fin 1).val; rw [e0]; rfl
  | ⟨1, _⟩ => show win2_5.index t (1 : Fin 2) * 128 + 1 * k.val = k.val; rw [e1]; omega

/-- Input 7's one row is staged whole at every point. -/
theorem blk2_7 (c : Dev nD) (t : Fin cfg2.N) (k : Fin 128) :
    (iblk2 V c 7 t : Vec Ideal S1x128 .f32) (ix2 (0 : Fin 1) k) = V c main_v22 (ix2 (0 : Fin 1) k) := by
  obtain ⟨-, -, -, -, -, -, -, -, -, -, -, -, -, -, e0, e1, -, -⟩ := idx_facts2 t
  unfold iblk2
  rw [View.read_apply]
  show V c main_v22 _ = V c main_v22 _
  congr 1
  funext a; apply Fin.ext
  match a with
  | ⟨0, _⟩ => show win2_7.index t (0 : Fin 2) * 1 + 1 * (0 : Fin 1).val = (0 : Fin 1).val; rw [e0]; rfl
  | ⟨1, _⟩ => show win2_7.index t (1 : Fin 2) * 128 + 1 * k.val = k.val; rw [e1]; omega

/-- Input 6, the square matrix, is staged whole at every point. -/
theorem blk2_6 (c : Dev nD) (t : Fin cfg2.N) (k q : Fin 128) :
    (iblk2 V c 6 t : Vec Ideal S128x128 .f32) (ix2 k q) = V c main_arg9 (ix2 k q) := by
  obtain ⟨-, -, -, -, -, -, -, -, -, -, -, -, e0, e1, -, -, -, -⟩ := idx_facts2 t
  unfold iblk2
  rw [View.read_apply]
  show V c main_arg9 _ = V c main_arg9 _
  congr 1
  funext a; apply Fin.ext
  match a with
  | ⟨0, _⟩ => show win2_6.index t (0 : Fin 2) * 128 + 1 * k.val = k.val; rw [e0]; omega
  | ⟨1, _⟩ => show win2_6.index t (1 : Fin 2) * 128 + 1 * q.val = q.val; rw [e1]; omega

/-- WHAT POINT `t` WRITES BACK is block `t` of `ffnArr2` of the eight input arrays as the region finds them. -/
theorem flushed2_eq (c : Dev nD) (t : Fin cfg2.N) :
    (dat2 (F := Ideal) V c).flushed 8 t
      = ((cfg2.win 8).blk t).view.read (Elt Ideal)
          (ffnArr2 (V c main_arg0) (V c main_v17) (V c main_v18) (V c main_v19) (V c main_v20) (V c main_v21) (V c main_arg9) (V c main_v22)) := by
  show (cfg2.win 8).cut (grid2.coords t) ((dat2 V c).after 8 t) = _
  rw [after2_8]
  unfold out2_8
  rw [View.canon_unit_zero zero_off2]
  simp only [View.ld_unit_zero (S := S5000x128) zero_off2, View.ld_unit_zero (S := S1x128) zero_off2, View.ld_unit_zero (S := S128x128) zero_off2]
  funext y
  obtain ⟨-, -, -, -, -, -, -, -, -, -, -, -, -, -, -, -, e0, e1⟩ := idx_facts2 t
  rw [View.read_apply]
  refine point2 _ _ _ _ _ _ _ _ _ _ _ _ _ _ _ _ t.val (blk2_0 V c t) (blk2_1 V c t) (blk2_2 V c t) (blk2_3 V c t) (blk2_4 V c t)
    (blk2_5 V c t) (blk2_6 V c t) (blk2_7 V c t) _ _ ?_ ?_
  · show win2_8.index t (0 : Fin 2) * 5000 + 1 * (y 0).val = t.val * 5000 + (y 0).val
    rw [e0]; omega
  · show win2_8.index t (1 : Fin 2) * 128 + 1 * (y 1).val = (y 1).val
    rw [e1]; omega

/-- An index of the array is in point `t`'s block iff each coordinate is in the block's range on its axis. -/
theorem mem_blk2 (t : Fin cfg2.N) (i : S50000x128.Idx) :
    i ∈ ((cfg2.win 8).blk t).view.set ↔ ∀ a : Fin 2, win2_8.index t a * S5000x128.size a ≤ (i a).val ∧ (i a).val < win2_8.index t a * S5000x128.size a + S5000x128.size a := by
  show i ∈ ((View.whole main_v23).slice (win2_8.rect t)).set ↔ _
  rw [View.set_slice_whole, Rect.mem_set_unit]
  exact Iff.rfl

/-- Row `n` is in the block of point `n / 5000`. -/
theorem cover2 (i : S50000x128.Idx) : ∃ t : Fin cfg2.N, (cfg2.win 8).flush t = true ∧ i ∈ ((cfg2.win 8).blk t).view.set := by
  have hi0 : (i 0).val < 50000 := (i 0).isLt
  have hi1 : (i 1).val < 128 := (i 1).isLt
  have hN : cfg2.N = 10 := N_2
  refine ⟨⟨(i 0).val / 5000, by rw [hN]; omega⟩, flush2_8 _, ?_⟩
  obtain ⟨-, -, -, -, -, -, -, -, -, -, -, -, -, -, -, -, e80, e81⟩ := idx_facts2 ⟨(i 0).val / 5000, by rw [hN]; omega⟩
  rw [mem_blk2]
  intro a
  match a with
  | ⟨0, _⟩ =>
    show win2_8.index _ (0 : Fin 2) * 5000 ≤ (i 0).val ∧ (i 0).val < win2_8.index _ (0 : Fin 2) * 5000 + 5000
    rw [e80]; show (i 0).val / 5000 * 5000 ≤ (i 0).val ∧ (i 0).val < (i 0).val / 5000 * 5000 + 5000; omega
  | ⟨1, _⟩ =>
    show win2_8.index _ (1 : Fin 2) * 128 ≤ (i 1).val ∧ (i 1).val < win2_8.index _ (1 : Fin 2) * 128 + 128
    rw [e81]; omega

/-- THE ARRAY after the region: `ffnArr2` of the eight input arrays as the region finds them. -/
theorem arr2_eq (c : Dev nD) :
    (dat2 (F := Ideal) V c).arrAt 8 cfg2.N
      = ffnArr2 (V c main_arg0) (V c main_v17) (V c main_v18) (V c main_v19) (V c main_v20) (V c main_v21) (V c main_arg9) (V c main_v22) :=
  (dat2 (F := Ideal) V c).arrAt_eq_of_cover 8
    (ffnArr2 (V c main_arg0) (V c main_v17) (V c main_v18) (V c main_v19) (V c main_v20) (V c main_v21) (V c main_arg9) (V c main_v22))
    (fun t _ => flushed2_eq V c t) cover2

/-- Entry `(n, j)` of the region's output array. -/
theorem arr2_apply (c : Dev nD) (n : Fin 50000) (j : Fin 128) :
    (dat2 (F := Ideal) V c).arrAt 8 cfg2.N (ix2 n j)
      = Cert.Spec.ffnAt (fun n k => V c main_arg0 (ix2 n k)) (fun n k => V c main_v17 (ix2 n k)) (fun k => V c main_v18 (ix2 0 k))
          (fun k => V c main_v19 (ix2 0 k)) (fun k => V c main_v20 (ix2 0 k)) (fun k => V c main_v21 (ix2 0 k))
          (fun k => V c main_v22 (ix2 0 k)) (fun k j => V c main_arg9 (ix2 k j)) n j := by
  rw [arr2_eq]
  rfl

end Cert.KernelIdeal.Val

end
-- ==== Proof.KI.HostFFN.lean ====
import proofs.«429932_j30906584662329_2_alg».proof.Proof.KI.Run
import proofs.«429932_j30906584662329_2_alg».proof.Proof.KI.Val2
import proofs.«429932_j30906584662329_2_alg».proof.Proof.Spec
import Idealize.ShloMosaic.Lib.StableHlo.Run
import Idealize.ShloMosaic.Lib.ValueIdx
import Idealize.ShloMosaic.Lib.Pipeline.Value
import Idealize.ShloMosaic.PureOps.Ideal

/-! # The program's result, entry by entry, from the arguments and the edge kernel's output

The last host stretch scatter-adds the edge kernel's output (read as 800000 rows of 128) into 50000 zero rows at
the edges' destination indices, and reshapes five argument vectors of 128 entries to one row each. The node-update
kernel then reads the node features, that scatter, the five rows and the output weight matrix. So every entry of
the program's result is the node update's formula at: the node features and the output weights as launched, the
scatter, and the five argument vectors entry for entry (entry `(0, k)` of a one-row reshape is entry `k`). No
stretch and no kernel writes an argument, so each is read as launched. -/

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.TcCoe

/-! ## A one-row reshape read at an entry -/

/-- A vector of `n` entries cast to one row, read at `(0, k)`, is entry `k`. -/
theorem shapeCast_oneRow_apply {α : Type} {n : Nat} (hsc : (⟨1, ![n]⟩ : Shape).ShapeCasts (⟨2, ![1, n]⟩ : Shape))
    (z : (⟨1, ![n]⟩ : Shape).Idx → α) (k : Fin n) :
    shapeCast (⟨2, ![1, n]⟩ : Shape) z hsc (ix2 (0 : Fin 1) k) = z (ix1 k) :=
  (shapeCast_addUnit_apply ![n] z hsc (ix2 (0 : Fin 1) k)).trans
    (congrArg z (funext fun a => by fin_cases a; rfl))

/-! ## What the last host stretch leaves, over any contents before it -/

/-- At the scatter's result: zero rows, the destination indices (`a2`, what the stretch finds at the index
    argument) as a column, the edge rows scatter-added. -/
theorem host2_main_v17 (V : Valuation τ sig (Elt Ideal)) (a2 : (⟨S800000, .i32⟩ : BufTy).Contents (Elt Ideal))
    (h2 : V (Proc.devRef .tc main_arg2) = a2) :
    StableHlo.after (hostOps2 (F := Ideal)) V (Proc.devRef .tc main_v17)
      = Host.scatterAdd (F := Ideal) scatter_S50000x128_S800000x1_S800000x128_1_0_0_1
          (broadcastInDim S50000x128 ![] bcast_S_S50000x128 (constant (F := Ideal) S_ .f32 0x00000000#32))
          (broadcastInDim S800000x1 ![0] bcast_S800000_S800000x1_0 a2)
          (shapeCast S800000x128 (V (Proc.devRef .tc main_v13)) shapeCasts_S800000x8x16_S800000x128) := by
  subst h2
  after_results
  rfl
/-- At each of the five one-row reshapes: the argument vector cast to one row. -/
theorem host2_main_v18 (V : Valuation τ sig (Elt Ideal)) :
    StableHlo.after (hostOps2 (F := Ideal)) V (Proc.devRef .tc main_v18) = shapeCast S1x128 (V (Proc.devRef .tc main_arg11)) shapeCasts_S128_S1x128 := by
  after_results
  rfl
theorem host2_main_v19 (V : Valuation τ sig (Elt Ideal)) :
    StableHlo.after (hostOps2 (F := Ideal)) V (Proc.devRef .tc main_v19) = shapeCast S1x128 (V (Proc.devRef .tc main_arg12)) shapeCasts_S128_S1x128 := by
  after_results
  rfl
theorem host2_main_v20 (V : Valuation τ sig (Elt Ideal)) :
    StableHlo.after (hostOps2 (F := Ideal)) V (Proc.devRef .tc main_v20) = shapeCast S1x128 (V (Proc.devRef .tc main_arg13)) shapeCasts_S128_S1x128 := by
  after_results
  rfl
theorem host2_main_v21 (V : Valuation τ sig (Elt Ideal)) :
    StableHlo.after (hostOps2 (F := Ideal)) V (Proc.devRef .tc main_v21) = shapeCast S1x128 (V (Proc.devRef .tc main_arg14)) shapeCasts_S128_S1x128 := by
  after_results
  rfl
theorem host2_main_v22 (V : Valuation τ sig (Elt Ideal)) :
    StableHlo.after (hostOps2 (F := Ideal)) V (Proc.devRef .tc main_v22) = shapeCast S1x128 (V (Proc.devRef .tc main_arg10)) shapeCasts_S128_S1x128 := by
  after_results
  rfl

variable (m : (ℓ : Loc nD τ sig) → Buf (Elt Ideal) ℓ) (ρ : Dev nD → PrngReg) (c : Dev nD)

/-! ## The arguments as the last stretch and the last kernel find them: as launched -/

theorem w8_main_arg0 : W8 m ρ c (Proc.devRef .tc main_arg0) = m ((c : Thread nD τ).loc main_arg0) :=
  calc W8 m ρ c (Proc.devRef .tc main_arg0)
    _ = W9 m ρ c (Proc.devRef .tc main_arg0) := (W9_in m ρ c 0 rfl).symm
    _ = m ((c : Thread nD τ).loc main_arg0) := W9_main_arg0 m ρ c
theorem w8_main_arg9 : W8 m ρ c (Proc.devRef .tc main_arg9) = m ((c : Thread nD τ).loc main_arg9) :=
  calc W8 m ρ c (Proc.devRef .tc main_arg9)
    _ = W9 m ρ c (Proc.devRef .tc main_arg9) := (W9_in m ρ c 6 rfl).symm
    _ = m ((c : Thread nD τ).loc main_arg9) := W9_main_arg9 m ρ c
theorem w8_main_arg10 : W8 m ρ c (Proc.devRef .tc main_arg10) = m ((c : Thread nD τ).loc main_arg10) :=
  calc W8 m ρ c (Proc.devRef .tc main_arg10)
    _ = W9 m ρ c (Proc.devRef .tc main_arg10) := (W9_of_ne m ρ c main_arg10 (by decide)).symm
    _ = m ((c : Thread nD τ).loc main_arg10) := W9_main_arg10 m ρ c
theorem w8_main_arg11 : W8 m ρ c (Proc.devRef .tc main_arg11) = m ((c : Thread nD τ).loc main_arg11) :=
  calc W8 m ρ c (Proc.devRef .tc main_arg11)
    _ = W9 m ρ c (Proc.devRef .tc main_arg11) := (W9_of_ne m ρ c main_arg11 (by decide)).symm
    _ = m ((c : Thread nD τ).loc main_arg11) := W9_main_arg11 m ρ c
theorem w8_main_arg12 : W8 m ρ c (Proc.devRef .tc main_arg12) = m ((c : Thread nD τ).loc main_arg12) :=
  calc W8 m ρ c (Proc.devRef .tc main_arg12)
    _ = W9 m ρ c (Proc.devRef .tc main_arg12) := (W9_of_ne m ρ c main_arg12 (by decide)).symm
    _ = m ((c : Thread nD τ).loc main_arg12) := W9_main_arg12 m ρ c
theorem w8_main_arg13 : W8 m ρ c (Proc.devRef .tc main_arg13) = m ((c : Thread nD τ).loc main_arg13) :=
  calc W8 m ρ c (Proc.devRef .tc main_arg13)
    _ = W9 m ρ c (Proc.devRef .tc main_arg13) := (W9_of_ne m ρ c main_arg13 (by decide)).symm
    _ = m ((c : Thread nD τ).loc main_arg13) := W9_main_arg13 m ρ c
theorem w8_main_arg14 : W8 m ρ c (Proc.devRef .tc main_arg14) = m ((c : Thread nD τ).loc main_arg14) :=
  calc W8 m ρ c (Proc.devRef .tc main_arg14)
    _ = W9 m ρ c (Proc.devRef .tc main_arg14) := (W9_of_ne m ρ c main_arg14 (by decide)).symm
    _ = m ((c : Thread nD τ).loc main_arg14) := W9_main_arg14 m ρ c
theorem w8_main_arg2 : W8 m ρ c (Proc.devRef .tc main_arg2) = m ((c : Thread nD τ).loc main_arg2) :=
  calc W8 m ρ c (Proc.devRef .tc main_arg2)
    _ = W9 m ρ c (Proc.devRef .tc main_arg2) := (W9_of_ne m ρ c main_arg2 (by decide)).symm
    _ = m ((c : Thread nD τ).loc main_arg2) := W9_main_arg2 m ρ c
theorem w7_main_arg2 : W7 m ρ c (Proc.devRef .tc main_arg2) = m ((c : Thread nD τ).loc main_arg2) :=
  (W8_of m ρ c main_arg2 (by decide)).symm.trans (w8_main_arg2 m ρ c)
theorem w7_main_arg10 : W7 m ρ c (Proc.devRef .tc main_arg10) = m ((c : Thread nD τ).loc main_arg10) :=
  (W8_of m ρ c main_arg10 (by decide)).symm.trans (w8_main_arg10 m ρ c)
theorem w7_main_arg11 : W7 m ρ c (Proc.devRef .tc main_arg11) = m ((c : Thread nD τ).loc main_arg11) :=
  (W8_of m ρ c main_arg11 (by decide)).symm.trans (w8_main_arg11 m ρ c)
theorem w7_main_arg12 : W7 m ρ c (Proc.devRef .tc main_arg12) = m ((c : Thread nD τ).loc main_arg12) :=
  (W8_of m ρ c main_arg12 (by decide)).symm.trans (w8_main_arg12 m ρ c)
theorem w7_main_arg13 : W7 m ρ c (Proc.devRef .tc main_arg13) = m ((c : Thread nD τ).loc main_arg13) :=
  (W8_of m ρ c main_arg13 (by decide)).symm.trans (w8_main_arg13 m ρ c)
theorem w7_main_arg14 : W7 m ρ c (Proc.devRef .tc main_arg14) = m ((c : Thread nD τ).loc main_arg14) :=
  (W8_of m ρ c main_arg14 (by decide)).symm.trans (w8_main_arg14 m ρ c)

/-! ## The last kernel's operands that the last stretch wrote -/

/-- The scatter, in terms of the destination indices as launched and the edge kernel's output. -/
theorem w8_v17 : W8 m ρ c (Proc.devRef .tc main_v17)
    = Host.scatterAdd (F := Ideal) scatter_S50000x128_S800000x1_S800000x128_1_0_0_1
        (broadcastInDim S50000x128 ![] bcast_S_S50000x128 (constant (F := Ideal) S_ .f32 0x00000000#32))
        (broadcastInDim S800000x1 ![0] bcast_S800000_S800000x1_0 (m ((c : Thread nD τ).loc main_arg2)))
        (shapeCast S800000x128 (W7 m ρ c (Proc.devRef .tc main_v13)) shapeCasts_S800000x8x16_S800000x128) :=
  host2_main_v17 (W7 m ρ c) _ (w7_main_arg2 m ρ c)

/-- The five rows: each an argument vector cast to one row, so entry `(0, k)` is the argument's entry `k`. -/
theorem w8_main_v18 : W8 m ρ c (Proc.devRef .tc main_v18) = shapeCast S1x128 (m ((c : Thread nD τ).loc main_arg11)) shapeCasts_S128_S1x128 :=
  (host2_main_v18 (W7 m ρ c)).trans (congrArg (fun z => shapeCast S1x128 z shapeCasts_S128_S1x128) (w7_main_arg11 m ρ c))
theorem w8_main_v18_apply (k : Fin 128) : W8 m ρ c (Proc.devRef .tc main_v18) (ix2 (0 : Fin 1) k) = m ((c : Thread nD τ).loc main_arg11) (ix1 k) :=
  (congrFun (w8_main_v18 m ρ c) (ix2 (0 : Fin 1) k)).trans (shapeCast_oneRow_apply shapeCasts_S128_S1x128 _ k)
theorem w8_main_v19 : W8 m ρ c (Proc.devRef .tc main_v19) = shapeCast S1x128 (m ((c : Thread nD τ).loc main_arg12)) shapeCasts_S128_S1x128 :=
  (host2_main_v19 (W7 m ρ c)).trans (congrArg (fun z => shapeCast S1x128 z shapeCasts_S128_S1x128) (w7_main_arg12 m ρ c))
theorem w8_main_v19_apply (k : Fin 128) : W8 m ρ c (Proc.devRef .tc main_v19) (ix2 (0 : Fin 1) k) = m ((c : Thread nD τ).loc main_arg12) (ix1 k) :=
  (congrFun (w8_main_v19 m ρ c) (ix2 (0 : Fin 1) k)).trans (shapeCast_oneRow_apply shapeCasts_S128_S1x128 _ k)
theorem w8_main_v20 : W8 m ρ c (Proc.devRef .tc main_v20) = shapeCast S1x128 (m ((c : Thread nD τ).loc main_arg13)) shapeCasts_S128_S1x128 :=
  (host2_main_v20 (W7 m ρ c)).trans (congrArg (fun z => shapeCast S1x128 z shapeCasts_S128_S1x128) (w7_main_arg13 m ρ c))
theorem w8_main_v20_apply (k : Fin 128) : W8 m ρ c (Proc.devRef .tc main_v20) (ix2 (0 : Fin 1) k) = m ((c : Thread nD τ).loc main_arg13) (ix1 k) :=
  (congrFun (w8_main_v20 m ρ c) (ix2 (0 : Fin 1) k)).trans (shapeCast_oneRow_apply shapeCasts_S128_S1x128 _ k)
theorem w8_main_v21 : W8 m ρ c (Proc.devRef .tc main_v21) = shapeCast S1x128 (m ((c : Thread nD τ).loc main_arg14)) shapeCasts_S128_S1x128 :=
  (host2_main_v21 (W7 m ρ c)).trans (congrArg (fun z => shapeCast S1x128 z shapeCasts_S128_S1x128) (w7_main_arg14 m ρ c))
theorem w8_main_v21_apply (k : Fin 128) : W8 m ρ c (Proc.devRef .tc main_v21) (ix2 (0 : Fin 1) k) = m ((c : Thread nD τ).loc main_arg14) (ix1 k) :=
  (congrFun (w8_main_v21 m ρ c) (ix2 (0 : Fin 1) k)).trans (shapeCast_oneRow_apply shapeCasts_S128_S1x128 _ k)
theorem w8_main_v22 : W8 m ρ c (Proc.devRef .tc main_v22) = shapeCast S1x128 (m ((c : Thread nD τ).loc main_arg10)) shapeCasts_S128_S1x128 :=
  (host2_main_v22 (W7 m ρ c)).trans (congrArg (fun z => shapeCast S1x128 z shapeCasts_S128_S1x128) (w7_main_arg10 m ρ c))
theorem w8_main_v22_apply (k : Fin 128) : W8 m ρ c (Proc.devRef .tc main_v22) (ix2 (0 : Fin 1) k) = m ((c : Thread nD τ).loc main_arg10) (ix1 k) :=
  (congrFun (w8_main_v22 m ρ c) (ix2 (0 : Fin 1) k)).trans (shapeCast_oneRow_apply shapeCasts_S128_S1x128 _ k)

/-! ## The result -/

/-- Every entry of the program's result is the node update's formula at the node features, the scatter, the five
    argument vectors and the output weights. -/
theorem out_apply (n : Fin 50000) (j : Fin 128) :
    W9 m ρ c (Proc.devRef .tc main_v23) (ix2 n j)
      = Cert.Spec.ffnAt (fun n k => m ((c : Thread nD τ).loc main_arg0) (ix2 n k)) (fun n k => W8 m ρ c (Proc.devRef .tc main_v17) (ix2 n k))
        (fun k => m ((c : Thread nD τ).loc main_arg11) (ix1 k)) (fun k => m ((c : Thread nD τ).loc main_arg12) (ix1 k)) (fun k => m ((c : Thread nD τ).loc main_arg13) (ix1 k))
        (fun k => m ((c : Thread nD τ).loc main_arg14) (ix1 k)) (fun k => m ((c : Thread nD τ).loc main_arg10) (ix1 k)) (fun k j => m ((c : Thread nD τ).loc main_arg9) (ix2 k j)) n j := by
  refine (congrFun (W9_arr m ρ c 8) (ix2 n j)).trans ((arr2_apply (Ve2 m ρ) c n j).trans ?_)
  show Cert.Spec.ffnAt (fun n k => W8 m ρ c (Proc.devRef .tc main_arg0) (ix2 n k)) (fun n k => W8 m ρ c (Proc.devRef .tc main_v17) (ix2 n k))
      (fun k => W8 m ρ c (Proc.devRef .tc main_v18) (ix2 (0 : Fin 1) k)) (fun k => W8 m ρ c (Proc.devRef .tc main_v19) (ix2 (0 : Fin 1) k))
      (fun k => W8 m ρ c (Proc.devRef .tc main_v20) (ix2 (0 : Fin 1) k)) (fun k => W8 m ρ c (Proc.devRef .tc main_v21) (ix2 (0 : Fin 1) k))
      (fun k => W8 m ρ c (Proc.devRef .tc main_v22) (ix2 (0 : Fin 1) k)) (fun k j => W8 m ρ c (Proc.devRef .tc main_arg9) (ix2 k j)) n j = _
  have e0 := w8_main_arg0 m ρ c
  have e9 := w8_main_arg9 m ρ c
  have r_main_v18 : (fun k : Fin 128 => W8 m ρ c (Proc.devRef .tc main_v18) (ix2 (0 : Fin 1) k)) = fun k => m ((c : Thread nD τ).loc main_arg11) (ix1 k) :=
    funext fun k => w8_main_v18_apply m ρ c k
  have r_main_v19 : (fun k : Fin 128 => W8 m ρ c (Proc.devRef .tc main_v19) (ix2 (0 : Fin 1) k)) = fun k => m ((c : Thread nD τ).loc main_arg12) (ix1 k) :=
    funext fun k => w8_main_v19_apply m ρ c k
  have r_main_v20 : (fun k : Fin 128 => W8 m ρ c (Proc.devRef .tc main_v20) (ix2 (0 : Fin 1) k)) = fun k => m ((c : Thread nD τ).loc main_arg13) (ix1 k) :=
    funext fun k => w8_main_v20_apply m ρ c k
  have r_main_v21 : (fun k : Fin 128 => W8 m ρ c (Proc.devRef .tc main_v21) (ix2 (0 : Fin 1) k)) = fun k => m ((c : Thread nD τ).loc main_arg14) (ix1 k) :=
    funext fun k => w8_main_v21_apply m ρ c k
  have r_main_v22 : (fun k : Fin 128 => W8 m ρ c (Proc.devRef .tc main_v22) (ix2 (0 : Fin 1) k)) = fun k => m ((c : Thread nD τ).loc main_arg10) (ix1 k) :=
    funext fun k => w8_main_v22_apply m ρ c k
  rw [e0, e9, r_main_v18, r_main_v19, r_main_v20, r_main_v21, r_main_v22]

end Cert.KernelIdeal.Val

end
-- ==== Proof.TakeDefs.lean ====
/-
  The index arithmetic of a row gather with a default fill, as the kernel program spells it: a negative index is
  wrapped by the axis size 50000, the wrapped index is broadcast to a column, and a row is kept where its wrapped
  index lies in [0, 49999].
-/
import proofs.«429932_j30906584662329_2_alg».proof.KernelIdeal

noncomputable section

namespace Cert.Bridge

open Cert.KernelIdeal Idealize.ShloMosaic
open Cert.KernelIdeal.Facts₀ Cert.KernelIdeal.Facts

variable [Cert.KernelIdeal.Facts]

/-- The wrapped index column: `s + 50000` where `s < 0`, else `s`, as a [800000, 1] column. -/
def takeIdx (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The keep-mask: row `e` is kept where `0 ≤ idx e ≤ 49999`, broadcast over the row's [8, 16] entries. -/
def takeMask (s : IVec S800000 32) : IVec S800000x8x16 1 :=
  broadcastInDim S800000x8x16 ![0] bcast_S800000_S800000x8x16_0
    ((fun x v => Host.reduce IntOp.andi x v reducesTo_S800000x1_S800000_d1 h_S_)
      (andi (cmpi .sge (takeIdx s) (broadcastInDim S800000x1 ![] bcast_S_S800000x1 (constantI S_ 32 0#32)))
        (cmpi .sle (takeIdx s) (broadcastInDim S800000x1 ![0, 1] bcast_S1x1_S800000x1_0_1
          (broadcastInDim S1x1 ![1] bcast_S1_S1x1_1 (constantI S1 32 49999#32)))))
      (constantI S_ 1 1#1))

end Cert.Bridge

end
-- ==== Proof.KI.HostTake0.lean ====
import proofs.«429932_j30906584662329_2_alg».proof.Proof.KI.Run
import proofs.«429932_j30906584662329_2_alg».proof.Proof.TakeDefs

/-! # The gathered array `main_v10` the second kernel region is entered with

A row gather with default fill is a stretch of 23 host operations: the index vector is wrapped
(a negative index gets the axis size added), broadcast to a column, the rows of the table are gathered at it, and a
row whose wrapped index falls outside the table is replaced by the fill value. Read off the fold of the buffer
contents, the stretch's result buffer holds exactly that composition, over the index vector as launched and the table
as the stretches before left it. -/

set_option maxRecDepth 16384

noncomputable section

namespace Cert.KernelIdeal.Val

open Cert.KernelIdeal Cert.KernelIdeal.Gen Cert.KernelIdeal.Hand Cert.Bridge Idealize.ShloMosaic
open Idealize.ShloMosaic.TcCoe
open Cert.KernelIdeal.Facts₀ Cert.KernelIdeal.Facts

variable {F : FTy → Type} [FloatOps F]

variable (m : (ℓ : Loc nD τ sig) → Buf (Elt F) ℓ) (ρ : Dev nD → PrngReg) (c : Dev nD)

/-! ## The index vector is as launched -/

/-- No item before the gather stretches writes the index vector. -/
theorem take0_W3_idx : W3 m ρ c (Proc.devRef .tc main_arg1) = m ((c : Thread nD τ).loc main_arg1) :=
  (W3_of m ρ c main_arg1 (by decide)).trans ((W2_of_ne m ρ c main_arg1 (by decide)).trans ((W1_of m ρ c main_arg1 (by decide)).trans rfl))

/-! ## The gather stretch, from any contents

The 23 operations compose to: the rows of the table gathered at the wrapped index column, a row kept where the
wrapped index lies in the table and replaced by the fill value elsewhere. -/

set_option maxHeartbeats 1000000 in
/-- What the stretch `hostOps1_1` leaves in `main_v10`, from any contents `V`: the masked gather of `V`'s table `main_v7` at
    `V`'s index vector `main_arg1`. -/
theorem take0_fold (V : Valuation τ sig (Elt F)) : StableHlo.after hostOps1_1 V (Proc.devRef .tc main_v10)
    = select (takeMask (V (Proc.devRef .tc main_arg1)))
        (Host.gather gather_S50000x8x16_S800000x1_S800000x8x16_12_0_n_n_0_1_1816 (V (Proc.devRef .tc main_v7)) (takeIdx (V (Proc.devRef .tc main_arg1))))
        (broadcastInDim S800000x8x16 ![] Facts₀.bcast_S_S800000x8x16 (constant (F := F) S_ .f32 0x7FC00000#32)) := by
  simp only [hostOps1_1]
  after_results
  simp only [StableHlo.TRef.ofBuf, StableHlo.TRef.toBuf, StableHlo.TRef.of, cast_eq]
  unfold takeMask takeIdx
  rfl

/-! ## The gathered array at the second region's entry -/

/-- `main_v10` at the second region's entry: the first stretch's masked gather of the table `main_v7` at the first
    index vector as launched; the two later stretches do not write it. -/
theorem w6_v10 : W6 m ρ c (Proc.devRef .tc main_v10)
    = select (takeMask (m ((c : Thread nD τ).loc main_arg1)))
        (Host.gather gather_S50000x8x16_S800000x1_S800000x8x16_12_0_n_n_0_1_1816 (W3 m ρ c (Proc.devRef .tc main_v7)) (takeIdx (m ((c : Thread nD τ).loc main_arg1))))
        (broadcastInDim S800000x8x16 ![] Facts₀.bcast_S_S800000x8x16 (constant (F := F) S_ .f32 0x7FC00000#32)) := by
  have h := take0_fold (F := F) (W3 m ρ c)
  rw [take0_W3_idx m ρ c] at h
  exact (W6_of m ρ c main_v10 (by decide)).trans ((W5_of m ρ c main_v10 (by decide)).trans h)

end Cert.KernelIdeal.Val

end
-- ==== Proof.KI.HostTake1.lean ====
import proofs.«429932_j30906584662329_2_alg».proof.Proof.KI.Run
import proofs.«429932_j30906584662329_2_alg».proof.Proof.TakeDefs

/-! # The gathered array `main_v11` the second kernel region is entered with

A row gather with default fill is a stretch of 23 host operations: the index vector is wrapped
(a negative index gets the axis size added), broadcast to a column, the rows of the table are gathered at it, and a
row whose wrapped index falls outside the table is replaced by the fill value. Read off the fold of the buffer
contents, the stretch's result buffer holds exactly that composition, over the index vector as launched and the table
as the stretches before left it. -/

set_option maxRecDepth 16384

noncomputable section

namespace Cert.KernelIdeal.Val

open Cert.KernelIdeal Cert.KernelIdeal.Gen Cert.KernelIdeal.Hand Cert.Bridge Idealize.ShloMosaic
open Idealize.ShloMosaic.TcCoe
open Cert.KernelIdeal.Facts₀ Cert.KernelIdeal.Facts

variable {F : FTy → Type} [FloatOps F]

variable (m : (ℓ : Loc nD τ sig) → Buf (Elt F) ℓ) (ρ : Dev nD → PrngReg) (c : Dev nD)

/-! ## The index vector is as launched -/

/-- No item before the gather stretches writes the index vector. -/
theorem take1_W3_idx : W3 m ρ c (Proc.devRef .tc main_arg2) = m ((c : Thread nD τ).loc main_arg2) :=
  (W3_of m ρ c main_arg2 (by decide)).trans ((W2_of_ne m ρ c main_arg2 (by decide)).trans ((W1_of m ρ c main_arg2 (by decide)).trans rfl))
/-- Nor does the first gather stretch. -/
theorem take1_W4_idx : W4 m ρ c (Proc.devRef .tc main_arg2) = m ((c : Thread nD τ).loc main_arg2) :=
  (W4_of m ρ c main_arg2 (by decide)).trans (take1_W3_idx m ρ c)

/-! ## The gather stretch, from any contents

The 23 operations compose to: the rows of the table gathered at the wrapped index column, a row kept where the
wrapped index lies in the table and replaced by the fill value elsewhere. -/

set_option maxHeartbeats 1000000 in
/-- What the stretch `hostOps1_2` leaves in `main_v11`, from any contents `V`: the masked gather of `V`'s table `main_v5` at
    `V`'s index vector `main_arg2`. -/
theorem take1_fold (V : Valuation τ sig (Elt F)) : StableHlo.after hostOps1_2 V (Proc.devRef .tc main_v11)
    = select (takeMask (V (Proc.devRef .tc main_arg2)))
        (Host.gather gather_S50000x8x16_S800000x1_S800000x8x16_12_0_n_n_0_1_1816 (V (Proc.devRef .tc main_v5)) (takeIdx (V (Proc.devRef .tc main_arg2))))
        (broadcastInDim S800000x8x16 ![] Facts₀.bcast_S_S800000x8x16 (constant (F := F) S_ .f32 0x7FC00000#32)) := by
  simp only [hostOps1_2]
  after_results
  simp only [StableHlo.TRef.ofBuf, StableHlo.TRef.toBuf, StableHlo.TRef.of, cast_eq]
  unfold takeMask takeIdx
  rfl

/-! ## The gathered array at the second region's entry -/

/-- `main_v11` at the second region's entry: the second stretch's masked gather of the table `main_v5` (which the first
    stretch does not write) at the second index vector as launched; the last stretch does not write it. -/
theorem w6_v11 : W6 m ρ c (Proc.devRef .tc main_v11)
    = select (takeMask (m ((c : Thread nD τ).loc main_arg2)))
        (Host.gather gather_S50000x8x16_S800000x1_S800000x8x16_12_0_n_n_0_1_1816 (W3 m ρ c (Proc.devRef .tc main_v5)) (takeIdx (m ((c : Thread nD τ).loc main_arg2))))
        (broadcastInDim S800000x8x16 ![] Facts₀.bcast_S_S800000x8x16 (constant (F := F) S_ .f32 0x7FC00000#32)) := by
  have h := take1_fold (F := F) (W4 m ρ c)
  rw [take1_W4_idx m ρ c, W4_of m ρ c main_v5 (by decide)] at h
  exact (W6_of m ρ c main_v11 (by decide)).trans h

end Cert.KernelIdeal.Val

end
-- ==== Proof.KI.HostTake2.lean ====
import proofs.«429932_j30906584662329_2_alg».proof.Proof.KI.Run
import proofs.«429932_j30906584662329_2_alg».proof.Proof.TakeDefs

/-! # The gathered array `main_v12` the second kernel region is entered with

A row gather with default fill is a stretch of 23 host operations: the index vector is wrapped
(a negative index gets the axis size added), broadcast to a column, the rows of the table are gathered at it, and a
row whose wrapped index falls outside the table is replaced by the fill value. Read off the fold of the buffer
contents, the stretch's result buffer holds exactly that composition, over the index vector as launched and the table
as the stretches before left it. -/

set_option maxRecDepth 16384

noncomputable section

namespace Cert.KernelIdeal.Val

open Cert.KernelIdeal Cert.KernelIdeal.Gen Cert.KernelIdeal.Hand Cert.Bridge Idealize.ShloMosaic
open Idealize.ShloMosaic.TcCoe
open Cert.KernelIdeal.Facts₀ Cert.KernelIdeal.Facts

variable {F : FTy → Type} [FloatOps F]

variable (m : (ℓ : Loc nD τ sig) → Buf (Elt F) ℓ) (ρ : Dev nD → PrngReg) (c : Dev nD)

/-! ## The index vector is as launched -/

/-- No item before the gather stretches writes the index vector. -/
theorem take2_W3_idx : W3 m ρ c (Proc.devRef .tc main_arg1) = m ((c : Thread nD τ).loc main_arg1) :=
  (W3_of m ρ c main_arg1 (by decide)).trans ((W2_of_ne m ρ c main_arg1 (by decide)).trans ((W1_of m ρ c main_arg1 (by decide)).trans rfl))
/-- Nor does the first gather stretch. -/
theorem take2_W4_idx : W4 m ρ c (Proc.devRef .tc main_arg1) = m ((c : Thread nD τ).loc main_arg1) :=
  (W4_of m ρ c main_arg1 (by decide)).trans (take2_W3_idx m ρ c)
/-- Nor the second. -/
theorem take2_W5_idx : W5 m ρ c (Proc.devRef .tc main_arg1) = m ((c : Thread nD τ).loc main_arg1) :=
  (W5_of m ρ c main_arg1 (by decide)).trans (take2_W4_idx m ρ c)

/-! ## The gather stretch, from any contents

The 23 operations compose to: the rows of the table gathered at the wrapped index column, a row kept where the
wrapped index lies in the table and replaced by the fill value elsewhere. -/

set_option maxHeartbeats 1000000 in
/-- What the stretch `hostOps1_3` leaves in `main_v12`, from any contents `V`: the masked gather of `V`'s table `main_v9` at
    `V`'s index vector `main_arg1`. -/
theorem take2_fold (V : Valuation τ sig (Elt F)) : StableHlo.after hostOps1_3 V (Proc.devRef .tc main_v12)
    = select (takeMask (V (Proc.devRef .tc main_arg1)))
        (Host.gather gather_S50000x8x16_S800000x1_S800000x8x16_12_0_n_n_0_1_1816 (V (Proc.devRef .tc main_v9)) (takeIdx (V (Proc.devRef .tc main_arg1))))
        (broadcastInDim S800000x8x16 ![] Facts₀.bcast_S_S800000x8x16 (constant (F := F) S_ .f32 0x7FC00000#32)) := by
  simp only [hostOps1_3]
  after_results
  simp only [StableHlo.TRef.ofBuf, StableHlo.TRef.toBuf, StableHlo.TRef.of, cast_eq]
  unfold takeMask takeIdx
  rfl

/-! ## The gathered array at the second region's entry -/

/-- `main_v12` at the second region's entry: the third stretch's masked gather of the table `main_v9` (which the first
    two stretches do not write) at the first index vector as launched. -/
theorem w6_v12 : W6 m ρ c (Proc.devRef .tc main_v12)
    = select (takeMask (m ((c : Thread nD τ).loc main_arg1)))
        (Host.gather gather_S50000x8x16_S800000x1_S800000x8x16_12_0_n_n_0_1_1816 (W3 m ρ c (Proc.devRef .tc main_v9)) (takeIdx (m ((c : Thread nD τ).loc main_arg1))))
        (broadcastInDim S800000x8x16 ![] Facts₀.bcast_S_S800000x8x16 (constant (F := F) S_ .f32 0x7FC00000#32)) := by
  have h := take2_fold (F := F) (W5 m ρ c)
  rw [take2_W5_idx m ρ c, W5_of m ρ c main_v9 (by decide), W4_of m ρ c main_v9 (by decide)] at h
  exact h

end Cert.KernelIdeal.Val

end
-- ==== Proof.KI.HostTake.lean ====
import proofs.«429932_j30906584662329_2_alg».proof.Proof.KI.HostTake0
import proofs.«429932_j30906584662329_2_alg».proof.Proof.KI.HostTake1
import proofs.«429932_j30906584662329_2_alg».proof.Proof.KI.HostTake2

/-! # The three gathered arrays the second kernel region is entered with

One module per gather stretch states what the stretch leaves in its result buffer at the region's entry. -/
-- ==== Proof.Ref1.lean ====
/-
  The reference's projections and edge weights read at an index.

  * The three projections: the reshape of `x · W + b` to (node, head, channel) reads row-major, so entry
    `(n, h, d)` is entry `(n, 16 h + d)` of `x · W + b`: a row of `x` against a column of `W`, plus the bias entry.
  * The edge weight: the value row of the source node times the exponential of the clamped score. The score is
    the sum over the 16 channels of key times query, divided by the literal 4; dividing by 4 is multiplying by ¼
    at every extended real, the two literals being the reals 4 and ¼.
-/
import proofs.«429932_j30906584662329_2_alg».proof.Proof.Gen.ReferenceIdeal.Read
import proofs.«429932_j30906584662329_2_alg».proof.Proof.Spec
import Idealize.ShloMosaic.Lib.ValueIdx
import Idealize.ShloMosaic.PureOps.Ideal
import Idealize.ShloMosaic.PureOps.Ideal.Laws

noncomputable section

namespace Cert.Bridge

open Cert.ReferenceIdeal Idealize.ShloMosaic Idealize.ShloMosaic.ValueIdx
open scoped BigOperators

/-! ## The two literals of the score's scaling -/

/-- The literal `4.0` denotes the real `4`. -/
theorem ofBits_four : Ideal.ofBits .f32 0x40800000#32 = ((4 : ℝ) : EReal) := by
  simp [Ideal.ofBits, Ideal.ieee, -EReal.coe_mul]; norm_num

/-- The literal `0.25` denotes the real `¼`. -/
theorem ofBits_quarter : Ideal.ofBits .f32 0x3E800000#32 = ((1 / 4 : ℝ) : EReal) := by
  simp [Ideal.ofBits, Ideal.ieee, -EReal.coe_mul]; norm_num

/-- Dividing by the literal `4.0` is multiplying by the literal `0.25`, at every extended real. -/
theorem div_four_eq_mul_quarter (x : EReal) :
    Ideal.div x (Ideal.ofBits .f32 0x40800000#32) = x * Cert.Spec.cQuarter := by
  show _ = x * Ideal.ofBits .f32 0x3E800000#32
  rw [ofBits_four, ofBits_quarter]
  exact Ideal.div_coe (by norm_num) x

/-! ## The projections

Row-major: entry `(n, h, d)` of a reshaped array is entry `(n, 16 h + d)` of the matrix, since
`((8 n + h) · 16 + d) = 128 n + (16 h + d)` with `16 h + d < 128`. -/

theorem flat_idx_q (n : Fin 50000) (h : Fin 8) (d : Fin 16) :
    Read.idx_main_v4 (ix3 n h d) = ix2 n (⟨16 * h.val + d.val, by omega⟩ : Fin 128) :=
  funext fun a => Fin.ext (by
    match a with
    | ⟨0, _⟩ => show ((n.val * 8 + h.val) * 16 + d.val) / 128 = n.val; omega
    | ⟨1, _⟩ => show ((n.val * 8 + h.val) * 16 + d.val) % 128 = 16 * h.val + d.val; omega)

theorem flat_idx_k (n : Fin 50000) (h : Fin 8) (d : Fin 16) :
    Read.idx_main_v9 (ix3 n h d) = ix2 n (⟨16 * h.val + d.val, by omega⟩ : Fin 128) :=
  funext fun a => Fin.ext (by
    match a with
    | ⟨0, _⟩ => show ((n.val * 8 + h.val) * 16 + d.val) / 128 = n.val; omega
    | ⟨1, _⟩ => show ((n.val * 8 + h.val) * 16 + d.val) % 128 = 16 * h.val + d.val; omega)

theorem flat_idx_v (n : Fin 50000) (h : Fin 8) (d : Fin 16) :
    Read.idx_main_v14 (ix3 n h d) = ix2 n (⟨16 * h.val + d.val, by omega⟩ : Fin 128) :=
  funext fun a => Fin.ext (by
    match a with
    | ⟨0, _⟩ => show ((n.val * 8 + h.val) * 16 + d.val) / 128 = n.val; omega
    | ⟨1, _⟩ => show ((n.val * 8 + h.val) * 16 + d.val) % 128 = 16 * h.val + d.val; omega)

/-- The query projection at `(n, h, d)`: row `n` of `x` against column `16 h + d` of `Wq`, plus the bias entry. -/
theorem ref_q (x0 : (⟨S50000x128, .f32⟩ : BufTy).Contents (Elt Ideal))
    (x3 : (⟨S128x128, .f32⟩ : BufTy).Contents (Elt Ideal)) (x4 : (⟨S128, .f32⟩ : BufTy).Contents (Elt Ideal))
    (n : Fin 50000) (h : Fin 8) (d : Fin 16) :
    Read.val_main_v4 (F := Ideal) x0 x3 x4 (ix3 n h d)
      = Cert.Spec.projAt (fun n k => x0 (ix2 n k)) (fun k j => x3 (ix2 k j)) (fun j => x4 (ix1 j)) n
          ⟨16 * h.val + d.val, by omega⟩ := by
  rw [Read.val_main_v4_apply, flat_idx_q, Read.val_main_v3_apply, Read.val_main_v0_apply, Read.val_main_v2_apply,
    Read.val_main_v1_apply, Ideal.addf_def]
  unfold Cert.Spec.projAt
  have hl : ∀ (j : Fin 128) (k : Fin 128), Read.lidx_main_v0 (ix2 n j) k = ix2 n k := fun j k =>
    funext fun a => by match a with | ⟨0, _⟩ => rfl | ⟨1, _⟩ => rfl
  have hr : ∀ (j : Fin 128) (k : Fin 128), Read.ridx_main_v0 (ix2 n j) k = ix2 k j := fun j k =>
    funext fun a => by match a with | ⟨0, _⟩ => rfl | ⟨1, _⟩ => rfl
  have hb : ∀ j : Fin 128, Read.idx_main_v1 (Read.idx_main_v2 (ix2 n j)) = ix1 j := fun j =>
    funext fun a => by match a with | ⟨0, _⟩ => rfl
  simp only [hl, hr, hb]

/-- The key projection at `(n, h, d)`: row `n` of `x` against column `16 h + d` of `Wk`, plus the bias entry. -/
theorem ref_k (x0 : (⟨S50000x128, .f32⟩ : BufTy).Contents (Elt Ideal))
    (x5 : (⟨S128x128, .f32⟩ : BufTy).Contents (Elt Ideal)) (x6 : (⟨S128, .f32⟩ : BufTy).Contents (Elt Ideal))
    (n : Fin 50000) (h : Fin 8) (d : Fin 16) :
    Read.val_main_v9 (F := Ideal) x0 x5 x6 (ix3 n h d)
      = Cert.Spec.projAt (fun n k => x0 (ix2 n k)) (fun k j => x5 (ix2 k j)) (fun j => x6 (ix1 j)) n
          ⟨16 * h.val + d.val, by omega⟩ := by
  rw [Read.val_main_v9_apply, flat_idx_k, Read.val_main_v8_apply, Read.val_main_v5_apply, Read.val_main_v7_apply,
    Read.val_main_v6_apply, Ideal.addf_def]
  unfold Cert.Spec.projAt
  have hl : ∀ (j : Fin 128) (k : Fin 128), Read.lidx_main_v5 (ix2 n j) k = ix2 n k := fun j k =>
    funext fun a => by match a with | ⟨0, _⟩ => rfl | ⟨1, _⟩ => rfl
  have hr : ∀ (j : Fin 128) (k : Fin 128), Read.ridx_main_v5 (ix2 n j) k = ix2 k j := fun j k =>
    funext fun a => by match a with | ⟨0, _⟩ => rfl | ⟨1, _⟩ => rfl
  have hb : ∀ j : Fin 128, Read.idx_main_v6 (Read.idx_main_v7 (ix2 n j)) = ix1 j := fun j =>
    funext fun a => by match a with | ⟨0, _⟩ => rfl
  simp only [hl, hr, hb]

/-- The value projection at `(n, h, d)`: row `n` of `x` against column `16 h + d` of `Wv`, plus the bias entry. -/
theorem ref_v (x0 : (⟨S50000x128, .f32⟩ : BufTy).Contents (Elt Ideal))
    (x7 : (⟨S128x128, .f32⟩ : BufTy).Contents (Elt Ideal)) (x8 : (⟨S128, .f32⟩ : BufTy).Contents (Elt Ideal))
    (n : Fin 50000) (h : Fin 8) (d : Fin 16) :
    Read.val_main_v14 (F := Ideal) x0 x7 x8 (ix3 n h d)
      = Cert.Spec.projAt (fun n k => x0 (ix2 n k)) (fun k j => x7 (ix2 k j)) (fun j => x8 (ix1 j)) n
          ⟨16 * h.val + d.val, by omega⟩ := by
  rw [Read.val_main_v14_apply, flat_idx_v, Read.val_main_v13_apply, Read.val_main_v10_apply, Read.val_main_v12_apply,
    Read.val_main_v11_apply, Ideal.addf_def]
  unfold Cert.Spec.projAt
  have hl : ∀ (j : Fin 128) (k : Fin 128), Read.lidx_main_v10 (ix2 n j) k = ix2 n k := fun j k =>
    funext fun a => by match a with | ⟨0, _⟩ => rfl | ⟨1, _⟩ => rfl
  have hr : ∀ (j : Fin 128) (k : Fin 128), Read.ridx_main_v10 (ix2 n j) k = ix2 k j := fun j k =>
    funext fun a => by match a with | ⟨0, _⟩ => rfl | ⟨1, _⟩ => rfl
  have hb : ∀ j : Fin 128, Read.idx_main_v11 (Read.idx_main_v12 (ix2 n j)) = ix1 j := fun j =>
    funext fun a => by match a with | ⟨0, _⟩ => rfl
  simp only [hl, hr, hb]

/-! ## The edge weights -/

/-- The weighted value entry of edge `e`, head `h`, channel `d`: the gathered value entry times the exponential of
    the head's clamped score; the score's sum runs over the 16 channels of the gathered key and query rows. -/
theorem ref_edge (x0 : (⟨S50000x128, .f32⟩ : BufTy).Contents (Elt Ideal))
    (x1 x2 : (⟨S800000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal))
    (e : Fin 800000) (h : Fin 8) (d : Fin 16) :
    Read.val_main_v44 (F := Ideal) x0 x1 x2 x3 x4 x5 x6 x7 x8 (ix3 e h d)
      = Cert.Spec.edgeAt (fun e h d => Read.val_main_v21 (F := Ideal) x0 x1 x5 x6 (ix3 e h d))
          (fun e h d => Read.val_main_v28 (F := Ideal) x0 x2 x3 x4 (ix3 e h d))
          (fun e h d => Read.val_main_v42 (F := Ideal) x0 x1 x7 x8 (ix3 e h d)) e h d := by
  have hi : ∀ k : Fin 16,
      Read.idx_main_v30 (Read.idx_main_v31 (Read.idx_main_v43 (ix3 e h d))) k = ix3 e h k := fun k =>
    funext fun a => by match a with | ⟨0, _⟩ => rfl | ⟨1, _⟩ => rfl | ⟨2, _⟩ => rfl
  rw [Read.val_main_v44_apply, Read.val_main_v43_apply, Read.val_main_v35_apply, Read.val_main_v34_apply,
    Read.val_main_call0_v4_apply, Read.val_main_call0_v3_apply, Read.val_main_cst_5_apply,
    Read.val_main_call0_v2_apply, Read.val_main_call0_v1_apply, Read.val_main_call0_v0_apply,
    Read.val_main_cst_4_apply, Read.val_main_v33_apply, Read.val_main_v31_apply, Read.val_main_v32_apply,
    Read.val_main_cst_3_apply, Read.val_main_v30_apply, Read.val_main_cst_apply]
  simp only [Read.val_main_v29_apply, hi, Ideal.mulf_def, Ideal.hostUnary_exp_def, Ideal.minimumf_def,
    Ideal.maximumf_def, Ideal.hostDivf_def, Ideal.ofBits_def, Ideal.ofBits_zero_f32, zero_add,
    div_four_eq_mul_quarter]
  rfl

end Cert.Bridge

end
-- ==== Proof.Ref2.lean ====
/-
  The reference's node update read at an index, and the one law that joins it to the kernels' form.

  The reference forms `h = x + wV`, normalises each row of 128 entries twice — `(h − mean) / √(var + ε) · g + b`, with the
  mean and the variance taken as `(0 + ∑) / 128` —, projects the second normalisation by `Wo`, adds the bias, clips below
  at zero and adds the first normalisation. The kernels' formula `Spec.ffnAt` multiplies by the reciprocal square root
  instead of dividing by the square root and starts its sums at nothing. The two agree because `0 + s = s` and because,
  for every `y > 0` of the extended reals, `a · rsqrt y = a / √y` (at `⊤` both are `0`); the argument `var + ε` is positive
  for every row, finite or not: a square is nonnegative (`⊥ · ⊥ = ⊤`), so is a finite sum of squares and its quotient by
  128, and ε is a positive real.
-/
import proofs.«429932_j30906584662329_2_alg».proof.Proof.Gen.ReferenceIdeal.Read
import proofs.«429932_j30906584662329_2_alg».proof.Proof.Spec
import Idealize.ShloMosaic.PureOps.Ideal
import Idealize.ShloMosaic.PureOps.Ideal.Laws
import Idealize.ShloMosaic.Lib.ValueIdx
import Mathlib.Data.EReal.Inv

noncomputable section

namespace Cert.Bridge

open Cert.ReferenceIdeal Cert.ReferenceIdeal.Gen Idealize.ShloMosaic Idealize.ShloMosaic.ValueIdx
open Cert.ReferenceIdeal.Read
open scoped BigOperators

/-! ## Scalar laws over the extended reals -/

/-- Multiplying by the reciprocal square root is dividing by the square root, for a positive argument
    (at `⊤` both sides are `0`; at a positive real both are `a * (√y)⁻¹`). -/
theorem rsqrt_law (a y : EReal) (hy : 0 < y) : a * Ideal.rsqrt y = Ideal.div a (Ideal.sqrt y) := by
  induction y using EReal.rec with
  | bot => exact absurd hy (by simp)
  | top =>
    rw [Ideal.rsqrt_top, Ideal.sqrt_top, Ideal.div, if_neg EReal.top_ne_zero, EReal.inv_top]
  | coe r =>
    have hr : 0 < r := by exact_mod_cast hy
    have hs : 0 < Real.sqrt r := Real.sqrt_pos.mpr hr
    rw [Ideal.rsqrt_coe, if_neg (not_lt.mpr hr.le), if_neg hr.ne', Ideal.sqrt_coe, if_neg (not_lt.mpr hr.le),
      Ideal.div, if_neg (by exact_mod_cast hs.ne'), EReal.coe_inv]

/-- The word `0x43000000` denotes the real `128`. -/
theorem c128_eq : Cert.Spec.c128 = ((128 : ℝ) : EReal) := by
  simp [Ideal.ofBits, Ideal.ieee, -EReal.coe_mul]; norm_num

/-- The word `0x3727C5AC` denotes the real `10995116 · 2⁻⁴⁰`. -/
theorem cEps_eq : Cert.Spec.cEps = (((10995116 : ℝ) * (2:ℝ)^(-40:ℤ) : ℝ) : EReal) := by
  simp [Ideal.ofBits, Ideal.ieee, -EReal.coe_mul]

theorem cEps_pos : 0 < Cert.Spec.cEps := by
  rw [cEps_eq]
  have : (0 : ℝ) < (10995116 : ℝ) * (2:ℝ)^(-40:ℤ) := by positivity
  exact_mod_cast this

/-- A square of an extended real is nonnegative (`⊥ * ⊥ = ⊤` too). -/
theorem mul_self_nonneg' (x : EReal) : 0 ≤ x * x := by
  rcases le_total 0 x with h | h
  · exact mul_nonneg h h
  · have := EReal.mul_le_mul_of_nonpos_right h h
    rwa [zero_mul] at this

theorem meanOf_nonneg {K : Nat} (g : Fin K → EReal) (hg : ∀ k, 0 ≤ g k) : 0 ≤ Cert.Spec.meanOf g := by
  unfold Cert.Spec.meanOf
  rw [c128_eq, Ideal.div_coe (by norm_num)]
  exact mul_nonneg (Finset.sum_nonneg fun k _ => hg k) (by exact_mod_cast (by norm_num : (0:ℝ) ≤ 1 / 128))

/-- The variance plus ε is positive, whatever the row. -/
theorem var_eps_pos {K : Nat} (f : Fin K → EReal) :
    0 < Cert.Spec.meanOf (fun k => (f k - Cert.Spec.meanOf f) * (f k - Cert.Spec.meanOf f)) + Cert.Spec.cEps :=
  lt_of_lt_of_le cEps_pos (le_add_of_nonneg_left (meanOf_nonneg _ fun k => mul_self_nonneg' _))

/-- The reference's normalisation — sums started at the zero word, division by the square root — is the kernels'. -/
theorem norm_form {K : Nat} (h g b : Fin K → EReal) (k : Fin K) :
    Ideal.div (h k - Ideal.div (Cert.Spec.cZero + ∑ k', h k') Cert.Spec.c128)
        (Ideal.sqrt (Ideal.div (Cert.Spec.cZero + ∑ k', (h k' - Ideal.div (Cert.Spec.cZero + ∑ k'', h k'') Cert.Spec.c128)
          * (h k' - Ideal.div (Cert.Spec.cZero + ∑ k'', h k'') Cert.Spec.c128)) Cert.Spec.c128 + Cert.Spec.cEps)) * g k + b k
      = Cert.Spec.normAt h g b k := by
  have hz : Cert.Spec.cZero = 0 := Ideal.ofBits_zero_f32
  simp only [hz, zero_add]
  unfold Cert.Spec.normAt
  rw [rsqrt_law _ _ (var_eps_pos h)]
  rfl

/-! ## The reference's tail read at an index -/

section Reading

variable (x0 : (⟨S50000x128, .f32⟩ : BufTy).Contents (Elt Ideal))
  (x1 x2 : (⟨S800000, .i32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))
  (x7 : (⟨S128x128, .f32⟩ : BufTy).Contents (Elt Ideal)) (x8 : (⟨S128, .f32⟩ : BufTy).Contents (Elt Ideal))
  (x9 : (⟨S128x128, .f32⟩ : BufTy).Contents (Elt Ideal))
  (x10 x11 x12 x13 x14 : (⟨S128, .f32⟩ : BufTy).Contents (Elt Ideal))

/-- Row `n` of `h = x + wV`. -/
abbrev hrow (n : Fin 50000) : Fin 128 → EReal :=
  fun k => x0 (ix2 n k) + val_main_v48 (F := Ideal) x0 x1 x2 x3 x4 x5 x6 x7 x8 (ix2 n k)

theorem ref_h (n : Fin 50000) (k : Fin 128) :
    val_main_v49 (F := Ideal) x0 x1 x2 x3 x4 x5 x6 x7 x8 (ix2 n k) = hrow x0 x1 x2 x3 x4 x5 x6 x7 x8 n k := rfl

/-- The first mean: the zero word plus the row's sum, over the word 128. -/
theorem ref_mean1 (n : Fin 50000) (c : Fin 1) :
    val_main_v53 (F := Ideal) x0 x1 x2 x3 x4 x5 x6 x7 x8 (ix2 n c)
      = Ideal.div (Cert.Spec.cZero + ∑ k : Fin 128, hrow x0 x1 x2 x3 x4 x5 x6 x7 x8 n k) Cert.Spec.c128 := by
  rw [val_main_v53_apply, val_main_v51_apply, val_main_v50_apply, val_main_v52_apply, val_main_cst_9_apply,
    val_main_cst_10_apply]
  have e : ∀ k : Fin 128, idx_main_v50 (idx_main_v51 (ix2 n c)) k = ix2 n k := fun k =>
    funext fun a => Fin.ext (by match a with | ⟨0, _⟩ => rfl | ⟨1, _⟩ => rfl)
  simp only [e, ref_h]
  rfl

/-- The first variance: the zero word plus the sum of the centred squares, over the word 128. -/
theorem ref_var1 (n : Fin 50000) (c : Fin 1) :
    val_main_v60 (F := Ideal) x0 x1 x2 x3 x4 x5 x6 x7 x8 (ix2 n c)
      = Ideal.div (Cert.Spec.cZero + ∑ k : Fin 128,
          (hrow x0 x1 x2 x3 x4 x5 x6 x7 x8 n k - Ideal.div (Cert.Spec.cZero + ∑ k' : Fin 128, hrow x0 x1 x2 x3 x4 x5 x6 x7 x8 n k') Cert.Spec.c128)
          * (hrow x0 x1 x2 x3 x4 x5 x6 x7 x8 n k - Ideal.div (Cert.Spec.cZero + ∑ k' : Fin 128, hrow x0 x1 x2 x3 x4 x5 x6 x7 x8 n k') Cert.Spec.c128)) Cert.Spec.c128 := by
  rw [val_main_v60_apply, val_main_v58_apply, val_main_v57_apply, val_main_v59_apply, val_main_cst_11_apply,
    val_main_cst_12_apply]
  have e : ∀ k : Fin 128, idx_main_v57 (idx_main_v58 (ix2 n c)) k = ix2 n k := fun k =>
    funext fun a => Fin.ext (by match a with | ⟨0, _⟩ => rfl | ⟨1, _⟩ => rfl)
  have e54 : ∀ k : Fin 128, idx_main_v54 (ix2 n k) = ix2 n (0 : Fin 1) := fun k =>
    funext fun a => Fin.ext (by match a with | ⟨0, _⟩ => rfl | ⟨1, _⟩ => rfl)
  simp only [e, val_main_v56_apply, val_main_v55_apply, val_main_v54_apply, e54, ref_mean1, ref_h]
  rfl

/-- The first normalisation of row `n`, at entry `k`. -/
theorem ref_norm1 (n : Fin 50000) (k : Fin 128) :
    val_main_v73 (F := Ideal) x0 x1 x2 x3 x4 x5 x6 x7 x8 x11 x12 (ix2 n k)
      = Cert.Spec.normAt (hrow x0 x1 x2 x3 x4 x5 x6 x7 x8 n) (fun k => x11 (ix1 k)) (fun k => x12 (ix1 k)) k := by
  rw [val_main_v73_apply, val_main_v70_apply, val_main_v67_apply, val_main_v62_apply, val_main_v61_apply,
    val_main_v66_apply, val_main_v65_apply, val_main_v64_apply, val_main_v63_apply, val_main_cst_13_apply,
    val_main_v69_apply, val_main_v68_apply, val_main_v72_apply, val_main_v71_apply]
  have e61 : idx_main_v61 (ix2 n k) = ix2 n (0 : Fin 1) :=
    funext fun a => Fin.ext (by match a with | ⟨0, _⟩ => rfl | ⟨1, _⟩ => rfl)
  have e66 : idx_main_v66 (ix2 n k) = ix2 n (0 : Fin 1) :=
    funext fun a => Fin.ext (by match a with | ⟨0, _⟩ => rfl | ⟨1, _⟩ => rfl)
  have e68 : idx_main_v68 (idx_main_v69 (ix2 n k)) = ix1 k :=
    funext fun a => Fin.ext (by match a with | ⟨0, _⟩ => rfl)
  have e71 : idx_main_v71 (idx_main_v72 (ix2 n k)) = ix1 k :=
    funext fun a => Fin.ext (by match a with | ⟨0, _⟩ => rfl)
  rw [e61, e66, e68, e71, ref_mean1, ref_var1, ref_h]
  exact norm_form (hrow x0 x1 x2 x3 x4 x5 x6 x7 x8 n) (fun k => x11 (ix1 k)) (fun k => x12 (ix1 k)) k

/-- Row `n` of the first normalisation. -/
abbrev nrow (n : Fin 50000) : Fin 128 → EReal :=
  Cert.Spec.normAt (hrow x0 x1 x2 x3 x4 x5 x6 x7 x8 n) (fun k => x11 (ix1 k)) (fun k => x12 (ix1 k))

/-- The second mean. -/
theorem ref_mean2 (n : Fin 50000) (c : Fin 1) :
    val_main_v77 (F := Ideal) x0 x1 x2 x3 x4 x5 x6 x7 x8 x11 x12 (ix2 n c)
      = Ideal.div (Cert.Spec.cZero + ∑ k : Fin 128, nrow x0 x1 x2 x3 x4 x5 x6 x7 x8 x11 x12 n k) Cert.Spec.c128 := by
  rw [val_main_v77_apply, val_main_v75_apply, val_main_v74_apply, val_main_v76_apply, val_main_cst_14_apply,
    val_main_cst_15_apply]
  have e : ∀ k : Fin 128, idx_main_v74 (idx_main_v75 (ix2 n c)) k = ix2 n k := fun k =>
    funext fun a => Fin.ext (by match a with | ⟨0, _⟩ => rfl | ⟨1, _⟩ => rfl)
  simp only [e, ref_norm1]
  rfl

/-- The second variance. -/
theorem ref_var2 (n : Fin 50000) (c : Fin 1) :
    val_main_v84 (F := Ideal) x0 x1 x2 x3 x4 x5 x6 x7 x8 x11 x12 (ix2 n c)
      = Ideal.div (Cert.Spec.cZero + ∑ k : Fin 128,
          (nrow x0 x1 x2 x3 x4 x5 x6 x7 x8 x11 x12 n k - Ideal.div (Cert.Spec.cZero + ∑ k' : Fin 128, nrow x0 x1 x2 x3 x4 x5 x6 x7 x8 x11 x12 n k') Cert.Spec.c128)
          * (nrow x0 x1 x2 x3 x4 x5 x6 x7 x8 x11 x12 n k - Ideal.div (Cert.Spec.cZero + ∑ k' : Fin 128, nrow x0 x1 x2 x3 x4 x5 x6 x7 x8 x11 x12 n k') Cert.Spec.c128)) Cert.Spec.c128 := by
  rw [val_main_v84_apply, val_main_v82_apply, val_main_v81_apply, val_main_v83_apply, val_main_cst_16_apply,
    val_main_cst_17_apply]
  have e : ∀ k : Fin 128, idx_main_v81 (idx_main_v82 (ix2 n c)) k = ix2 n k := fun k =>
    funext fun a => Fin.ext (by match a with | ⟨0, _⟩ => rfl | ⟨1, _⟩ => rfl)
  have e78 : ∀ k : Fin 128, idx_main_v78 (ix2 n k) = ix2 n (0 : Fin 1) := fun k =>
    funext fun a => Fin.ext (by match a with | ⟨0, _⟩ => rfl | ⟨1, _⟩ => rfl)
  simp only [e, val_main_v80_apply, val_main_v79_apply, val_main_v78_apply, e78, ref_mean2, ref_norm1]
  rfl

/-- The second normalisation of row `n`, at entry `k`. -/
theorem ref_norm2 (n : Fin 50000) (k : Fin 128) :
    val_main_v97 (F := Ideal) x0 x1 x2 x3 x4 x5 x6 x7 x8 x11 x12 x13 x14 (ix2 n k)
      = Cert.Spec.normAt (nrow x0 x1 x2 x3 x4 x5 x6 x7 x8 x11 x12 n) (fun k => x13 (ix1 k)) (fun k => x14 (ix1 k)) k := by
  rw [val_main_v97_apply, val_main_v94_apply, val_main_v91_apply, val_main_v86_apply, val_main_v85_apply,
    val_main_v90_apply, val_main_v89_apply, val_main_v88_apply, val_main_v87_apply, val_main_cst_18_apply,
    val_main_v93_apply, val_main_v92_apply, val_main_v96_apply, val_main_v95_apply]
  have e85 : idx_main_v85 (ix2 n k) = ix2 n (0 : Fin 1) :=
    funext fun a => Fin.ext (by match a with | ⟨0, _⟩ => rfl | ⟨1, _⟩ => rfl)
  have e90 : idx_main_v90 (ix2 n k) = ix2 n (0 : Fin 1) :=
    funext fun a => Fin.ext (by match a with | ⟨0, _⟩ => rfl | ⟨1, _⟩ => rfl)
  have e92 : idx_main_v92 (idx_main_v93 (ix2 n k)) = ix1 k :=
    funext fun a => Fin.ext (by match a with | ⟨0, _⟩ => rfl)
  have e95 : idx_main_v95 (idx_main_v96 (ix2 n k)) = ix1 k :=
    funext fun a => Fin.ext (by match a with | ⟨0, _⟩ => rfl)
  rw [e85, e90, e92, e95, ref_mean2, ref_var2, ref_norm1]
  exact norm_form (nrow x0 x1 x2 x3 x4 x5 x6 x7 x8 x11 x12 n) (fun k => x13 (ix1 k)) (fun k => x14 (ix1 k)) k

/-- The projection of the second normalisation by `Wo`, biased. -/
theorem ref_proj (n : Fin 50000) (j : Fin 128) :
    val_main_v101 (F := Ideal) x0 x1 x2 x3 x4 x5 x6 x7 x8 x9 x10 x11 x12 x13 x14 (ix2 n j)
      = (∑ k : Fin 128, Cert.Spec.normAt (nrow x0 x1 x2 x3 x4 x5 x6 x7 x8 x11 x12 n) (fun k => x13 (ix1 k)) (fun k => x14 (ix1 k)) k * x9 (ix2 k j))
        + x10 (ix1 j) := by
  rw [val_main_v101_apply, val_main_v98_apply, val_main_v100_apply, val_main_v99_apply]
  have el : ∀ k : Fin 128, lidx_main_v98 (ix2 n j) k = ix2 n k := fun k =>
    funext fun a => Fin.ext (by match a with | ⟨0, _⟩ => rfl | ⟨1, _⟩ => rfl)
  have er : ∀ k : Fin 128, ridx_main_v98 (ix2 n j) k = ix2 k j := fun k =>
    funext fun a => Fin.ext (by match a with | ⟨0, _⟩ => rfl | ⟨1, _⟩ => rfl)
  have e99 : idx_main_v99 (idx_main_v100 (ix2 n j)) = ix1 j :=
    funext fun a => Fin.ext (by match a with | ⟨0, _⟩ => rfl)
  simp only [el, er, e99, ref_norm2]
  rfl

/-- The reference's node update at entry `(n, j)` is the kernels' formula. -/
theorem ref_ffn (n : Fin 50000) (j : Fin 128) :
    val_main_v103 (F := Ideal) x0 x1 x2 x3 x4 x5 x6 x7 x8 x9 x10 x11 x12 x13 x14 (ix2 n j)
      = Cert.Spec.ffnAt (fun n k => x0 (ix2 n k))
          (fun n k => val_main_v48 (F := Ideal) x0 x1 x2 x3 x4 x5 x6 x7 x8 (ix2 n k))
          (fun k => x11 (ix1 k)) (fun k => x12 (ix1 k)) (fun k => x13 (ix1 k)) (fun k => x14 (ix1 k))
          (fun k => x10 (ix1 k)) (fun k j => x9 (ix2 k j)) n j := by
  rw [val_main_v103_apply, val_main_v102_apply, val_main_call1_v0_apply, val_main_call1_cst_apply, ref_norm1, ref_proj]
  rfl

end Reading

end Cert.Bridge

end
-- ==== Proof.TakeMask.lean ====
/-
  A row gather with wrap-around and fill wraps a negative index by the axis size 50000, gathers, and replaces a row
  whose wrapped index is outside [0, 49999] by a fill value. For indices already in [0, 50000) the wrap is the
  identity (the word is not signed-below zero), both range tests of the wrapped index come out 1, their "and"
  folded over the size-one second axis of the [800000, 1] column stays 1, so the keep-mask is 1 at every entry
  and the select returns the gathered rows.
-/
import proofs.«429932_j30906584662329_2_alg».proof.Proof.TakeDefs
import Idealize.ShloMosaic.Lib.ValueIdx
import Idealize.ShloMosaic.PureOps.Reduce

noncomputable section

namespace Cert.Bridge

open Cert.KernelIdeal Idealize.ShloMosaic Idealize.ShloMosaic.ValueIdx
open Cert.KernelIdeal.Facts₀ Cert.KernelIdeal.Facts

/-! ## Signed comparisons of a word in range -/

theorem ofBool_true_eq : BitVec.ofBool true = 1#1 := rfl
theorem ofBool_false_eq : BitVec.ofBool false = 0#1 := rfl

/-- A word of non-negative signed value is not signed-below the zero word. -/
theorem cmpi_slt_zero_of_nonneg {w : BitVec 32} (h : 0 ≤ w.toInt) : IntOp.cmpi .slt w 0#32 = 0#1 := by
  have h0 : (0#32 : BitVec 32).toInt = 0 := by decide
  have hb : w.slt 0#32 = false := by
    simp only [BitVec.slt, h0, decide_eq_false_iff_not, not_lt]; exact h
  unfold IntOp.cmpi
  simp only [hb]; rfl

/-- A word of non-negative signed value is signed-at-least the zero word. -/
theorem cmpi_sge_zero_of_nonneg {w : BitVec 32} (h : 0 ≤ w.toInt) : IntOp.cmpi .sge w 0#32 = 1#1 := by
  have h0 : (0#32 : BitVec 32).toInt = 0 := by decide
  have hb : (0#32 : BitVec 32).sle w = true := by
    simp only [BitVec.sle, h0, decide_eq_true_eq]; exact h
  unfold IntOp.cmpi
  simp only [hb]; rfl

/-- A word of signed value below 50000 is signed-at-most the word 49999. -/
theorem cmpi_sle_of_lt {w : BitVec 32} (h : w.toInt < 50000) : IntOp.cmpi .sle w 49999#32 = 1#1 := by
  have h0 : (49999#32 : BitVec 32).toInt = 49999 := by decide
  have hb : w.sle 49999#32 = true := by
    simp only [BitVec.sle, h0, decide_eq_true_eq]; omega
  unfold IntOp.cmpi
  simp only [hb]; rfl

/-! ## A fold by "and" of ones from one is one -/

theorem foldl_andi_one {ι : Type} (f : ι → BitVec 1) :
    ∀ (l : List ι), (∀ n ∈ l, f n = 1#1) → l.foldl (fun r n => IntOp.andi r (f n)) 1#1 = 1#1
  | [], _ => rfl
  | a :: l, hl => by
    rw [List.foldl_cons, hl a (List.mem_cons_self ..)]
    exact foldl_andi_one f l (fun n hn => hl n (List.mem_cons_of_mem _ hn))

/-- A reduction by "and" from the initial value 1 of an array of ones is 1 at every result index. -/
theorem reduce_andi_one_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x _ (fun n _ => hx n)

variable [Cert.KernelIdeal.Facts]

/-! ## The wrapped index and the keep-mask for indices in range -/

/-- Every index of the [800000] vector is `ix1` of its coordinate: the range hypothesis at any index. -/
theorem range_at (s : IVec S800000 32) (hs : ∀ e : Fin 800000, 0 ≤ (s (ix1 e)).toInt ∧ (s (ix1 e)).toInt < 50000)
    (i : S800000.Idx) : 0 ≤ (s i).toInt ∧ (s i).toInt < 50000 := by
  rw [eq_ix1 i]; exact hs (i 0)

/-- The wrap of an index of non-negative signed value is the index. -/
theorem wrap_apply (s : IVec S800000 32) (i : S800000.Idx) (h0 : 0 ≤ (s i).toInt) :
    select (cmpi .slt s (broadcastInDim S800000 ![] bcast_S_S800000 (constantI S_ 32 0#32)))
      (addi s (broadcastInDim S800000 ![] bcast_S_S800000 (constantI S_ 32 50000#32))) s i = s i := by
  show Scalar.select (IntOp.cmpi .slt (s i) 0#32) (IntOp.addi (s i) 50000#32) (s i) = s i
  rw [cmpi_slt_zero_of_nonneg h0]
  exact if_neg (by decide)

/-- The wrapped index column reads, at every entry, some entry of the index vector. -/
theorem takeIdx_at (s : IVec S800000 32) (hs : ∀ e : Fin 800000, 0 ≤ (s (ix1 e)).toInt ∧ (s (ix1 e)).toInt < 50000)
    (k : S800000x1.Idx) : ∃ i : S800000.Idx, takeIdx s k = s i :=
  ⟨_, wrap_apply s _ (range_at s hs _).1⟩

/-- The wrapped index column at row `e` is the index vector's entry `e`. -/
theorem takeIdx_apply (s : IVec S800000 32) (hs : ∀ e : Fin 800000, 0 ≤ (s (ix1 e)).toInt ∧ (s (ix1 e)).toInt < 50000)
    (e : Fin 800000) (z : Fin 1) : takeIdx s (ix2 e z) = s (ix1 e) := by
  refine (wrap_apply s _ (range_at s hs _).1).trans ?_
  congr 1
  funext a
  match a with
  | ⟨0, _⟩ =>
    apply Fin.ext
    split
    · next h1 => change 800000 = 1 at h1; omega
    · rfl

/-- THE KEEP-MASK IS ALL ONES for indices in [0, 50000). -/
theorem takeMask_one (s : IVec S800000 32) (hs : ∀ e : Fin 800000, 0 ≤ (s (ix1 e)).toInt ∧ (s (ix1 e)).toInt < 50000) :
    takeMask s = fun _ => 1#1 := by
  funext j
  unfold takeMask
  dsimp only [broadcastInDim]
  refine reduce_andi_one_of_all _ _ _ _ _ rfl (fun k => ?_)
  obtain ⟨i, hi⟩ := takeIdx_at s hs k
  show IntOp.andi (IntOp.cmpi .sge (takeIdx s k) 0#32) (IntOp.cmpi .sle (takeIdx s k) 49999#32) = 1#1
  rw [hi, cmpi_sge_zero_of_nonneg (range_at s hs i).1, cmpi_sle_of_lt (range_at s hs i).2]
  rfl

/-- THE FILL NEVER APPLIES: for indices in [0, 50000) the masked gather is the gather. -/
theorem take_eq_gather {F : FTy → Type} [FloatOps F] (s : IVec S800000 32)
    (hs : ∀ e : Fin 800000, 0 ≤ (s (ix1 e)).toInt ∧ (s (ix1 e)).toInt < 50000) (X : FVec F S50000x8x16 .f32) :
    select (takeMask s) (Host.gather gather_S50000x8x16_S800000x1_S800000x8x16_12_0_n_n_0_1_1816 X (takeIdx s))
        (broadcastInDim S800000x8x16 ![] bcast_S_S800000x8x16 (constant (F := F) S_ .f32 0x7FC00000#32))
      = Host.gather gather_S50000x8x16_S800000x1_S800000x8x16_12_0_n_n_0_1_1816 X (takeIdx s) := by
  rw [takeMask_one s hs]
  funext j
  show Scalar.select 1#1 _ _ = _
  exact if_pos rfl

end Cert.Bridge

end
-- ==== Proof.LibGatherScatter.lean ====
/-
  STABLEHLO'S GATHER AND SCATTER READ AT AN INDEX, for the dimension numbers that indexing an array by an integer
  array lowers to.

  `x[idx]` of a vector or of a matrix's rows is a `stablehlo.gather` whose start indices are a column `[M, 1]`;
  `x.at[idx].add(v)` of a vector, of a matrix's rows, or of a matrix at index pairs is a `stablehlo.scatter` with an
  `add` body whose scatter indices are a column `[M, 1]` or pairs `[M, 2]`. For each of these five dimension-number
  shapes this file builds the record from the sizes (`vecGatherDims`, `rowGatherDims`, `vecScatterDims`,
  `rowScatterDims`, `pairScatterDims`) and reads the operation at an index:

  * a gather's result element is the operand's at the start index, read SIGNED and CLAMPED into the operand
    (`vecGather_apply`, `rowGather_apply`);
  * a scatter's update lands on an operand element exactly when its index, read SIGNED and NOT clamped, is that
    element's (`vecScatter_resultIdx`, `rowScatter_resultIdx`, `pairScatter_resultIdx`); an update whose index is
    outside the operand lands nowhere;
  * so, over the extended reals, an accumulating scatter's result element is the operand's plus the sum of the updates
    whose index is that element's (`vecScatterAdd_apply`, `rowScatterAdd_apply`, `pairScatterAdd_apply`).
-/
import Idealize.ShloMosaic.PureOps.Ideal
import Idealize.ShloMosaic.Lib.ValueIdx

noncomputable section

open scoped BigOperators

namespace Idealize.ShloMosaic.GatherScatter

open Idealize.ShloMosaic Idealize.ShloMosaic.ValueIdx

/-! ## A scatter's result index, in general -/

section General
variable {s si u : Shape}

/-- An axis among the removed ones is not among the kept ones. -/
theorem not_mem_kept {axes : List (Fin s.rank)} {a : Fin s.rank} (h : a ∈ axes) : a ∉ s.kept axes := by
  intro hk
  have := (List.mem_filter.mp hk).2
  simp only [decide_not, Bool.not_eq_eq_eq_not, Bool.not_true, decide_eq_false_iff_not] at this
  exact this h

/-- An axis not among the removed ones is among the kept ones. -/
theorem mem_kept {axes : List (Fin s.rank)} {a : Fin s.rank} (h : a ∉ axes) : a ∈ s.kept axes :=
  List.mem_filter.mpr ⟨List.mem_finRange a, by simpa using h⟩

/-- An update lands on operand index `i` exactly when, on every operand axis, its start plus its window
    coordinate is `i`'s coordinate: the in-range test of `ScatterDims.resultIdx?` is then `i`'s own range. -/
theorem resultIdx?_eq_some_iff (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro he a
      have hi := congrFun (Option.some.inj he) a
      have hv := congrArg Fin.val hi
      simp only at hv
      have := (h a).1
      omega
    · intro H
      congr 1
      funext a
      refine Fin.ext ?_
      have := H a
      simp only
      omega
  · rename_i h
    constructor
    · intro he; cases he
    · intro H
      exfalso
      apply h
      intro a
      have := H a
      have := (i a).isLt
      omega

variable {t : Shape}

/-- A gather's operand index on an axis is the clamped start plus the batching coordinate plus the offset
    coordinate. -/
theorem operandIdx_val (d : GatherDims s si t) {w : Nat} (j : t.Idx) (idx : IVec si w) (a : Fin s.rank) :
    (d.operandIdx j idx a).val = d.start j idx a + d.batchCoord j a + d.offCoord j a := rfl

/-- A gather without batching axes has no batching coordinate. -/
theorem batchCoord_of_nil (d : GatherDims s si t) (h : d.operandBatchingDims = []) (j : t.Idx) (a : Fin s.rank) :
    d.batchCoord j a = 0 :=
  d.batchCoord_eq_zero j a (by rw [h]; exact List.not_mem_nil)

/-- On a collapsed axis a gather has no offset coordinate. -/
theorem offCoord_of_collapsed (d : GatherDims s si t) (j : t.Idx) {a : Fin s.rank} (h : a ∈ d.collapsedSliceDims) :
    d.offCoord j a = 0 :=
  d.offCoord_eq_zero j a fun hk => ((d.mem_sKept a).mp hk).1 h

end General

/-! ## Scalars scattered into a vector by a column of indices

What `x.at[idx].add(v)` of a vector `x : [N]` at `idx : [M]` lowers to: scatter indices `[M, 1]`, updates `[M]`,
update_window_dims `[]`, inserted_window_dims `[0]`, scatter_dims_to_operand_dims `[0]`, index_vector_dim 1. -/

section VecScatter

/-- Those dimension numbers for an operand `[N]`, scatter indices `[M, 1]` and updates `[M]`; their conditions
    `wf` are decided on a program's literal shapes. -/
abbrev vecScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

variable {N M w : Nat} (wf : ScatterDims.WF ⟨1, ![N]⟩ ⟨2, ![M, 1]⟩ ⟨1, ![M]⟩ [] [0] [0] 1)

/-- Update `j`'s window starts, on the operand's one axis, at the index `idx[j, 0]` read signed. -/
theorem vecScatter_start (idx : IVec ⟨2, ![M, 1]⟩ w) (j : Fin M) (a : Fin (⟨1, ![N]⟩ : Shape).rank) :
    (vecScatterDims N M wf).start (ix1 j) idx a = (idx (ix2 j 0)).toInt := by
  obtain rfl : a = 0 := Subsingleton.elim _ _
  unfold ScatterDims.start
  rw [dif_pos (show (0 : Fin 1) ∈ (vecScatterDims N M wf).scatterDimsToOperandDims from List.mem_singleton.mpr rfl)]
  have hsi : (vecScatterDims N M wf).siIdx (ix1 j) ⟨List.idxOf (0 : Fin 1) (vecScatterDims N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- The updates are scalars: the window coordinate is `0`. -/
theorem vecScatter_window (j : (⟨1, ![M]⟩ : Shape).Idx) (a : Fin (⟨1, ![N]⟩ : Shape).rank) :
    (vecScatterDims N M wf).window j a = 0 := by
  obtain rfl : a = 0 := Subsingleton.elim _ _
  unfold ScatterDims.window
  rw [dif_neg (not_mem_kept (List.mem_singleton.mpr rfl))]

/-- UPDATE `j` LANDS ON ELEMENT `i` exactly when its index `idx[j, 0]`, read signed, is `i`. -/
theorem vecScatter_resultIdx (idx : IVec ⟨2, ![M, 1]⟩ w) (j : Fin M) (i : Fin N) :
    (vecScatterDims N M wf).resultIdx? (ix1 j) idx = some (ix1 i) ↔ (idx (ix2 j 0)).toInt = (i.val : Int) := by
  rw [resultIdx?_eq_some_iff]
  constructor
  · intro H
    have := H 0
    rw [vecScatter_start, vecScatter_window, Nat.cast_zero, add_zero] at this
    exact this
  · intro H a
    obtain rfl : a = 0 := Subsingleton.elim _ _
    rw [vecScatter_start, vecScatter_window, Nat.cast_zero, add_zero]
    exact H

end VecScatter

/-! ## A vector gathered by a column of indices

What `x[idx]` of a vector `x : [N]` at `idx : [M]` lowers to: start indices `[M, 1]`, result `[M]`, offset_dims
`[]`, collapsed_slice_dims `[0]`, start_index_map `[0]`, index_vector_dim 1, slice_sizes `[1]`. -/

section VecGather
variable {α : Type}

/-- Those dimension numbers for an operand `[N]`, start indices `[M, 1]` and result `[M]`; their conditions `wf`
    are decided on a program's literal shapes. -/
abbrev vecGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

variable {N M w : Nat} (wf : GatherDims.WF ⟨1, ![N]⟩ ⟨2, ![M, 1]⟩ ⟨1, ![M]⟩ [] [0] [] [0] [] 1 ![1])

/-- Result element `j`'s slice starts, on the operand's one axis, at the index `idx[j, 0]` read signed and clamped
    into `[0, N − 1]`. -/
theorem vecGather_start (idx : IVec ⟨2, ![M, 1]⟩ w) (j : Fin M) (a : Fin (⟨1, ![N]⟩ : Shape).rank) :
    (vecGatherDims N M wf).start (ix1 j) idx a = min (idx (ix2 j 0)).toInt.toNat (N - 1) := by
  obtain rfl : a = 0 := Subsingleton.elim _ _
  have hmem : (0 : Fin 1) ∈ (vecGatherDims N M wf).startIndexMap := List.mem_singleton.mpr rfl
  have hsi : (vecGatherDims N M wf).siIdx (ix1 j) ⟨List.idxOf (0 : Fin 1) (vecGatherDims N M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- THE GATHER READ AT `j`: the operand at the start index `idx[j, 0]`, read signed and clamped into
    `[0, N − 1]`. -/
theorem vecGather_apply (hN : 0 < N) (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (vecGatherDims N M wf) x idx (ix1 j) = x (ix1 ⟨min (idx (ix2 j 0)).toInt.toNat (N - 1), by omega⟩) := by
  unfold Host.gather
  congr 1
  funext a
  refine Fin.ext ?_
  rw [operandIdx_val, vecGather_start, batchCoord_of_nil _ rfl,
    offCoord_of_collapsed _ _ (by obtain rfl : a = 0 := Subsingleton.elim _ _; exact List.mem_singleton.mpr rfl)]
  obtain rfl : a = 0 := Subsingleton.elim _ _
  rfl

end VecGather

/-! ## Scalars scattered into a matrix by index pairs

What `x.at[r, c].add(v)` of a matrix `x : [N, N']` at `r, c : [M]` lowers to: scatter indices `[M, 2]` (the pairs
`(r[j], c[j])`), updates `[M]`, update_window_dims `[]`, inserted_window_dims `[0, 1]`,
scatter_dims_to_operand_dims `[0, 1]`, index_vector_dim 1. -/

section PairScatter

/-- Those dimension numbers for an operand `[N, N']`, scatter indices `[M, 2]` and updates `[M]`; their conditions
    `wf` are decided on a program's literal shapes. -/
abbrev pairScatterDims (N N' M : Nat) (wf : ScatterDims.WF ⟨2, ![N, N']⟩ ⟨2, ![M, 2]⟩ ⟨1, ![M]⟩ [] [0, 1] [0, 1] 1) :
    ScatterDims ⟨2, ![N, N']⟩ ⟨2, ![M, 2]⟩ ⟨1, ![M]⟩ where
  updateWindowDims := []
  insertedWindowDims := [0, 1]
  scatterDimsToOperandDims := [0, 1]
  indexVectorDim := 1
  wf := wf

variable {N N' M w : Nat} (wf : ScatterDims.WF ⟨2, ![N, N']⟩ ⟨2, ![M, 2]⟩ ⟨1, ![M]⟩ [] [0, 1] [0, 1] 1)

/-- Update `j`'s window starts, on the operand's row axis, at the index `idx[j, 0]` read signed. -/
theorem pairScatter_start0 (idx : IVec ⟨2, ![M, 2]⟩ w) (j : Fin M) :
    (pairScatterDims N N' M wf).start (ix1 j) idx 0 = (idx (ix2 j 0)).toInt := by
  have hmem : (0 : Fin 2) ∈ (pairScatterDims N N' M wf).scatterDimsToOperandDims :=
    (by decide : (0 : Fin 2) ∈ ([0, 1] : List (Fin 2)))
  have hsi : (pairScatterDims N N' M wf).siIdx (ix1 j) ⟨List.idxOf (0 : Fin 2) (pairScatterDims N N' M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- Update `j`'s window starts, on the operand's column axis, at the index `idx[j, 1]` read signed. -/
theorem pairScatter_start1 (idx : IVec ⟨2, ![M, 2]⟩ w) (j : Fin M) :
    (pairScatterDims N N' M wf).start (ix1 j) idx 1 = (idx (ix2 j 1)).toInt := by
  have hmem : (1 : Fin 2) ∈ (pairScatterDims N N' M wf).scatterDimsToOperandDims :=
    (by decide : (1 : Fin 2) ∈ ([0, 1] : List (Fin 2)))
  have hsi : (pairScatterDims N N' M wf).siIdx (ix1 j) ⟨List.idxOf (1 : Fin 2) (pairScatterDims N N' M wf).scatterDimsToOperandDims,
      List.idxOf_lt_length_iff.2 hmem⟩ = ix2 j 1 := by
    funext b; refine Fin.ext ?_
    match b with
    | ⟨0, _⟩ => rfl
    | ⟨1, _⟩ => rfl
  unfold ScatterDims.start
  rw [dif_pos hmem, hsi]

/-- The updates are scalars: the window coordinate is `0` on both axes. -/
theorem pairScatter_window (j : (⟨1, ![M]⟩ : Shape).Idx) (a : Fin (⟨2, ![N, N']⟩ : Shape).rank) :
    (pairScatterDims N N' M wf).window j a = 0 := by
  unfold ScatterDims.window
  rw [dif_neg (not_mem_kept (by
    match a with
    | ⟨0, _⟩ => exact (by decide : (0 : Fin 2) ∈ ([0, 1] : List (Fin 2)))
    | ⟨1, _⟩ => exact (by decide : (1 : Fin 2) ∈ ([0, 1] : List (Fin 2)))))]

/-- UPDATE `j` LANDS ON ELEMENT `(i, i')` exactly when its index pair `(idx[j, 0], idx[j, 1])`, read signed, is
    `(i, i')`. -/
theorem pairScatter_resultIdx (idx : IVec ⟨2, ![M, 2]⟩ w) (j : Fin M) (i : Fin N) (i' : Fin N') :
    (pairScatterDims N N' M wf).resultIdx? (ix1 j) idx = some (ix2 i i') ↔
      ((idx (ix2 j 0)).toInt = (i.val : Int) ∧ (idx (ix2 j 1)).toInt = (i'.val : Int)) := by
  rw [resultIdx?_eq_some_iff]
  constructor
  · intro H
    have h0 := H 0
    have h1 := H 1
    rw [pairScatter_start0, pairScatter_window, Nat.cast_zero, add_zero] at h0
    rw [pairScatter_start1, pairScatter_window, Nat.cast_zero, add_zero] at h1
    exact ⟨h0, h1⟩
  · intro H a
    match a with
    | ⟨0, _⟩ =>
      show (pairScatterDims N N' M wf).start (ix1 j) idx 0 + ((pairScatterDims N N' M wf).window (ix1 j) 0 : Int) = _
      rw [pairScatter_start0, pairScatter_window, Nat.cast_zero, add_zero]
      exact H.1
    | ⟨1, _⟩ =>
      show (pairScatterDims N N' M wf).start (ix1 j) idx 1 + ((pairScatterDims N N' M wf).window (ix1 j) 1 : Int) = _
      rw [pairScatter_start1, pairScatter_window, Nat.cast_zero, add_zero]
      exact H.2

end PairScatter

/-! ## Rows scattered into a matrix by a column of indices

What `x.at[idx].add(v)` of a matrix `x : [N, C]` at `idx : [M]` with `v : [M, C]` lowers to: scatter indices
`[M, 1]`, updates `[M, C]`, update_window_dims `[1]`, inserted_window_dims `[0]`, scatter_dims_to_operand_dims
`[0]`, index_vector_dim 1. -/

section RowScatter

/-- Those dimension numbers for an operand `[N, C]`, scatter indices `[M, 1]` and updates `[M, C]`; their
    conditions `wf` are decided on a program's literal shapes. -/
abbrev rowScatterDims (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N C M w : Nat} (wf : ScatterDims.WF ⟨2, ![N, C]⟩ ⟨2, ![M, 1]⟩ ⟨2, ![M, C]⟩ [1] [0] [0] 1)

/-- Update `(j, f)`'s window starts, on the operand's row axis, at the index `idx[j, 0]` read signed. -/
theorem rowScatter_start0 (idx : IVec ⟨2, ![M, 1]⟩ w) (j : Fin M) (f : Fin C) :
    (rowScatterDims N C M wf).start (ix2 j f) idx 0 = (idx (ix2 j 0)).toInt := by
  have hmem : (0 : Fin 2) ∈ (rowScatterDims N C M wf).scatterDimsToOperandDims := List.mem_singleton.mpr rfl
  have hsi : (rowScatterDims N C M wf).siIdx (ix2 j f) ⟨List.idxOf (0 : Fin 2) (rowScatterDims N C M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- The scatter indices name no column: on the operand's column axis the window starts at `0`. -/
theorem rowScatter_start1 (idx : IVec ⟨2, ![M, 1]⟩ w) (j : (⟨2, ![M, C]⟩ : Shape).Idx) :
    (rowScatterDims N C M wf).start j idx 1 = 0 := by
  unfold ScatterDims.start
  rw [dif_neg (by decide : (1 : Fin 2) ∉ ([0] : List (Fin 2)))]

/-- The row axis is inserted: the window coordinate on it is `0`. -/
theorem rowScatter_window0 (j : (⟨2, ![M, C]⟩ : Shape).Idx) : (rowScatterDims N C M wf).window j 0 = 0 := by
  unfold ScatterDims.window
  rw [dif_neg (not_mem_kept (List.mem_singleton.mpr rfl))]

/-- The window coordinate on the operand's column axis is the update's column. -/
theorem rowScatter_window1 (j : Fin M) (f : Fin C) : (rowScatterDims N C M wf).window (ix2 j f) 1 = f.val := by
  unfold ScatterDims.window
  rw [dif_pos (mem_kept (by decide : (1 : Fin 2) ∉ ([0] : List (Fin 2))))]
  rfl

/-- UPDATE `(j, f)` LANDS ON ELEMENT `(i, g)` exactly when its row's index `idx[j, 0]`, read signed, is `i` and its
    column `f` is `g`. -/
theorem rowScatter_resultIdx (idx : IVec ⟨2, ![M, 1]⟩ w) (j : Fin M) (f : Fin C) (i : Fin N) (g : Fin C) :
    (rowScatterDims N C M wf).resultIdx? (ix2 j f) idx = some (ix2 i g) ↔
      ((idx (ix2 j 0)).toInt = (i.val : Int) ∧ f = g) := by
  rw [resultIdx?_eq_some_iff]
  constructor
  · intro H
    have h0 := H 0
    have h1 := H 1
    rw [rowScatter_start0, rowScatter_window0, Nat.cast_zero, add_zero] at h0
    rw [rowScatter_start1, rowScatter_window1, zero_add] at h1
    exact ⟨h0, Fin.ext (Int.ofNat_inj.mp h1)⟩
  · intro H a
    match a with
    | ⟨0, _⟩ =>
      show (rowScatterDims N C M wf).start (ix2 j f) idx 0 + ((rowScatterDims N C M wf).window (ix2 j f) 0 : Int) = _
      rw [rowScatter_start0, rowScatter_window0, Nat.cast_zero, add_zero]
      exact H.1
    | ⟨1, _⟩ =>
      show (rowScatterDims N C M wf).start (ix2 j f) idx 1 + ((rowScatterDims N C M wf).window (ix2 j f) 1 : Int) = _
      rw [rowScatter_start1, rowScatter_window1, zero_add, H.2]

end RowScatter

/-! ## Rows of a matrix gathered by a column of indices

What `x[idx]` of a matrix `x : [N, C]` at `idx : [M]` lowers to: start indices `[M, 1]`, result `[M, C]`,
offset_dims `[1]`, collapsed_slice_dims `[0]`, start_index_map `[0]`, index_vector_dim 1, slice_sizes `[1, C]`. -/

section RowGather
variable {α : Type}

/-- Those dimension numbers for an operand `[N, C]`, start indices `[M, 1]` and result `[M, C]`; their conditions
    `wf` are decided on a program's literal shapes. -/
abbrev rowGatherDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

variable {N C M w : Nat} (wf : GatherDims.WF ⟨2, ![N, C]⟩ ⟨2, ![M, 1]⟩ ⟨2, ![M, C]⟩ [1] [0] [] [0] [] 1 ![1, C])

/-- Result element `(j, f)`'s slice starts, on the operand's row axis, at the index `idx[j, 0]` read signed and
    clamped into `[0, N − 1]`. -/
theorem rowGather_start0 (idx : IVec ⟨2, ![M, 1]⟩ w) (j : Fin M) (f : Fin C) :
    (rowGatherDims N C M wf).start (ix2 j f) idx 0 = min (idx (ix2 j 0)).toInt.toNat (N - 1) := by
  have hmem : (0 : Fin 2) ∈ (rowGatherDims N C M wf).startIndexMap := List.mem_singleton.mpr rfl
  have hsi : (rowGatherDims N C M wf).siIdx (ix2 j f) ⟨List.idxOf (0 : Fin 2) (rowGatherDims N C M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- The start indices name no column: on the operand's column axis the slice starts at `0`. -/
theorem rowGather_start1 (idx : IVec ⟨2, ![M, 1]⟩ w) (j : (⟨2, ![M, C]⟩ : Shape).Idx) :
    (rowGatherDims N C M wf).start j idx 1 = 0 := by
  unfold GatherDims.start
  rw [dif_neg (by decide : (1 : Fin 2) ∉ ([0] : List (Fin 2)))]

/-- The offset coordinate on the operand's column axis is the result's column. -/
theorem rowGather_offCoord1 (j : Fin M) (f : Fin C) : (rowGatherDims N C M wf).offCoord (ix2 j f) 1 = f.val := by
  unfold GatherDims.offCoord
  rw [dif_pos (mem_kept (by decide : (1 : Fin 2) ∉ ([0] ++ [] : List (Fin 2))))]
  rfl

/-- THE GATHER READ AT `(j, f)`: column `f` of the operand's row at the start index `idx[j, 0]`, read signed and
    clamped into `[0, N − 1]`. -/
theorem rowGather_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M)
    (f : Fin C) :
    Host.gather (rowGatherDims N C M wf) x idx (ix2 j f)
      = x (ix2 ⟨min (idx (ix2 j 0)).toInt.toNat (N - 1), by omega⟩ f) := by
  unfold Host.gather
  congr 1
  funext a
  refine Fin.ext ?_
  rw [operandIdx_val, batchCoord_of_nil _ rfl, Nat.add_zero]
  match a with
  | ⟨0, _⟩ =>
    show (rowGatherDims N C M wf).start (ix2 j f) idx 0 + (rowGatherDims N C M wf).offCoord (ix2 j f) 0 = _
    rw [rowGather_start0, offCoord_of_collapsed _ _ (List.mem_singleton.mpr rfl)]
    rfl
  | ⟨1, _⟩ =>
    show (rowGatherDims N C M wf).start (ix2 j f) idx 1 + (rowGatherDims N C M wf).offCoord (ix2 j f) 1 = _
    rw [rowGather_start1, rowGather_offCoord1, Nat.zero_add]

end RowGather

/-! ## The accumulating scatters over the extended reals

At the ideal instance an accumulating scatter (`Host.scatterAdd`) is each operand element plus the sum of the updates
that land on it; by the landing conditions above, the sum over the updates whose index is that element's. -/

section Sums

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

variable {φ : FTy}

/-- SCALARS ACCUMULATED INTO A VECTOR, read at `i`: the operand's element plus the sum of the updates whose index
    `idx[j, 0]`, read signed, is `i`. -/
theorem vecScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Host.scatterAdd (F := Ideal) (φ := φ) (vecScatterDims N M wf) x idx upd (ix1 i)
      = x (ix1 i) + ∑ j ∈ Finset.univ.filter (fun j : Fin M => (idx (ix2 j 0)).toInt = (i.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (vecScatter_resultIdx wf idx j i) rfl rfl

/-- SCALARS ACCUMULATED INTO A MATRIX BY INDEX PAIRS, read at `(i, i')`: the operand's element plus the sum of the
    updates whose index pair `(idx[j, 0], idx[j, 1])`, read signed, is `(i, i')`. -/
theorem pairScatterAdd_apply {N N' M w : Nat}
    (wf : ScatterDims.WF ⟨2, ![N, N']⟩ ⟨2, ![M, 2]⟩ ⟨1, ![M]⟩ [] [0, 1] [0, 1] 1)
    (x : (⟨2, ![N, N']⟩ : Shape).Idx → EReal) (idx : IVec ⟨2, ![M, 2]⟩ w) (upd : (⟨1, ![M]⟩ : Shape).Idx → EReal)
    (i : Fin N) (i' : Fin N') :
    Host.scatterAdd (F := Ideal) (φ := φ) (pairScatterDims N N' M wf) x idx upd (ix2 i i')
      = x (ix2 i i') + ∑ j ∈ Finset.univ.filter (fun j : Fin M =>
          (idx (ix2 j 0)).toInt = (i.val : Int) ∧ (idx (ix2 j 1)).toInt = (i'.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (pairScatter_resultIdx wf idx j i i') rfl rfl

/-- ROWS ACCUMULATED INTO A MATRIX, read at `(i, g)`: the operand's element plus the sum of column `g` of the
    update rows whose index `idx[j, 0]`, read signed, is `i`. -/
theorem rowScatterAdd_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (i : Fin N) (g : Fin C) :
    Host.scatterAdd (F := Ideal) (φ := φ) (rowScatterDims N C M wf) x idx upd (ix2 i g)
      = x (ix2 i g) + ∑ j ∈ Finset.univ.filter (fun j : Fin M => (idx (ix2 j 0)).toInt = (i.val : Int)), upd (ix2 j g) := by
  simp only [Host.scatterAdd, Ideal.hostScatterAdd_def, Ideal.hostScatterAdd]
  congr 1
  rw [Finset.sum_filter, Finset.sum_filter, sum_idx2]
  refine Finset.sum_congr rfl fun j _ => ?_
  rw [Finset.sum_congr rfl fun f _ => if_congr (rowScatter_resultIdx wf idx j f i g) rfl rfl]
  by_cases h : (idx (ix2 j 0)).toInt = (i.val : Int)
  · simp only [h, true_and, if_true]
    rw [Finset.sum_ite_eq']
    simp only [Finset.mem_univ, if_true]
  · simp only [h, false_and, if_false, Finset.sum_const_zero]

end Sums

end Idealize.ShloMosaic.GatherScatter

end
-- ==== Proof.LibGatherScatter3.lean ====
/-
  STABLEHLO'S SCATTER OF SLABS INTO A RANK-3 ARRAY, READ AT AN INDEX.

  `x.at[idx].add(v)` of a rank-3 array `x : [N, A, B]` at `idx : [M]` with `v : [M, A, B]` is a `stablehlo.scatter` with
  an `add` body whose scatter indices are a column `[M, 1]` and whose updates are the slabs `v[j, :, :]`. This file
  builds that dimension-number record from the sizes (`slabScatterDims`) and reads the operation at an index, as the
  rank-2 file does for rows scattered into a matrix:

  * slab element `(j, f, g)` lands on operand element `(i, f', g')` exactly when slab `j`'s index, read SIGNED and NOT
    clamped, is `i` and `(f, g) = (f', g')` (`slabScatter_resultIdx`); a slab whose index is outside the operand lands
    nowhere;
  * so, over the extended reals, the accumulating scatter's element `(i, f, g)` is the operand's plus the sum of
    element `(f, g)` of the slabs whose index is `i` (`slabScatterAdd_apply`).

  A sum over a rank-3 index set is the triple sum over its coordinates (`idxEquiv3`, `sum_idx3`).
-/
import proofs.«429932_j30906584662329_2_alg».proof.Proof.LibGatherScatter

noncomputable section

open scoped BigOperators

namespace Idealize.ShloMosaic.GatherScatter

open Idealize.ShloMosaic Idealize.ShloMosaic.ValueIdx

/-! ## A sum over a rank-3 index set -/

section Sum3

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {R : Type*} [AddCommMonoid R] {n0 n1 n2 : Nat} (f : (⟨3, ![n0, n1, n2]⟩ : Shape).Idx → R) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Sum3

/-! ## Slabs scattered into a rank-3 array by a column of indices

What `x.at[idx].add(v)` of `x : [N, A, B]` at `idx : [M]` with `v : [M, A, B]` lowers to: scatter indices `[M, 1]`,
updates `[M, A, B]`, update_window_dims `[1, 2]`, inserted_window_dims `[0]`, scatter_dims_to_operand_dims `[0]`,
index_vector_dim 1. -/

section SlabScatter

/-- Those dimension numbers for an operand `[N, A, B]`, scatter indices `[M, 1]` and updates `[M, A, B]`; their
    conditions `wf` are decided on a program's literal shapes. -/
abbrev slabScatterDims (N A B M : Nat)
    (wf : ScatterDims.WF ⟨3, ![N, A, B]⟩ ⟨2, ![M, 1]⟩ ⟨3, ![M, A, B]⟩ [1, 2] [0] [0] 1) :
    ScatterDims ⟨3, ![N, A, B]⟩ ⟨2, ![M, 1]⟩ ⟨3, ![M, A, B]⟩ where
  updateWindowDims := [1, 2]
  insertedWindowDims := [0]
  scatterDimsToOperandDims := [0]
  indexVectorDim := 1
  wf := wf

variable {N A B M w : Nat} (wf : ScatterDims.WF ⟨3, ![N, A, B]⟩ ⟨2, ![M, 1]⟩ ⟨3, ![M, A, B]⟩ [1, 2] [0] [0] 1)

/-- Update `(j, f, g)`'s window starts, on the operand's leading axis, at the index `idx[j, 0]` read signed. -/
theorem slabScatter_start0 (idx : IVec ⟨2, ![M, 1]⟩ w) (j : Fin M) (f : Fin A) (g : Fin B) :
    (slabScatterDims N A B M wf).start (ix3 j f g) idx 0 = (idx (ix2 j 0)).toInt := by
  have hmem : (0 : Fin 3) ∈ (slabScatterDims N A B M wf).scatterDimsToOperandDims := List.mem_singleton.mpr rfl
  have hsi : (slabScatterDims N A B M wf).siIdx (ix3 j f g)
      ⟨List.idxOf (0 : Fin 3) (slabScatterDims N A B M wf).scatterDimsToOperandDims,
        List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- The scatter indices name no slab row: on the operand's middle axis the window starts at `0`. -/
theorem slabScatter_start1 (idx : IVec ⟨2, ![M, 1]⟩ w) (j : (⟨3, ![M, A, B]⟩ : Shape).Idx) :
    (slabScatterDims N A B M wf).start j idx 1 = 0 := by
  unfold ScatterDims.start
  rw [dif_neg (by decide : (1 : Fin 3) ∉ ([0] : List (Fin 3)))]

/-- The scatter indices name no slab column: on the operand's last axis the window starts at `0`. -/
theorem slabScatter_start2 (idx : IVec ⟨2, ![M, 1]⟩ w) (j : (⟨3, ![M, A, B]⟩ : Shape).Idx) :
    (slabScatterDims N A B M wf).start j idx 2 = 0 := by
  unfold ScatterDims.start
  rw [dif_neg (by decide : (2 : Fin 3) ∉ ([0] : List (Fin 3)))]

/-- The leading axis is inserted: the window coordinate on it is `0`. -/
theorem slabScatter_window0 (j : (⟨3, ![M, A, B]⟩ : Shape).Idx) : (slabScatterDims N A B M wf).window j 0 = 0 := by
  unfold ScatterDims.window
  rw [dif_neg (not_mem_kept (List.mem_singleton.mpr rfl))]

/-- The window coordinate on the operand's middle axis is the update's slab row. -/
theorem slabScatter_window1 (j : Fin M) (f : Fin A) (g : Fin B) :
    (slabScatterDims N A B M wf).window (ix3 j f g) 1 = f.val := by
  unfold ScatterDims.window
  rw [dif_pos (mem_kept (by decide : (1 : Fin 3) ∉ ([0] : List (Fin 3))))]
  rfl

/-- The window coordinate on the operand's last axis is the update's slab column. -/
theorem slabScatter_window2 (j : Fin M) (f : Fin A) (g : Fin B) :
    (slabScatterDims N A B M wf).window (ix3 j f g) 2 = g.val := by
  unfold ScatterDims.window
  rw [dif_pos (mem_kept (by decide : (2 : Fin 3) ∉ ([0] : List (Fin 3))))]
  rfl

/-- UPDATE `(j, f, g)` LANDS ON ELEMENT `(i, f', g')` exactly when its slab's index `idx[j, 0]`, read signed, is `i`
    and its place `(f, g)` in the slab is `(f', g')`. -/
theorem slabScatter_resultIdx (idx : IVec ⟨2, ![M, 1]⟩ w) (j : Fin M) (f : Fin A) (g : Fin B) (i : Fin N)
    (f' : Fin A) (g' : Fin B) :
    (slabScatterDims N A B M wf).resultIdx? (ix3 j f g) idx = some (ix3 i f' g') ↔
      ((idx (ix2 j 0)).toInt = (i.val : Int) ∧ f = f' ∧ g = g') := by
  rw [resultIdx?_eq_some_iff]
  constructor
  · intro H
    have h0 := H 0
    have h1 := H 1
    have h2 := H 2
    rw [slabScatter_start0, slabScatter_window0, Nat.cast_zero, add_zero] at h0
    rw [slabScatter_start1, slabScatter_window1, zero_add] at h1
    rw [slabScatter_start2, slabScatter_window2, zero_add] at h2
    exact ⟨h0, Fin.ext (Int.ofNat_inj.mp h1), Fin.ext (Int.ofNat_inj.mp h2)⟩
  · intro H a
    match a with
    | ⟨0, _⟩ =>
      show (slabScatterDims N A B M wf).start (ix3 j f g) idx 0
        + ((slabScatterDims N A B M wf).window (ix3 j f g) 0 : Int) = _
      rw [slabScatter_start0, slabScatter_window0, Nat.cast_zero, add_zero]
      exact H.1
    | ⟨1, _⟩ =>
      show (slabScatterDims N A B M wf).start (ix3 j f g) idx 1
        + ((slabScatterDims N A B M wf).window (ix3 j f g) 1 : Int) = _
      rw [slabScatter_start1, slabScatter_window1, zero_add, H.2.1]
    | ⟨2, _⟩ =>
      show (slabScatterDims N A B M wf).start (ix3 j f g) idx 2
        + ((slabScatterDims N A B M wf).window (ix3 j f g) 2 : Int) = _
      rw [slabScatter_start2, slabScatter_window2, zero_add, H.2.2]

variable {φ : FTy}

/-- SLABS ACCUMULATED INTO A RANK-3 ARRAY, read at `(i, f, g)`: the operand's element plus the sum of element
    `(f, g)` of the update slabs whose index `idx[j, 0]`, read signed, is `i`. -/
theorem slabScatterAdd_apply (wf : ScatterDims.WF ⟨3, ![N, A, B]⟩ ⟨2, ![M, 1]⟩ ⟨3, ![M, A, B]⟩ [1, 2] [0] [0] 1)
    (x : (⟨3, ![N, A, B]⟩ : Shape).Idx → EReal) (idx : IVec ⟨2, ![M, 1]⟩ w)
    (upd : (⟨3, ![M, A, B]⟩ : Shape).Idx → EReal) (i : Fin N) (f : Fin A) (g : Fin B) :
    Host.scatterAdd (F := Ideal) (φ := φ) (slabScatterDims N A B M wf) x idx upd (ix3 i f g)
      = x (ix3 i f g)
        + ∑ j ∈ Finset.univ.filter (fun j : Fin M => (idx (ix2 j 0)).toInt = (i.val : Int)), upd (ix3 j f g) := by
  simp only [Host.scatterAdd, Ideal.hostScatterAdd_def, Ideal.hostScatterAdd]
  congr 1
  rw [Finset.sum_filter, Finset.sum_filter, sum_idx3]
  refine Finset.sum_congr rfl fun j _ => ?_
  rw [Finset.sum_congr rfl fun f₁ _ => Finset.sum_congr rfl fun g₁ _ =>
    if_congr (slabScatter_resultIdx wf idx j f₁ g₁ i f g) rfl rfl]
  by_cases h : (idx (ix2 j 0)).toInt = (i.val : Int)
  · simp only [h, true_and, if_true]
    rw [Finset.sum_eq_single f]
    · rw [Finset.sum_eq_single g]
      · rw [if_pos ⟨rfl, rfl⟩]
      · intro g₁ _ hg
        rw [if_neg fun hh => hg hh.2]
      · intro hg
        exact absurd (Finset.mem_univ g) hg
    · intro f₁ _ hf
      refine Finset.sum_eq_zero fun g₁ _ => ?_
      rw [if_neg fun hh => hf hh.1]
    · intro hf
      exact absurd (Finset.mem_univ f) hf
  · simp only [h, false_and, if_false, Finset.sum_const_zero]

end SlabScatter

end Idealize.ShloMosaic.GatherScatter

end
-- ==== Proof.ScatterBridge.lean ====
/-
  ACCUMULATING ROWS OF THE FLATTENED UPDATES IS THE FLATTENING OF ACCUMULATING THE SLABS.

  One program accumulates the rows of the updates flattened to `[800000, 128]` into a zero `[50000, 128]` matrix; the other
  accumulates the `[8, 16]` slabs of the updates `[800000, 8, 16]` into a zero `[50000, 8, 16]` array and flattens the result
  to `[50000, 128]`. Both use the same column of indices. Read at `(n, c)` with `c = 16·h + d`, `h < 8`, `d < 16`: the first
  is `0 + ∑ {e | idx[e, 0] = n} flat(U)[e, c]` and `flat(U)[e, c] = U[e, h, d]` (same row-major position,
  `e·128 + c = (e·8 + h)·16 + d`); the second is the slab scatter at `(n, h, d)` (same row-major position,
  `n·128 + c = (n·8 + h)·16 + d`), which is `0 + ∑ {e | idx[e, 0] = n} U[e, h, d]`. The two sums run over the same updates
  and agree term by term; no condition on the indices is needed, an update whose index is outside `[0, 50000)` being
  dropped by both.
-/
import proofs.«429932_j30906584662329_2_alg».proof.KernelIdeal
import proofs.«429932_j30906584662329_2_alg».proof.ReferenceIdeal
import proofs.«429932_j30906584662329_2_alg».proof.Proof.LibGatherScatter
import proofs.«429932_j30906584662329_2_alg».proof.Proof.LibGatherScatter3
import Idealize.ShloMosaic.Lib.Pipeline.Value
import Idealize.ShloMosaic.Lib.ValueIdx

noncomputable section

open scoped BigOperators

namespace Cert.Bridge

open Idealize.ShloMosaic Idealize.ShloMosaic.ValueIdx Idealize.ShloMosaic.GatherScatter

variable [Cert.KernelIdeal.Facts₀] [Cert.ReferenceIdeal.Facts₀]

/-- Column `c < 128` of a flattened row is place `(c / 16, c % 16)` of the `[8, 16]` slab: the slab row. -/
abbrev slabRow (c : Fin 128) : Fin 8 := ⟨c.val / 16, by have := c.isLt; omega⟩

/-- … and the slab column. -/
abbrev slabCol (c : Fin 128) : Fin 16 := ⟨c.val % 16, by omega⟩

/-- FLATTENING `[m, 8, 16]` TO `[m, 128]`, read at `(e, c)`: the array at `(e, c / 16, c % 16)`, the index with the same
    row-major position. -/
theorem flatten_apply {α : Type} {m : Nat} (x : (⟨3, ![m, 8, 16]⟩ : Shape).Idx → α)
    (h : (⟨3, ![m, 8, 16]⟩ : Shape).ShapeCasts ⟨2, ![m, 128]⟩) (e : Fin m) (c : Fin 128) :
    shapeCast ⟨2, ![m, 128]⟩ x h (ix2 e c) = x (ix3 e (slabRow c) (slabCol c)) := by
  refine shapeCast_apply x h (ix2 e c) (ix3 e (slabRow c) (slabCol c)) ?_
  rw [Shape.rowMajor_val_three, Shape.rowMajor_val_two]
  show (e.val * 8 + c.val / 16) * 16 + c.val % 16 = e.val * 128 + c.val
  omega

/-- The zero scalar broadcast to any shape reads, at every index, the scalar zero's word. -/
theorem zeroSplat_apply {t : Shape} (h : (⟨0, ![]⟩ : Shape).BroadcastsInDim t ![]) (j : t.Idx) :
    broadcastInDim t ![] h (constant (F := Ideal) ⟨0, ![]⟩ .f32 0x00000000#32) j
      = Ideal.ofBits .f32 0x00000000#32 := rfl

/-- THE TWO SCATTERS AGREE: rows of the flattened updates accumulated into the zero `[50000, 128]` matrix are the
    flattening of the `[8, 16]` slabs accumulated into the zero `[50000, 8, 16]` array, for every column of indices. -/
theorem scatter_reshape (idx : IVec Cert.KernelIdeal.S800000x1 32)
    (U : FVec Ideal Cert.ReferenceIdeal.S800000x8x16 .f32) :
    Host.scatterAdd (F := Ideal) Cert.KernelIdeal.scatter_S50000x128_S800000x1_S800000x128_1_0_0_1
        (broadcastInDim Cert.KernelIdeal.S50000x128 ![] Cert.KernelIdeal.Facts₀.bcast_S_S50000x128
          (constant (F := Ideal) Cert.KernelIdeal.S_ .f32 0x00000000#32)) idx
        (shapeCast Cert.KernelIdeal.S800000x128 U Cert.KernelIdeal.Facts₀.shapeCasts_S800000x8x16_S800000x128)
      = shapeCast Cert.ReferenceIdeal.S50000x128
          (Host.scatterAdd (F := Ideal) Cert.ReferenceIdeal.scatter_S50000x8x16_S800000x1_S800000x8x16_12_0_0_1
            (broadcastInDim Cert.ReferenceIdeal.S50000x8x16 ![] Cert.ReferenceIdeal.Facts₀.bcast_S_S50000x8x16
              (constant (F := Ideal) Cert.ReferenceIdeal.S_ .f32 0x00000000#32)) idx U)
          Cert.ReferenceIdeal.Facts₀.shapeCasts_S50000x8x16_S50000x128 := by
  funext i
  obtain ⟨n, c, rfl⟩ : ∃ (n : Fin 50000) (c : Fin 128), i = ix2 n c := ⟨i 0, i 1, eq_ix2 i⟩
  -- the right side: the flattening read at (n, c) is the slab scatter at (n, c / 16, c % 16)
  rw [flatten_apply (m := 50000)]
  -- the printed records are the row and the slab dimension numbers
  show Host.scatterAdd (F := Ideal) (φ := .f32)
      (rowScatterDims 50000 128 800000 Cert.KernelIdeal.Facts₀.scatter_S50000x128_S800000x1_S800000x128_1_0_0_1_wf)
      _ idx _ (ix2 n c)
    = Host.scatterAdd (F := Ideal) (φ := .f32)
      (slabScatterDims 50000 8 16 800000 Cert.ReferenceIdeal.Facts₀.scatter_S50000x8x16_S800000x1_S800000x8x16_12_0_0_1_wf)
      _ idx U (ix3 n (slabRow c) (slabCol c))
  rw [rowScatterAdd_apply, slabScatterAdd_apply, zeroSplat_apply, zeroSplat_apply]
  -- both are the zero plus a sum over the same updates; the terms agree by the flattening of the updates
  refine congrArg (fun s : EReal => Ideal.ofBits .f32 0x00000000#32 + s) ?_
  refine Finset.sum_congr rfl fun e _ => ?_
  exact flatten_apply (m := 800000) U _ e c

end Cert.Bridge

end
-- ==== Proof.Glue.lean ====
/-
  THE VALUE BRIDGE: under the index ranges, the kernel program's result array is the reference's result of the
  same arguments.

  The chain, each link an equation between whole arrays:
  * the three projections agree entry by entry, both being a row of `x` against a column of the weights plus the bias;
  * the three row gathers agree: for indices in [0, 50000) the fill of the masked gather never applies, the wrapped
    index column is the same on both sides, and the gathered arrays are the projections just identified;
  * the edge arrays agree entry by entry, both being the same formula of the three gathered arrays;
  * the scatter of the flattened edge array is the flattening of the scatter of the edge array;
  * the node updates agree entry by entry, both being the same formula of `x`, the scattered array and the parameters.
-/
import proofs.«429932_j30906584662329_2_alg».proof.Proof.KI.Run
import proofs.«429932_j30906584662329_2_alg».proof.Proof.KI.Val1
import proofs.«429932_j30906584662329_2_alg».proof.Proof.KI.HostQKV
import proofs.«429932_j30906584662329_2_alg».proof.Proof.KI.HostFFN
import proofs.«429932_j30906584662329_2_alg».proof.Proof.KI.HostTake
import proofs.«429932_j30906584662329_2_alg».proof.Proof.Ref1
import proofs.«429932_j30906584662329_2_alg».proof.Proof.Ref2
import proofs.«429932_j30906584662329_2_alg».proof.Proof.TakeMask
import proofs.«429932_j30906584662329_2_alg».proof.Proof.ScatterBridge
import proofs.«429932_j30906584662329_2_alg».proof.Proof.Gen.ReferenceIdeal.Read

noncomputable section

namespace Cert.Bridge

open Cert.KernelIdeal Cert.KernelIdeal.Hand
open Idealize.ShloMosaic Idealize.ShloMosaic.ValueIdx Idealize.SL.Sem Idealize.ShloMosaic.TcCoe

variable [Cert.KernelIdeal.Facts] [Cert.ReferenceIdeal.Facts]
variable (m : (ℓ : Loc nD τ sig) → Buf (Elt Ideal) ℓ) (ρ : Dev nD → PrngReg) (c : Dev nD)

/-! ## The projections -/

/-- The kernel program's query projection is the reference's. -/
theorem proj_q :
    W3 m ρ c (Proc.devRef .tc main_v5)
      = Cert.ReferenceIdeal.Read.val_main_v4 (F := Ideal) (m ((c : Thread nD τ).loc main_arg0)) (m ((c : Thread nD τ).loc main_arg3)) (m ((c : Thread nD τ).loc main_arg4)) := by
  refine funext fun (i : (⟨3, ![50000, 8, 16]⟩ : Shape).Idx) => ?_
  obtain ⟨n, h, d, rfl⟩ : ∃ (n : Fin 50000) (h : Fin 8) (d : Fin 16), i = ix3 n h d := ⟨i 0, i 1, i 2, eq_ix3 i⟩
  exact (Cert.KernelIdeal.Val.kq_apply m ρ c n h d).trans (ref_q _ _ _ n h d).symm

/-- The kernel program's key projection is the reference's. -/
theorem proj_k :
    W3 m ρ c (Proc.devRef .tc main_v7)
      = Cert.ReferenceIdeal.Read.val_main_v9 (F := Ideal) (m ((c : Thread nD τ).loc main_arg0)) (m ((c : Thread nD τ).loc main_arg5)) (m ((c : Thread nD τ).loc main_arg6)) := by
  refine funext fun (i : (⟨3, ![50000, 8, 16]⟩ : Shape).Idx) => ?_
  obtain ⟨n, h, d, rfl⟩ : ∃ (n : Fin 50000) (h : Fin 8) (d : Fin 16), i = ix3 n h d := ⟨i 0, i 1, i 2, eq_ix3 i⟩
  exact (Cert.KernelIdeal.Val.kk_apply m ρ c n h d).trans (ref_k _ _ _ n h d).symm

/-- The kernel program's value projection is the reference's. -/
theorem proj_v :
    W3 m ρ c (Proc.devRef .tc main_v9)
      = Cert.ReferenceIdeal.Read.val_main_v14 (F := Ideal) (m ((c : Thread nD τ).loc main_arg0)) (m ((c : Thread nD τ).loc main_arg7)) (m ((c : Thread nD τ).loc main_arg8)) := by
  refine funext fun (i : (⟨3, ![50000, 8, 16]⟩ : Shape).Idx) => ?_
  obtain ⟨n, h, d, rfl⟩ : ∃ (n : Fin 50000) (h : Fin 8) (d : Fin 16), i = ix3 n h d := ⟨i 0, i 1, i 2, eq_ix3 i⟩
  exact (Cert.KernelIdeal.Val.kv_apply m ρ c n h d).trans (ref_v _ _ _ n h d).symm

/-! ## The row gathers

The two programs' gathers of the same array along the same index vector agree: the wrapped index column is spelled by
the same operations on both sides, and the two gather records have the same fields. -/

theorem gather_k (X : FVec Ideal Cert.KernelIdeal.S50000x8x16 .f32) (s : IVec Cert.KernelIdeal.S800000 32) :
    Host.gather Cert.KernelIdeal.gather_S50000x8x16_S800000x1_S800000x8x16_12_0_n_n_0_1_1816 X (takeIdx s)
      = Host.gather Cert.ReferenceIdeal.gather_S50000x8x16_S800000x1_S800000x8x16_12_0_n_n_0_1_1816 X
          (Cert.ReferenceIdeal.Read.val_main_v20 (F := Ideal) s) := rfl

theorem gather_q (X : FVec Ideal Cert.KernelIdeal.S50000x8x16 .f32) (s : IVec Cert.KernelIdeal.S800000 32) :
    Host.gather Cert.KernelIdeal.gather_S50000x8x16_S800000x1_S800000x8x16_12_0_n_n_0_1_1816 X (takeIdx s)
      = Host.gather Cert.ReferenceIdeal.gather_S50000x8x16_S800000x1_S800000x8x16_12_0_n_n_0_1_1816 X
          (Cert.ReferenceIdeal.Read.val_main_v27 (F := Ideal) s) := rfl

theorem gather_v (X : FVec Ideal Cert.KernelIdeal.S50000x8x16 .f32) (s : IVec Cert.KernelIdeal.S800000 32) :
    Host.gather Cert.KernelIdeal.gather_S50000x8x16_S800000x1_S800000x8x16_12_0_n_n_0_1_1816 X (takeIdx s)
      = Host.gather Cert.ReferenceIdeal.gather_S50000x8x16_S800000x1_S800000x8x16_12_0_n_n_0_1_1816 X
          (Cert.ReferenceIdeal.Read.val_main_v41 (F := Ideal) s) := rfl

section ranges

variable (h1 : ∀ e : Fin 800000, 0 ≤ (((m ((c : Thread nD τ).loc main_arg1)) : IVec Cert.KernelIdeal.S800000 32) (ix1 e)).toInt
    ∧ (((m ((c : Thread nD τ).loc main_arg1)) : IVec Cert.KernelIdeal.S800000 32) (ix1 e)).toInt < 50000)
variable (h2 : ∀ e : Fin 800000, 0 ≤ (((m ((c : Thread nD τ).loc main_arg2)) : IVec Cert.KernelIdeal.S800000 32) (ix1 e)).toInt
    ∧ (((m ((c : Thread nD τ).loc main_arg2)) : IVec Cert.KernelIdeal.S800000 32) (ix1 e)).toInt < 50000)

include h1 in
/-- The gathered key rows (along the source indices) are the reference's. -/
theorem take_k :
    W6 m ρ c (Proc.devRef .tc main_v10)
      = Cert.ReferenceIdeal.Read.val_main_v21 (F := Ideal) (m ((c : Thread nD τ).loc main_arg0)) (m ((c : Thread nD τ).loc main_arg1)) (m ((c : Thread nD τ).loc main_arg5)) (m ((c : Thread nD τ).loc main_arg6)) := by
  refine (Cert.KernelIdeal.Val.w6_v10 m ρ c).trans ?_
  refine (take_eq_gather (F := Ideal) _ h1 _).trans ?_
  refine (congrArg (fun X : FVec Ideal Cert.KernelIdeal.S50000x8x16 .f32 =>
      Host.gather Cert.KernelIdeal.gather_S50000x8x16_S800000x1_S800000x8x16_12_0_n_n_0_1_1816 X (takeIdx (m ((c : Thread nD τ).loc main_arg1)))) (proj_k m ρ c)).trans ?_
  exact gather_k _ _

include h2 in
/-- The gathered query rows (along the destination indices) are the reference's. -/
theorem take_q :
    W6 m ρ c (Proc.devRef .tc main_v11)
      = Cert.ReferenceIdeal.Read.val_main_v28 (F := Ideal) (m ((c : Thread nD τ).loc main_arg0)) (m ((c : Thread nD τ).loc main_arg2)) (m ((c : Thread nD τ).loc main_arg3)) (m ((c : Thread nD τ).loc main_arg4)) := by
  refine (Cert.KernelIdeal.Val.w6_v11 m ρ c).trans ?_
  refine (take_eq_gather (F := Ideal) _ h2 _).trans ?_
  refine (congrArg (fun X : FVec Ideal Cert.KernelIdeal.S50000x8x16 .f32 =>
      Host.gather Cert.KernelIdeal.gather_S50000x8x16_S800000x1_S800000x8x16_12_0_n_n_0_1_1816 X (takeIdx (m ((c : Thread nD τ).loc main_arg2)))) (proj_q m ρ c)).trans ?_
  exact gather_q _ _

include h1 in
/-- The gathered value rows (along the source indices) are the reference's. -/
theorem take_v :
    W6 m ρ c (Proc.devRef .tc main_v12)
      = Cert.ReferenceIdeal.Read.val_main_v42 (F := Ideal) (m ((c : Thread nD τ).loc main_arg0)) (m ((c : Thread nD τ).loc main_arg1)) (m ((c : Thread nD τ).loc main_arg7)) (m ((c : Thread nD τ).loc main_arg8)) := by
  refine (Cert.KernelIdeal.Val.w6_v12 m ρ c).trans ?_
  refine (take_eq_gather (F := Ideal) _ h1 _).trans ?_
  refine (congrArg (fun X : FVec Ideal Cert.KernelIdeal.S50000x8x16 .f32 =>
      Host.gather Cert.KernelIdeal.gather_S50000x8x16_S800000x1_S800000x8x16_12_0_n_n_0_1_1816 X (takeIdx (m ((c : Thread nD τ).loc main_arg1)))) (proj_v m ρ c)).trans ?_
  exact gather_v _ _

/-! ## The edge array -/

include h1 h2 in
/-- The kernel program's edge array is the reference's. -/
theorem edge_eq :
    W7 m ρ c (Proc.devRef .tc main_v13)
      = Cert.ReferenceIdeal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have hk : Ve1 m ρ c main_v10 = Cert.ReferenceIdeal.Read.val_main_v21 (F := Ideal) (m ((c : Thread nD τ).loc main_arg0)) (m ((c : Thread nD τ).loc main_arg1)) (m ((c : Thread nD τ).loc main_arg5)) (m ((c : Thread nD τ).loc main_arg6)) :=
    take_k m ρ c h1
  have hq : Ve1 m ρ c main_v11 = Cert.ReferenceIdeal.Read.val_main_v28 (F := Ideal) (m ((c : Thread nD τ).loc main_arg0)) (m ((c : Thread nD τ).loc main_arg2)) (m ((c : Thread nD τ).loc main_arg3)) (m ((c : Thread nD τ).loc main_arg4)) :=
    take_q m ρ c h2
  have hv : Ve1 m ρ c main_v12 = Cert.ReferenceIdeal.Read.val_main_v42 (F := Ideal) (m ((c : Thread nD τ).loc main_arg0)) (m ((c : Thread nD τ).loc main_arg1)) (m ((c : Thread nD τ).loc main_arg7)) (m ((c : Thread nD τ).loc main_arg8)) :=
    take_v m ρ c h1
  refine (W7_arr m ρ c 3).trans ?_
  refine funext fun (i : (⟨3, ![800000, 8, 16]⟩ : Shape).Idx) => ?_
  obtain ⟨e, h, d, rfl⟩ : ∃ (e : Fin 800000) (h : Fin 8) (d : Fin 16), i = ix3 e h d := ⟨i 0, i 1, i 2, eq_ix3 i⟩
  refine (Cert.KernelIdeal.Val.arr1_apply (Ve1 m ρ) c e h d).trans ?_
  rw [hk, hq, hv]
  exact (ref_edge _ _ _ _ _ _ _ _ _ e h d).symm

/-! ## The scattered array -/

/-- The kernel program's scatter of a flattened array, with the reference's spelling of the zero array and of the index
    column on the right. -/
theorem scat_of (x2 : IVec Cert.KernelIdeal.S800000 32) (U : FVec Ideal Cert.ReferenceIdeal.S800000x8x16 .f32) :
    Host.scatterAdd (F := Ideal) Cert.KernelIdeal.scatter_S50000x128_S800000x1_S800000x128_1_0_0_1
        (broadcastInDim Cert.KernelIdeal.S50000x128 ![] Cert.KernelIdeal.Facts₀.bcast_S_S50000x128
          (constant (F := Ideal) Cert.KernelIdeal.S_ .f32 0x00000000#32))
        (broadcastInDim Cert.KernelIdeal.S800000x1 ![0] Cert.KernelIdeal.Facts₀.bcast_S800000_S800000x1_0 x2)
        (shapeCast Cert.KernelIdeal.S800000x128 U Cert.KernelIdeal.Facts₀.shapeCasts_S800000x8x16_S800000x128)
      = shapeCast Cert.ReferenceIdeal.S50000x128
          (Host.scatterAdd (F := Ideal) Cert.ReferenceIdeal.scatter_S50000x8x16_S800000x1_S800000x8x16_12_0_0_1
            (Cert.ReferenceIdeal.Read.val_main_v45 (F := Ideal)) (Cert.ReferenceIdeal.Read.val_main_v46 (F := Ideal) x2) U)
          Cert.ReferenceIdeal.Facts₀.shapeCasts_S50000x8x16_S50000x128 :=
  scatter_reshape _ U

include h1 h2 in
/-- The kernel program's scattered array is the reference's. -/
theorem scat_eq :
    W8 m ρ c (Proc.devRef .tc main_v17)
      = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (Cert.KernelIdeal.Val.w8_v17 m ρ c).trans ?_
  rw [edge_eq m ρ c h1 h2]
  exact scat_of _ _

/-! ## The result -/

include h1 h2 in
/-- THE VALUE BRIDGE. -/
theorem value_eq :
    W9 m ρ c (Proc.devRef .tc main_v23)
      = Cert.ReferenceIdeal.Read.val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine funext fun (i : (⟨2, ![50000, 128]⟩ : Shape).Idx) => ?_
  obtain ⟨n, j, rfl⟩ : ∃ (n : Fin 50000) (j : Fin 128), i = ix2 n j := ⟨i 0, i 1, eq_ix2 i⟩
  refine (Cert.KernelIdeal.Val.out_apply m ρ c n j).trans ?_
  rw [scat_eq m ρ c h1 h2]
  exact (ref_ffn _ _ _ _ _ _ _ _ _ _ _ _ _ _ _ n j).symm

end ranges

end Cert.Bridge

end
-- ==== Proof.lean ====
/-
  A graph-attention layer with two layer norms: the fused kernel program against its plain reference, equal over the
  extended reals wherever every edge endpoint is a node index in [0, 50000).

  The kernel program computes Q, K, V in ONE projection against the column-concatenated weights, slices and reshapes
  them into heads, gathers K and V at the source and Q at the destination of every edge, weighs each gathered value
  row by exp(clip((k·q)·¼, −5, 5)) in a second kernel, sums the weighted rows into their destination nodes, and in a
  third kernel adds the input, normalises twice (multiplying by the reciprocal square root of variance plus ε),
  projects, clips at zero and adds. The reference does the same with three separate projections, a division by 4, a
  division by the square root, and the sum taken over [8,16] slabs before flattening.

  What joins the two: a slice of a product against concatenated columns is the product against that block of
  columns; multiplying by ¼ is dividing by 4 on every extended real; a row gather with a NaN fill for out-of-range
  rows is the plain gather when every index is in range (the one place the index precondition is used); summing
  flattened rows into nodes is flattening the sum of slabs; and a · rsqrt(y) = a / √y for every extended real a
  once y > 0, which holds here with no finiteness assumption because a variance plus a positive ε is positive.

  The three frames: each kernel body loads its blocks, computes, and stores its one output block whole, so the
  three regions and the host stretches between them run to the end leaving the fifteen argument arrays as launched,
  at the word level and over the extended reals alike; the reference is straight-line host code.
-/
import proofs.«429932_j30906584662329_2_alg».proof.Defs
import proofs.«429932_j30906584662329_2_alg».proof.Proof.Gen.Kernel
import proofs.«429932_j30906584662329_2_alg».proof.Proof.Gen.KernelIdeal
import proofs.«429932_j30906584662329_2_alg».proof.Proof.Gen.ReferenceIdeal
import proofs.«429932_j30906584662329_2_alg».proof.Proof.Gen.ReferenceIdeal.Run
import proofs.«429932_j30906584662329_2_alg».proof.Proof.Gen.ReferenceIdeal.Read
import proofs.«429932_j30906584662329_2_alg».proof.Proof.Gen.Pre_finite_inputs
import proofs.«429932_j30906584662329_2_alg».proof.Proof.K.Run
import proofs.«429932_j30906584662329_2_alg».proof.Proof.KI.Run
import proofs.«429932_j30906584662329_2_alg».proof.Proof.PreRange
import proofs.«429932_j30906584662329_2_alg».proof.Proof.Glue
import Idealize.ShloMosaic.Adequacy
import Idealize.ShloMosaic.Init

noncomputable section

namespace Cert.Proof

open Idealize.ShloMosaic Idealize.ShloMosaic.TcCoe Idealize.SL.Sem

/-- The word-level program runs to the end and leaves its arguments as launched. -/
theorem frame_k : Cert.frame_Kernel (hKernel := Cert.Kernel.Gen.facts) (hPre_finite_inputs := Cert.Pre_finite_inputs.Gen.facts) :=
  fun m ρ _ => Cert.Kernel.Hand.frame m ρ

/-- So does the same program read over the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference is straight-line host code: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the same result array: the kernel program's last region output, which under the index
    ranges the precondition states is the reference's result term of the same arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hr := fun c => Cert.Bridge.range_of_pre _ _ _ _ _ _ _ _ _ _ _ _ _ _ _ (hpre c)
  refine ⟨fun c => Cert.KernelIdeal.Hand.W9 m ρ c (Proc.devRef .tc Cert.KernelIdeal.main_v23), ?_, ?_⟩
  · refine (θ_run Cert.KernelIdeal.defs _ _).mono (fun r h c => ⟨h c Cert.KernelIdeal.main_v23 (by decide),
      (h c Cert.KernelIdeal.main_arg0 (by decide)).trans (Cert.KernelIdeal.Hand.W9_main_arg0 m ρ c),
      (h c Cert.KernelIdeal.main_arg1 (by decide)).trans (Cert.KernelIdeal.Hand.W9_main_arg1 m ρ c),
      (h c Cert.KernelIdeal.main_arg2 (by decide)).trans (Cert.KernelIdeal.Hand.W9_main_arg2 m ρ c),
      (h c Cert.KernelIdeal.main_arg3 (by decide)).trans (Cert.KernelIdeal.Hand.W9_main_arg3 m ρ c),
      (h c Cert.KernelIdeal.main_arg4 (by decide)).trans (Cert.KernelIdeal.Hand.W9_main_arg4 m ρ c),
      (h c Cert.KernelIdeal.main_arg5 (by decide)).trans (Cert.KernelIdeal.Hand.W9_main_arg5 m ρ c),
      (h c Cert.KernelIdeal.main_arg6 (by decide)).trans (Cert.KernelIdeal.Hand.W9_main_arg6 m ρ c),
      (h c Cert.KernelIdeal.main_arg7 (by decide)).trans (Cert.KernelIdeal.Hand.W9_main_arg7 m ρ c),
      (h c Cert.KernelIdeal.main_arg8 (by decide)).trans (Cert.KernelIdeal.Hand.W9_main_arg8 m ρ c),
      (h c Cert.KernelIdeal.main_arg9 (by decide)).trans (Cert.KernelIdeal.Hand.W9_main_arg9 m ρ c),
      (h c Cert.KernelIdeal.main_arg10 (by decide)).trans (Cert.KernelIdeal.Hand.W9_main_arg10 m ρ c),
      (h c Cert.KernelIdeal.main_arg11 (by decide)).trans (Cert.KernelIdeal.Hand.W9_main_arg11 m ρ c),
      (h c Cert.KernelIdeal.main_arg12 (by decide)).trans (Cert.KernelIdeal.Hand.W9_main_arg12 m ρ c),
      (h c Cert.KernelIdeal.main_arg13 (by decide)).trans (Cert.KernelIdeal.Hand.W9_main_arg13 m ρ c),
      (h c Cert.KernelIdeal.main_arg14 (by decide)).trans (Cert.KernelIdeal.Hand.W9_main_arg14 m ρ c)⟩)
      (Cert.KernelIdeal.Hand.run_all m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v103_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2.1, (hagree c).2.2.2.2.2.2.2.2.2.2.1,
      (hagree c).2.2.2.2.2.2.2.2.2.2.2.1, (hagree c).2.2.2.2.2.2.2.2.2.2.2.2.1, (hagree c).2.2.2.2.2.2.2.2.2.2.2.2.2.1,
      (hagree c).2.2.2.2.2.2.2.2.2.2.2.2.2.2]
    exact (Cert.Bridge.value_eq m ρ c (hr c).1 (hr c).2).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
